-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x21x512x512 : Shape := ⟨4, ![8, 21, 512, 512]⟩
abbrev S21 : Shape := ⟨1, ![21]⟩
abbrev S8x512x512 : Shape := ⟨3, ![8, 512, 512]⟩
abbrev S_ : Shape := ⟨0, ![]⟩

class Facts : Prop where
  bcast_S_S8x21x512x512 : S_.BroadcastsInDim S8x21x512x512 (![] : Fin 0 → Fin S8x21x512x512.rank)
  reducesTo_S8x21x512x512_S_d0_1_2_3 : S8x21x512x512.ReducesTo [0, 1, 2, 3] S_
  h_S_ : 0 < S_.numel
  bcast_S_S21 : S_.BroadcastsInDim S21 (![] : Fin 0 → Fin S21.rank)
  reducesTo_S21_S_d0 : S21.ReducesTo [0] S_
  bcast_S_S8x512x512 : S_.BroadcastsInDim S8x512x512 (![] : Fin 0 → Fin S8x512x512.rank)
  reducesTo_S8x512x512_S_d0_1_2 : S8x512x512.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8x21x512x512 .f32) (main_arg1 : FVec F S21 .f32) (main_arg2 : IVec S8x512x512 32) : IVec S_ 1 :=
  let main_v0 : FVec F S8x21x512x512 .f32 := Host.absf main_arg0
  let main_cst : FVec F S_ .f32 := constant S_ .f32 0x7F800000#32
  let main_v1 : FVec F S8x21x512x512 .f32 := broadcastInDim S8x21x512x512 ![] bcast_S_S8x21x512x512 main_cst
  let main_v2 : IVec S8x21x512x512 1 := cmpf .olt main_v0 main_v1
  let main_c : IVec S_ 1 := constantI S_ 1 1#1
  let main_v3 : IVec S_ 1 := (fun x v => Host.reduce IntOp.andi x v reducesTo_S8x21x512x512_S_d0_1_2_3 h_S_) main_v2 main_c
  let main_v4 : FVec F S21 .f32 := Host.absf main_arg1
  let main_cst_0 : FVec F S_ .f32 := constant S_ .f32 0x7F800000#32
  let main_v5 : FVec F S21 .f32 := broadcastInDim S21 ![] bcast_S_S21 main_cst_0
  let main_v6 : IVec S21 1 := cmpf .olt main_v4 main_v5
  let main_c_1 : IVec S_ 1 := constantI S_ 1 1#1
  let main_v7 : IVec S_ 1 := (fun x v => Host.reduce IntOp.andi x v reducesTo_S21_S_d0 h_S_) main_v6 main_c_1
  let main_v8 : IVec S_ 1 := andi main_v3 main_v7
  let main_c_2 : IVec S_ 32 := constantI S_ 32 0#32
  let main_v9 : IVec S8x512x512 32 := broadcastInDim S8x512x512 ![] bcast_S_S8x512x512 main_c_2
  let main_v10 : IVec S8x512x512 1 := cmpi .sge main_arg2 main_v9
  let main_c_3 : IVec S_ 1 := constantI S_ 1 1#1
  let main_v11 : IVec S_ 1 := (fun x v => Host.reduce IntOp.andi x v reducesTo_S8x512x512_S_d0_1_2 h_S_) main_v10 main_c_3
  let main_v12 : IVec S_ 1 := andi main_v8 main_v11
  let main_c_4 : IVec S_ 32 := constantI S_ 32 21#32
  let main_v13 : IVec S8x512x512 32 := broadcastInDim S8x512x512 ![] bcast_S_S8x512x512 main_c_4
  let main_v14 : IVec S8x512x512 1 := cmpi .slt main_arg2 main_v13
  let main_c_5 : IVec S_ 1 := constantI S_ 1 1#1
  let main_v15 : IVec S_ 1 := (fun x v => Host.reduce IntOp.andi x v reducesTo_S8x512x512_S_d0_1_2 h_S_) main_v14 main_c_5
  fn_part1 (F := F) main_v12 main_v15
-- ==== Kernel.lean ====
abbrev S8x21x512x512 : Shape := ⟨4, ![8, 21, 512, 512]⟩
abbrev S21 : Shape := ⟨1, ![21]⟩
abbrev S8x512x512 : Shape := ⟨3, ![8, 512, 512]⟩
abbrev S8x1x512x512 : Shape := ⟨4, ![8, 1, 512, 512]⟩
abbrev S_ : Shape := ⟨0, ![]⟩
abbrev S8x512x512x1 : Shape := ⟨4, ![8, 512, 512, 1]⟩
abbrev S2097152 : Shape := ⟨1, ![2097152]⟩
abbrev S2097152x1 : Shape := ⟨2, ![2097152, 1]⟩
abbrev S8x1x1x1 : Shape := ⟨4, ![8, 1, 1, 1]⟩
abbrev S8x21x1x1 : Shape := ⟨4, ![8, 21, 1, 1]⟩
abbrev S1x21x128x512 : Shape := ⟨4, ![1, 21, 128, 512]⟩
abbrev S1x1x128x512 : Shape := ⟨4, ![1, 1, 128, 512]⟩
abbrev S1x1x1x1 : Shape := ⟨4, ![1, 1, 1, 1]⟩
abbrev S1x21x1x1 : Shape := ⟨4, ![1, 21, 1, 1]⟩
abbrev S1x128x512 : Shape := ⟨3, ![1, 128, 512]⟩
abbrev S1x1x128 : Shape := ⟨3, ![1, 1, 128]⟩
abbrev S1x1x128x1 : Shape := ⟨4, ![1, 1, 128, 1]⟩
abbrev S1x1x1 : Shape := ⟨3, ![1, 1, 1]⟩
abbrev S1x21x128 : Shape := ⟨3, ![1, 21, 128]⟩
abbrev S1x21x128x1 : Shape := ⟨4, ![1, 21, 128, 1]⟩
abbrev S1x21x1 : Shape := ⟨3, ![1, 21, 1]⟩
abbrev S8x21 : Shape := ⟨2, ![8, 21]⟩

abbrev nBuf : Space → Nat
  | .hbm => 61
  | .vmem => 18
  | .smem => 0
  | _ => 0

abbrev bufTy : (tb : Table) → Fin (tcTables nBuf tb) → BufTy
  | .hbm, ⟨0, _⟩ => ⟨S8x21x512x512, .f32⟩
  | .hbm, ⟨1, _⟩ => ⟨S21, .f32⟩
  | .hbm, ⟨2, _⟩ => ⟨S8x512x512, .i32⟩
  | .hbm, ⟨3, _⟩ => ⟨S8x1x512x512, .i32⟩
  | .hbm, ⟨4, _⟩ => ⟨S_, .i32⟩
  | .hbm, ⟨5, _⟩ => ⟨S8x512x512, .i32⟩
  | .hbm, ⟨6, _⟩ => ⟨S8x512x512, .i1⟩
  | .hbm, ⟨7, _⟩ => ⟨S_, .i32⟩
  | .hbm, ⟨8, _⟩ => ⟨S8x512x512, .i32⟩
  | .hbm, ⟨9, _⟩ => ⟨S8x512x512, .i32⟩
  | .hbm, ⟨10, _⟩ => ⟨S8x512x512, .i32⟩
  | .hbm, ⟨11, _⟩ => ⟨S8x512x512x1, .i32⟩
  | .hbm, ⟨12, _⟩ => ⟨S8x512x512, .f32⟩
  | .hbm, ⟨13, _⟩ => ⟨S8x1x512x512, .f32⟩
  | .hbm, ⟨14, _⟩ => ⟨S_, .i32⟩
  | .hbm, ⟨15, _⟩ => ⟨S2097152, .i32⟩
  | .hbm, ⟨16, _⟩ => ⟨S2097152, .i32⟩
  | .hbm, ⟨17, _⟩ => ⟨S_, .i32⟩
  | .hbm, ⟨18, _⟩ => ⟨S21, .i32⟩
  | .hbm, ⟨19, _⟩ => ⟨S2097152x1, .i32⟩
  | .hbm, ⟨20, _⟩ => ⟨S21, .i32⟩
  | .hbm, ⟨21, _⟩ => ⟨S21, .f32⟩
  | .hbm, ⟨22, _⟩ => ⟨S8x1x1x1, .f32⟩
  | .hbm, ⟨23, _⟩ => ⟨S8x1x1x1, .f32⟩
  | .hbm, ⟨24, _⟩ => ⟨S8x21x1x1, .f32⟩
  | .hbm, ⟨25, _⟩ => ⟨S8x21x1x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8x21, .f32⟩
  | .hbm, ⟨35, _⟩ => ⟨S_, .f32⟩
  | .hbm, ⟨36, _⟩ => ⟨S21, .f32⟩
  | .hbm, ⟨37, _⟩ => ⟨S8x21, .f32⟩
  | .hbm, ⟨38, _⟩ => ⟨S_, .f32⟩
  | .hbm, ⟨39, _⟩ => ⟨S21, .f32⟩
  | .hbm, ⟨40, _⟩ => ⟨S21, .f32⟩
  | .hbm, ⟨41, _⟩ => ⟨S_, .f32⟩
  | .hbm, ⟨42, _⟩ => ⟨S21, .f32⟩
  | .hbm, ⟨43, _⟩ => ⟨S21, .f32⟩
  | .hbm, ⟨44, _⟩ => ⟨S_, .f32⟩
  | .hbm, ⟨45, _⟩ => ⟨S21, .f32⟩
  | .hbm, ⟨46, _⟩ => ⟨S21, .f32⟩
  | .hbm, ⟨47, _⟩ => ⟨S_, .f32⟩
  | .hbm, ⟨48, _⟩ => ⟨S21, .f32⟩
  | .hbm, ⟨49, _⟩ => ⟨S21, .f32⟩
  | .hbm, ⟨50, _⟩ => ⟨S21, .f32⟩
  | .hbm, ⟨51, _⟩ => ⟨S_, .f32⟩
  | .hbm, ⟨52, _⟩ => ⟨S21, .f32⟩
  | .hbm, ⟨53, _⟩ => ⟨S21, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S1x21x128x512, .f32⟩
  | .local _ .vmem, ⟨1, _⟩ => ⟨S1x21x128x512, .f32⟩
  | .local _ .vmem, ⟨2, _⟩ => ⟨S1x1x128x512, .i32⟩
  | .local _ .vmem, ⟨3, _⟩ => ⟨S1x1x128x512, .i32⟩
  | .local _ .vmem, ⟨4, _⟩ => ⟨S1x1x128x512, .f32⟩
  | .local _ .vmem, ⟨5, _⟩ => ⟨S1x1x128x512, .f32⟩
  | .local _ .vmem, ⟨6, _⟩ => ⟨S1x1x1x1, .f32⟩
  | .local _ .vmem, ⟨7, _⟩ => ⟨S1x1x1x1, .f32⟩
  | .local _ .vmem, ⟨8, _⟩ => ⟨S1x1x1x1, .f32⟩
  | .local _ .vmem, ⟨9, _⟩ => ⟨S1x1x1x1, .f32⟩
  | .local _ .vmem, ⟨10, _⟩ => ⟨S1x21x1x1, .f32⟩
  | .local _ .vmem, ⟨11, _⟩ => ⟨S1x21x1x1, .f32⟩
  | .local _ .vmem, ⟨12, _⟩ => ⟨S1x21x1x1, .f32⟩
  | .local _ .vmem, ⟨13, _⟩ => ⟨S1x21x1x1, .f32⟩
  | .local _ .vmem, ⟨14, _⟩ => ⟨S1x1x1x1, .f32⟩
  | .local _ .vmem, ⟨15, _⟩ => ⟨S1x1x1x1, .f32⟩
  | .local _ .vmem, ⟨16, _⟩ => ⟨S1x21x1x1, .f32⟩
  | .local _ .vmem, ⟨17, _⟩ => ⟨S1x21x1x1, .f32⟩
  | _, _ => ⟨S8x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev main_cst : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_cst_9 : Ref sig .tc := ⟨.hbm, 44, rfl⟩
abbrev main_v27 : Ref sig .tc := ⟨.hbm, 45, rfl⟩
abbrev main_v28 : Ref sig .tc := ⟨.hbm, 46, rfl⟩
abbrev main_cst_10 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_11 : Ref sig .tc := ⟨.hbm, 51, rfl⟩
abbrev main_v32 : Ref sig .tc := ⟨.hbm, 52, rfl⟩
abbrev main_v33 : Ref sig .tc := ⟨.hbm, 53, rfl⟩
abbrev main_cst_12 : Ref sig .tc := ⟨.hbm, 54, rfl⟩
abbrev main_v34 : Ref sig .tc := ⟨.hbm, 55, rfl⟩
abbrev main_cst_13 : Ref sig .tc := ⟨.hbm, 56, rfl⟩
abbrev main_v35 : Ref sig .tc := ⟨.hbm, 57, rfl⟩
abbrev main_cst_14 : Ref sig .tc := ⟨.hbm, 58, rfl⟩
abbrev main_v36 : Ref sig .tc := ⟨.hbm, 59, rfl⟩
abbrev main_v37 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v1 : BitVec 1 := Scalar.cmpi .eq arg1 c3_i32
  let v81 : BitVec 32 := Scalar.extui v1
  let c0_i32_60 : BitVec 32 := 0#32
  let v82 : BitVec 1 := Scalar.cmpi .ne v81 c0_i32_60
  v82

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x21x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x21x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x21x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S8x512x512_S8x1x512x512 : S8x512x512.ShapeCasts S8x1x512x512
  bcast_S_S8x512x512 : S_.BroadcastsInDim S8x512x512 (![] : Fin 0 → Fin S8x512x512.rank)
  bcast_S8x512x512_S8x512x512x1_0_1_2 : S8x512x512.BroadcastsInDim S8x512x512x1 (![0, 1, 2] : Fin 3 → Fin S8x512x512x1.rank)
  bcast_S_S2097152 : S_.BroadcastsInDim S2097152 (![] : Fin 0 → Fin S2097152.rank)
  shapeCasts_S8x512x512_S2097152 : S8x512x512.ShapeCasts S2097152
  bcast_S_S21 : S_.BroadcastsInDim S21 (![] : Fin 0 → Fin S21.rank)
  bcast_S2097152_S2097152x1_0 : S2097152.BroadcastsInDim S2097152x1 (![0] : Fin 1 → Fin S2097152x1.rank)
  inb_S1x1x1x1_S1x1x1x1_0_0_0_0 : ∀ a, (![0, 0, 0, 0] : Fin 4 → Nat) a + S1x1x1x1.size a ≤ S1x1x1x1.size a
  h_S1x1x1x1 : 0 < S1x1x1x1.numel
  shapeCasts_S1x1x1x1_S1x1x1x1 : S1x1x1x1.ShapeCasts S1x1x1x1
  inb_S1x21x1x1_S1x21x1x1_0_0_0_0 : ∀ a, (![0, 0, 0, 0] : Fin 4 → Nat) a + S1x21x1x1.size a ≤ S1x21x1x1.size a
  h_S1x21x1x1 : 0 < S1x21x1x1.numel
  shapeCasts_S1x21x1x1_S1x21x1x1 : S1x21x1x1.ShapeCasts S1x21x1x1
  inb_S1x21x128x512_S1x21x128x512_0_0_0_0 : ∀ a, (![0, 0, 0, 0] : Fin 4 → Nat) a + S1x21x128x512.size a ≤ S1x21x128x512.size a
  h_S1x21x128x512 : 0 < S1x21x128x512.numel
  reduces_S1x21x128x512_S1x128x512 : S1x21x128x512.Reduces [1] S1x128x512
  shapeCasts_S1x128x512_S1x1x128x512 : S1x128x512.ShapeCasts S1x1x128x512
  broadcasts_S1x1x128x512_S1x21x128x512 : S1x1x128x512.Broadcasts S1x21x128x512
  inb_S1x1x128x512_S1x1x128x512_0_0_0_0 : ∀ a, (![0, 0, 0, 0] : Fin 4 → Nat) a + S1x1x128x512.size a ≤ S1x1x128x512.size a
  h_S1x1x128x512 : 0 < S1x1x128x512.numel
  shapeCasts_S1x1x128x512_S1x1x128x512 : S1x1x128x512.ShapeCasts S1x1x128x512
  iota_S1x21x1x1_d1_w32 : S1x21x1x1.Iotas .tc 32 [1]
  broadcasts_S1x21x1x1_S1x21x128x512 : S1x21x1x1.Broadcasts S1x21x128x512
  reduces_S1x1x128x512_S1x1x128 : S1x1x128x512.Reduces [3] S1x1x128
  shapeCasts_S1x1x128_S1x1x128x1 : S1x1x128.ShapeCasts S1x1x128x1
  reduces_S1x1x128x1_S1x1x1 : S1x1x128x1.Reduces [2] S1x1x1
  shapeCasts_S1x1x1_S1x1x1x1 : S1x1x1.ShapeCasts S1x1x1x1
  reduces_S1x21x128x512_S1x21x128 : S1x21x128x512.Reduces [3] S1x21x128
  shapeCasts_S1x21x128_S1x21x128x1 : S1x21x128.ShapeCasts S1x21x128x1
  reduces_S1x21x128x1_S1x21x1 : S1x21x128x1.Reduces [2] S1x21x1
  shapeCasts_S1x21x1_S1x21x1x1 : S1x21x1.ShapeCasts S1x21x1x1
  reducesTo_S8x1x1x1_S_d0_1_2_3 : S8x1x1x1.ReducesTo [0, 1, 2, 3] S_
  h_S_ : 0 < S_.numel
  shapeCasts_S8x21x1x1_S8x21 : S8x21x1x1.ShapeCasts S8x21
  reducesTo_S8x21_S21_d0 : S8x21.ReducesTo [0] S21
  reducesTo_S21_S_d0 : S21.ReducesTo [0] S_
  gather_S21_S8x512x512x1_S8x512x512_n_0_n_n_0_3_1_wf : GatherDims.WF S21 S8x512x512x1 S8x512x512 [] [0] [] [0] [] 3 ![1]
  scatter_S21_S2097152x1_S2097152_n_0_0_1_wf : ScatterDims.WF S21 S2097152x1 S2097152 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x21x128x512.size a ≤ S8x21x512x512.size a
  hwx0_0 : ∀ i : grid0.Coords, EltTy.bits .f32 = 32 ∨ (Rect.block (s := S8x21x512x512) S1x21x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x512.size a ≤ S8x1x512x512.size a
  hwx0_1 : ∀ i : grid0.Coords, EltTy.bits .i32 = 32 ∨ (Rect.block (s := S8x1x512x512) S1x1x128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128x512.size a ≤ S8x1x512x512.size a
  hwx0_2 : ∀ i : grid0.Coords, EltTy.bits .f32 = 32 ∨ (Rect.block (s := S8x1x512x512) S1x1x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x1.size a ≤ S8x1x1x1.size a
  hwx0_3 : ∀ i : grid0.Coords, EltTy.bits .f32 = 32 ∨ (Rect.block (s := S8x1x1x1) S1x1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1x1.size a ≤ S8x1x1x1.size a
  hwx0_4 : ∀ i : grid0.Coords, EltTy.bits .f32 = 32 ∨ (Rect.block (s := S8x1x1x1) S1x1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x21x1x1.size a ≤ S8x21x1x1.size a
  hwx0_5 : ∀ i : grid0.Coords, EltTy.bits .f32 = 32 ∨ (Rect.block (s := S8x21x1x1) S1x21x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x21x1x1.size a ≤ S8x21x1x1.size a
  hwx0_6 : ∀ i : grid0.Coords, EltTy.bits .f32 = 32 ∨ (Rect.block (s := S8x21x1x1) S1x21x1x1.size (cc0_transform_6 i) (hinb0_6 i)).WholeWords (EltTy.packing .f32)

variable [Facts₀]

def gather_S21_S8x512x512x1_S8x512x512_n_0_n_n_0_3_1 : GatherDims S21 S8x512x512x1 S8x512x512 where
  offsetDims := []
  collapsedSliceDims := [0]
  operandBatchingDims := []
  startIndicesBatchingDims := []
  startIndexMap := [0]
  indexVectorDim := 3
  sliceSizes := ![1]
  wf := gather_S21_S8x512x512x1_S8x512x512_n_0_n_n_0_3_1_wf
def scatter_S21_S2097152x1_S2097152_n_0_0_1 : ScatterDims S21 S2097152x1 S2097152 where
  updateWindowDims := []
  insertedWindowDims := [0]
  scatterDimsToOperandDims := [0]
  indexVectorDim := 1
  wf := scatter_S21_S2097152x1_S2097152_n_0_0_1_wf

abbrev win0_0 : Pipeline.Window sig grid0 :=
  Pipeline.Window.ofSpec (Memref.whole main_arg0) S1x21x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S1x1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S1x1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_2) S1x21x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_3) S1x21x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x21x512x512 : Shape := ⟨4, ![8, 21, 512, 512]⟩
abbrev S21 : Shape := ⟨1, ![21]⟩
abbrev S8x512x512 : Shape := ⟨3, ![8, 512, 512]⟩
abbrev S_ : Shape := ⟨0, ![]⟩
abbrev S8x1x512x512 : Shape := ⟨4, ![8, 1, 512, 512]⟩
abbrev S8x1x512x512x1 : Shape := ⟨5, ![8, 1, 512, 512, 1]⟩
abbrev S1 : Shape := ⟨1, ![1]⟩
abbrev S1x1x1x1x1 : Shape := ⟨5, ![1, 1, 1, 1, 1]⟩
abbrev S8x512x512x1 : Shape := ⟨4, ![8, 512, 512, 1]⟩
abbrev S2097152 : Shape := ⟨1, ![2097152]⟩
abbrev S2097152x1 : Shape := ⟨2, ![2097152, 1]⟩

abbrev nBuf : Space → Nat
  | .hbm => 132
  | .vmem => 0
  | .smem => 0
  | _ => 0

abbrev hbmTy0_0 (i : Nat) : BufTy := match i % 128 with
  | 0 => ⟨S8x21x512x512, .f32⟩
  | 1 => ⟨S21, .f32⟩
  | 2 => ⟨S8x512x512, .i32⟩
  | 3 => ⟨S_, .f32⟩
  | 4 => ⟨S8x512x512, .f32⟩
  | 5 => ⟨S_, .f32⟩
  | 6 => ⟨S8x512x512, .f32⟩
  | 7 => ⟨S8x512x512, .f32⟩
  | 8 => ⟨S8x1x512x512, .f32⟩
  | 9 => ⟨S8x21x512x512, .f32⟩
  | 10 => ⟨S8x21x512x512, .f32⟩
  | 11 => ⟨S8x21x512x512, .f32⟩
  | 12 => ⟨S_, .f32⟩
  | 13 => ⟨S8x512x512, .f32⟩
  | 14 => ⟨S8x1x512x512, .f32⟩
  | 15 => ⟨S8x1x512x512, .f32⟩
  | 16 => ⟨S8x21x512x512, .f32⟩
  | 17 => ⟨S8x21x512x512, .f32⟩
  | 18 => ⟨S8x1x512x512, .i32⟩
  | 19 => ⟨S_, .i32⟩
  | 20 => ⟨S8x1x512x512, .i32⟩
  | 21 => ⟨S8x1x512x512, .i1⟩
  | 22 => ⟨S_, .i32⟩
  | 23 => ⟨S8x1x512x512, .i32⟩
  | 24 => ⟨S8x1x512x512, .i32⟩
  | 25 => ⟨S8x1x512x512, .i32⟩
  | 26 => ⟨S8x1x512x512x1, .i32⟩
  | 27 => ⟨S1, .i32⟩
  | 28 => ⟨S_, .i32⟩
  | 29 => ⟨S8x1x512x512x1, .i32⟩
  | 30 => ⟨S8x1x512x512x1, .i1⟩
  | 31 => ⟨S1x1x1x1x1, .i32⟩
  | 32 => ⟨S8x1x512x512x1, .i32⟩
  | 33 => ⟨S8x1x512x512x1, .i1⟩
  | 34 => ⟨S8x1x512x512x1, .i1⟩
  | 35 => ⟨S_, .i1⟩
  | 36 => ⟨S8x1x512x512, .i1⟩
  | 37 => ⟨S8x1x512x512, .f32⟩
  | 38 => ⟨S_, .f32⟩
  | 39 => ⟨S8x1x512x512, .f32⟩
  | 40 => ⟨S8x1x512x512, .f32⟩
  | 41 => ⟨S8x512x512, .f32⟩
  | 42 => ⟨S_, .i32⟩
  | 43 => ⟨S8x512x512, .i32⟩
  | 44 => ⟨S8x512x512, .i1⟩
  | 45 => ⟨S_, .i32⟩
  | 46 => ⟨S8x512x512, .i32⟩
  | 47 => ⟨S8x512x512, .i32⟩
  | 48 => ⟨S8x512x512, .i32⟩
  | 49 => ⟨S8x512x512x1, .i32⟩
  | 50 => ⟨S8x512x512, .f32⟩
  | 51 => ⟨S8x512x512, .f32⟩
  | 52 => ⟨S8x512x512, .f32⟩
  | 53 => ⟨S8x512x512, .f32⟩
  | 54 => ⟨S8x512x512, .f32⟩
  | 55 => ⟨S_, .f32⟩
  | 56 => ⟨S8x512x512, .f32⟩
  | 57 => ⟨S8x512x512, .f32⟩
  | 58 => ⟨S_, .f32⟩
  | 59 => ⟨S8x512x512, .f32⟩
  | 60 => ⟨S8x512x512, .f32⟩
  | 61 => ⟨S8x512x512, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S8x21x512x512, .f32⟩
  | 71 => ⟨S8x1x512x512, .i32⟩
  | 72 => ⟨S_, .i32⟩
  | 73 => ⟨S8x1x512x512, .i32⟩
  | 74 => ⟨S8x1x512x512, .i1⟩
  | 75 => ⟨S_, .i32⟩
  | 76 => ⟨S8x1x512x512, .i32⟩
  | 77 => ⟨S8x1x512x512, .i32⟩
  | 78 => ⟨S8x1x512x512, .i32⟩
  | 79 => ⟨S8x1x512x512x1, .i32⟩
  | 80 => ⟨S1, .i32⟩
  | 81 => ⟨S_, .i32⟩
  | 82 => ⟨S8x1x512x512x1, .i32⟩
  | 83 => ⟨S8x1x512x512x1, .i1⟩
  | 84 => ⟨S1x1x1x1x1, .i32⟩
  | 85 => ⟨S8x1x512x512x1, .i32⟩
  | 86 => ⟨S8x1x512x512x1, .i1⟩
  | 87 => ⟨S8x1x512x512x1, .i1⟩
  | 88 => ⟨S_, .i1⟩
  | 89 => ⟨S8x1x512x512, .i1⟩
  | 90 => ⟨S8x1x512x512, .f32⟩
  | 91 => ⟨S_, .f32⟩
  | 92 => ⟨S8x1x512x512, .f32⟩
  | 93 => ⟨S8x1x512x512, .f32⟩
  | 94 => ⟨S8x512x512, .f32⟩
  | 95 => ⟨S2097152, .f32⟩
  | 96 => ⟨S2097152, .i32⟩
  | 97 => ⟨S_, .f32⟩
  | 98 => ⟨S21, .f32⟩
  | 99 => ⟨S2097152x1, .i32⟩
  | 100 => ⟨S21, .f32⟩
  | 101 => ⟨S_, .f32⟩
  | 102 => ⟨S8x512x512, .f32⟩
  | 103 => ⟨S2097152, .f32⟩
  | 104 => ⟨S2097152, .i32⟩
  | 105 => ⟨S_, .f32⟩
  | 106 => ⟨S21, .f32⟩
  | 107 => ⟨S2097152x1, .i32⟩
  | 108 => ⟨S21, .f32⟩
  | 109 => ⟨S_, .f32⟩
  | 110 => ⟨S21, .f32⟩
  | 111 => ⟨S21, .f32⟩
  | 112 => ⟨S_, .f32⟩
  | 113 => ⟨S21, .f32⟩
  | 114 => ⟨S21, .f32⟩
  | 115 => ⟨S_, .f32⟩
  | 116 => ⟨S21, .f32⟩
  | 117 => ⟨S21, .f32⟩
  | 118 => ⟨S_, .f32⟩
  | 119 => ⟨S21, .f32⟩
  | 120 => ⟨S21, .f32⟩
  | 121 => ⟨S21, .f32⟩
  | 122 => ⟨S_, .f32⟩
  | 123 => ⟨S21, .f32⟩
  | 124 => ⟨S21, .f32⟩
  | 125 => ⟨S_, .f32⟩
  | 126 => ⟨S_, .f32⟩
  | 127 => ⟨S_, .f32⟩
  | _ => ⟨S8x21x512x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | _ => ⟨S8x21x512x512, .f32⟩

abbrev hbmTy (i : Nat) : BufTy := match i / 128 with
  | 0 => hbmTy0_0 i
  | 1 => hbmTy0_1 i
  | _ => ⟨S8x21x512x512, .f32⟩

abbrev bufTy : (tb : Table) → Fin (tcTables nBuf tb) → BufTy
  | .hbm, ⟨i, _⟩ => hbmTy i
  | _, _ => ⟨S8x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_c : Ref sig .tc := ⟨.hbm, 42, rfl⟩
abbrev main_v4 : Ref sig .tc := ⟨.hbm, 43, rfl⟩
abbrev main_v5 : Ref sig .tc := ⟨.hbm, 44, rfl⟩
abbrev main_c_0 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst : Ref sig .tc := ⟨.hbm, 55, rfl⟩
abbrev main_v15 : Ref sig .tc := ⟨.hbm, 56, rfl⟩
abbrev main_v16 : Ref sig .tc := ⟨.hbm, 57, rfl⟩
abbrev main_cst_1 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_cst_2 : Ref sig .tc := ⟨.hbm, 62, rfl⟩
abbrev main_v20 : Ref sig .tc := ⟨.hbm, 63, rfl⟩
abbrev main_cst_3 : Ref sig .tc := ⟨.hbm, 64, rfl⟩
abbrev main_v21 : Ref sig .tc := ⟨.hbm, 65, rfl⟩
abbrev main_cst_4 : Ref sig .tc := ⟨.hbm, 66, rfl⟩
abbrev main_v22 : Ref sig .tc := ⟨.hbm, 67, rfl⟩
abbrev main_cst_5 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_cst : Ref sig .tc := ⟨.hbm, 91, rfl⟩
abbrev main_call2_v14 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_cst_6 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_cst_7 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_cst_8 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_cst_9 : Ref sig .tc := ⟨.hbm, 109, rfl⟩
abbrev main_v39 : Ref sig .tc := ⟨.hbm, 110, rfl⟩
abbrev main_v40 : Ref sig .tc := ⟨.hbm, 111, rfl⟩
abbrev main_cst_10 : Ref sig .tc := ⟨.hbm, 112, rfl⟩
abbrev main_v41 : Ref sig .tc := ⟨.hbm, 113, rfl⟩
abbrev main_v42 : Ref sig .tc := ⟨.hbm, 114, rfl⟩
abbrev main_cst_11 : Ref sig .tc := ⟨.hbm, 115, rfl⟩
abbrev main_v43 : Ref sig .tc := ⟨.hbm, 116, rfl⟩
abbrev main_v44 : Ref sig .tc := ⟨.hbm, 117, rfl⟩
abbrev main_cst_12 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_cst_13 : Ref sig .tc := ⟨.hbm, 122, rfl⟩
abbrev main_v48 : Ref sig .tc := ⟨.hbm, 123, rfl⟩
abbrev main_v49 : Ref sig .tc := ⟨.hbm, 124, rfl⟩
abbrev main_cst_14 : Ref sig .tc := ⟨.hbm, 125, rfl⟩
abbrev main_v50 : Ref sig .tc := ⟨.hbm, 126, rfl⟩
abbrev main_cst_15 : Ref sig .tc := ⟨.hbm, 127, rfl⟩
abbrev main_v51 : Ref sig .tc := ⟨.hbm, 128, rfl⟩
abbrev main_cst_16 : Ref sig .tc := ⟨.hbm, 129, rfl⟩
abbrev main_v52 : Ref sig .tc := ⟨.hbm, 130, rfl⟩
abbrev main_v53 : Ref sig .tc := ⟨.hbm, 131, rfl⟩

abbrev nD : Nat := 1
abbrev τ : Topo := Topo.v7x

variable {F : FTy → Type} [FloatOps F]

class Facts₀ : Prop where
  reducesTo_S8x21x512x512_S8x512x512_d1 : S8x21x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x21x512x512_0_1_2_3 : S8x1x512x512.BroadcastsInDim S8x21x512x512 (![0, 1, 2, 3] : Fin 4 → Fin S8x21x512x512.rank)
  bcast_S_S8x1x512x512 : S_.BroadcastsInDim S8x1x512x512 (![] : Fin 0 → Fin S8x1x512x512.rank)
  shapeCasts_S8x1x512x512_S8x1x512x512x1 : S8x1x512x512.ShapeCasts S8x1x512x512x1
  bcast_S_S8x1x512x512x1 : S_.BroadcastsInDim S8x1x512x512x1 (![] : Fin 0 → Fin S8x1x512x512x1.rank)
  bcast_S1_S1x1x1x1x1_4 : S1.BroadcastsInDim S1x1x1x1x1 (![4] : Fin 1 → Fin S1x1x1x1x1.rank)
  bcast_S1x1x1x1x1_S8x1x512x512x1_0_1_2_3_4 : S1x1x1x1x1.BroadcastsInDim S8x1x512x512x1 (![0, 1, 2, 3, 4] : Fin 5 → Fin S8x1x512x512x1.rank)
  reducesTo_S8x1x512x512x1_S8x1x512x512_d4 : S8x1x512x512x1.ReducesTo [4] S8x1x512x512
  shapeCasts_S8x1x512x512_S8x512x512 : S8x1x512x512.ShapeCasts S8x512x512
  bcast_S8x512x512_S8x512x512x1_0_1_2 : S8x512x512.BroadcastsInDim S8x512x512x1 (![0, 1, 2] : Fin 3 → Fin S8x512x512x1.rank)
  reducesTo_S8x512x512_S_d0_1_2 : S8x512x512.ReducesTo [0, 1, 2] S_
  shapeCasts_S8x512x512_S2097152 : S8x512x512.ShapeCasts S2097152
  bcast_S_S21 : S_.BroadcastsInDim S21 (![] : Fin 0 → Fin S21.rank)
  bcast_S2097152_S2097152x1_0 : S2097152.BroadcastsInDim S2097152x1 (![0] : Fin 1 → Fin S2097152x1.rank)
  reducesTo_S8x21x512x512_S21_d0_2_3 : S8x21x512x512.ReducesTo [0, 2, 3] S21
  reducesTo_S21_S_d0 : S21.ReducesTo [0] S_
  gather_S8x21x512x512_S8x1x512x512x1_S8x1x512x512_n_1_023_023_1_4_1111_wf : GatherDims.WF S8x21x512x512 S8x1x512x512x1 S8x1x512x512 [] [1] [0, 2, 3] [1] [0, 2, 3] 4 ![1, 1, 1, 1]
  gather_S21_S8x512x512x1_S8x512x512_n_0_n_n_0_3_1_wf : GatherDims.WF S21 S8x512x512x1 S8x512x512 [] [0] [] [0] [] 3 ![1]
  scatter_S21_S2097152x1_S2097152_n_0_0_1_wf : ScatterDims.WF S21 S2097152x1 S2097152 [] [0] [0] 1

variable [Facts₀]

def gather_S8x21x512x512_S8x1x512x512x1_S8x1x512x512_n_1_023_023_1_4_1111 : GatherDims S8x21x512x512 S8x1x512x512x1 S8x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x21x512x512_S8x1x512x512x1_S8x1x512x512_n_1_023_023_1_4_1111_wf
def gather_S21_S8x512x512x1_S8x512x512_n_0_n_n_0_3_1 : GatherDims S21 S8x512x512x1 S8x512x512 where
  offsetDims := []
  collapsedSliceDims := [0]
  operandBatchingDims := []
  startIndicesBatchingDims := []
  startIndexMap := [0]
  indexVectorDim := 3
  sliceSizes := ![1]
  wf := gather_S21_S8x512x512x1_S8x512x512_n_0_n_n_0_3_1_wf
def scatter_S21_S2097152x1_S2097152_n_0_0_1 : ScatterDims S21 S2097152x1 S2097152 where
  updateWindowDims := []
  insertedWindowDims := [0]
  scatterDimsToOperandDims := [0]
  indexVectorDim := 1
  wf := scatter_S21_S2097152x1_S2097152_n_0_0_1_wf

class Facts : Prop extends Facts₀ where

variable [Facts]
-- ==== Proof.KernelPieces.lean ====
/-
  What one grid point leaves in the kernel's four accumulators, and what the last tile of an image stores.

  The kernel keeps four accumulators across the four tiles of an image: the cross-entropy sum, the focal sum (one
  entry each), and per class the intersection and the probability mass (21 entries each).  At a tile it adds the
  tile's sum to the accumulator (`stepCe`, `stepFoc`, `stepInt`, `stepMass`: the body's arithmetic, kept as one
  term of the tile's three input blocks and the accumulator's previous contents).  At the first tile of an image
  the accumulator is first reset to the zero block; at the last tile its final value is also stored to the output.
-/
import proofs.«419937_j16037407883832_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz4 : (![0, 0, 0, 0] : Fin 4 → Nat) = fun _ => 0 := funext fun a => by fin_cases a <;> rfl

/-- One grid point's update of the cross-entropy accumulator: the tile's sum added to what it held. -/
def stepCe (x0 : Vec F S1x21x128x512 .f32) (x1 : Vec F S1x1x128x512 .i32) (x2 : Vec F S1x1x128x512 .f32) (p : Vec F S1x1x1x1 .f32) : Vec F S1x1x1x1 .f32 := k0_pay18 (k0_pay14 x0 x1 x2) p
/-- … of the focal accumulator. -/
def stepFoc (x0 : Vec F S1x21x128x512 .f32) (x1 : Vec F S1x1x128x512 .i32) (x2 : Vec F S1x1x128x512 .f32) (p : Vec F S1x1x1x1 .f32) : Vec F S1x1x1x1 .f32 := k0_pay1 (k0_pay19 (k0_pay14 x0 x1 x2) (k0_pay15 x0 x1 x2) p)
/-- … of the per-class intersection accumulator. -/
def stepInt (x0 : Vec F S1x21x128x512 .f32) (x1 : Vec F S1x1x128x512 .i32) (x2 : Vec F S1x1x128x512 .f32) (p : Vec F S1x21x1x1 .f32) : Vec F S1x21x1x1 .f32 := k0_pay2 (k0_pay16 (k0_pay12 x1) (k0_pay13 x0 x1)) p
/-- … of the per-class probability-mass accumulator. -/
def stepMass (x0 : Vec F S1x21x128x512 .f32) (x1 : Vec F S1x1x128x512 .i32) (x2 : Vec F S1x1x128x512 .f32) (p : Vec F S1x21x1x1 .f32) : Vec F S1x21x1x1 .f32 := k0_pay3 (k0_pay17 (k0_pay11 x0)) p

/-- At an image's first tile the accumulator is reset to zero and then updated: it ends at the update of the zero block. -/
theorem scratchCe_first (c : Dev nD) (i : grid0.Coords) (arg2 : Memref sig .tc .vmem S1x21x128x512 .f32) (harg2 : arg2.IsWhole) (arg3 : Memref sig .tc .vmem S1x1x128x512 .i32) (harg3 : arg3.IsWhole) (arg4 : Memref sig .tc .vmem S1x1x128x512 .f32) (harg4 : arg4.IsWhole) (arg5 : Memref sig .tc .vmem S1x1x1x1 .f32) (harg5 : arg5.IsWhole) (arg6 : Memref sig .tc .vmem S1x1x1x1 .f32) (harg6 : arg6.IsWhole) (arg7 : Memref sig .tc .vmem S1x21x1x1 .f32) (harg7 : arg7.IsWhole) (arg8 : Memref sig .tc .vmem S1x21x1x1 .f32) (harg8 : arg8.IsWhole) (arg9 : Memref sig .tc .vmem S1x1x1x1 .f32) (harg9 : arg9.IsWhole) (arg10 : Memref sig .tc .vmem S1x1x1x1 .f32) (harg10 : arg10.IsWhole) (arg11 : Memref sig .tc .vmem S1x21x1x1 .f32) (harg11 : arg11.IsWhole) (arg12 : Memref sig .tc .vmem S1x21x1x1 .f32) (harg12 : arg12.IsWhole) (hc0 : cond0_0 i) (hc1 : ¬cond0_1 i) (x0 : Vec F S1x21x128x512 .f32) (x1 : Vec F S1x1x128x512 .i32) (x2 : Vec F S1x1x128x512 .f32) :
    sout0_A_0 c i arg2 harg2 arg3 harg3 arg4 harg4 arg5 harg5 arg6 harg6 arg7 harg7 arg8 harg8 arg9 harg9 arg10 harg10 arg11 harg11 arg12 harg12 hc0 hc1 x0 x1 x2 = stepCe x0 x1 x2 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  rw [View.canon_cons_unit_zero (S := S1x1x1x1) hz4, View.readCov_unit_zero (S := S1x1x1x1) _ hz4]
  unfold stepCe
  simp only [View.readAt_eq_ld, harg2.read_unread, harg3.read_unread, harg4.read_unread, harg9.read_unread, harg10.read_unread, harg11.read_unread, harg12.read_unread,
    View.ld_unit_zero (S := S1x21x128x512) hz4, View.ld_unit_zero (S := S1x1x128x512) hz4, View.ld_unit_zero (S := S1x1x1x1) hz4, View.ld_unit_zero (S := S1x21x1x1) hz4]

/-- At a middle tile the accumulator ends at the update of what the tile before left. -/
theorem scratchCe_mid (c : Dev nD) (i : grid0.Coords) (arg2 : Memref sig .tc .vmem S1x21x128x512 .f32) (harg2 : arg2.IsWhole) (arg3 : Memref sig .tc .vmem S1x1x128x512 .i32) (harg3 : arg3.IsWhole) (arg4 : Memref sig .tc .vmem S1x1x128x512 .f32) (harg4 : arg4.IsWhole) (arg5 : Memref sig .tc .vmem S1x1x1x1 .f32) (harg5 : arg5.IsWhole) (arg6 : Memref sig .tc .vmem S1x1x1x1 .f32) (harg6 : arg6.IsWhole) (arg7 : Memref sig .tc .vmem S1x21x1x1 .f32) (harg7 : arg7.IsWhole) (arg8 : Memref sig .tc .vmem S1x21x1x1 .f32) (harg8 : arg8.IsWhole) (arg9 : Memref sig .tc .vmem S1x1x1x1 .f32) (harg9 : arg9.IsWhole) (arg10 : Memref sig .tc .vmem S1x1x1x1 .f32) (harg10 : arg10.IsWhole) (arg11 : Memref sig .tc .vmem S1x21x1x1 .f32) (harg11 : arg11.IsWhole) (arg12 : Memref sig .tc .vmem S1x21x1x1 .f32) (harg12 : arg12.IsWhole) (hc0 : ¬cond0_0 i) (hc1 : ¬cond0_1 i) (x0 : Vec F S1x21x128x512 .f32) (x1 : Vec F S1x1x128x512 .i32) (x2 : Vec F S1x1x128x512 .f32) (xs0 : Vec F S1x1x1x1 .f32) (xs1 : Vec F S1x1x1x1 .f32) (xs2 : Vec F S1x21x1x1 .f32) (xs3 : Vec F S1x21x1x1 .f32) :
    sout0_B_0 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = stepCe x0 x1 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_B
  dsimp only
  sl_unfold_words
  rw [View.canon_unit_zero hz4]
  unfold stepCe
  simp only [View.readAt_eq_ld, harg2.read_unread, harg3.read_unread, harg4.read_unread, harg9.read_unread, harg10.read_unread, harg11.read_unread, harg12.read_unread,
    View.ld_unit_zero (S := S1x21x128x512) hz4, View.ld_unit_zero (S := S1x1x128x512) hz4, View.ld_unit_zero (S := S1x1x1x1) hz4, View.ld_unit_zero (S := S1x21x1x1) hz4]

/-- At an image's last tile likewise, -/
theorem scratchCe_last (c : Dev nD) (i : grid0.Coords) (arg2 : Memref sig .tc .vmem S1x21x128x512 .f32) (harg2 : arg2.IsWhole) (arg3 : Memref sig .tc .vmem S1x1x128x512 .i32) (harg3 : arg3.IsWhole) (arg4 : Memref sig .tc .vmem S1x1x128x512 .f32) (harg4 : arg4.IsWhole) (arg5 : Memref sig .tc .vmem S1x1x1x1 .f32) (harg5 : arg5.IsWhole) (arg6 : Memref sig .tc .vmem S1x1x1x1 .f32) (harg6 : arg6.IsWhole) (arg7 : Memref sig .tc .vmem S1x21x1x1 .f32) (harg7 : arg7.IsWhole) (arg8 : Memref sig .tc .vmem S1x21x1x1 .f32) (harg8 : arg8.IsWhole) (arg9 : Memref sig .tc .vmem S1x1x1x1 .f32) (harg9 : arg9.IsWhole) (arg10 : Memref sig .tc .vmem S1x1x1x1 .f32) (harg10 : arg10.IsWhole) (arg11 : Memref sig .tc .vmem S1x21x1x1 .f32) (harg11 : arg11.IsWhole) (arg12 : Memref sig .tc .vmem S1x21x1x1 .f32) (harg12 : arg12.IsWhole) (hc0 : ¬cond0_0 i) (hc1 : cond0_1 i) (x0 : Vec F S1x21x128x512 .f32) (x1 : Vec F S1x1x128x512 .i32) (x2 : Vec F S1x1x128x512 .f32) (xs0 : Vec F S1x1x1x1 .f32) (xs1 : Vec F S1x1x1x1 .f32) (xs2 : Vec F S1x21x1x1 .f32) (xs3 : Vec F S1x21x1x1 .f32) :
    sout0_C_0 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = stepCe x0 x1 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_C
  dsimp only
  sl_unfold_words
  rw [View.canon_unit_zero hz4]
  unfold stepCe
  simp only [View.readAt_eq_ld, harg2.read_unread, harg3.read_unread, harg4.read_unread, harg9.read_unread, harg10.read_unread, harg11.read_unread, harg12.read_unread,
    View.ld_unit_zero (S := S1x21x128x512) hz4, View.ld_unit_zero (S := S1x1x128x512) hz4, View.ld_unit_zero (S := S1x1x1x1) hz4, View.ld_unit_zero (S := S1x21x1x1) hz4]

/-- and the output block stored there is the accumulator's final value. -/
theorem outCe_last (c : Dev nD) (i : grid0.Coords) (arg2 : Memref sig .tc .vmem S1x21x128x512 .f32) (harg2 : arg2.IsWhole) (arg3 : Memref sig .tc .vmem S1x1x128x512 .i32) (harg3 : arg3.IsWhole) (arg4 : Memref sig .tc .vmem S1x1x128x512 .f32) (harg4 : arg4.IsWhole) (arg5 : Memref sig .tc .vmem S1x1x1x1 .f32) (harg5 : arg5.IsWhole) (arg6 : Memref sig .tc .vmem S1x1x1x1 .f32) (harg6 : arg6.IsWhole) (arg7 : Memref sig .tc .vmem S1x21x1x1 .f32) (harg7 : arg7.IsWhole) (arg8 : Memref sig .tc .vmem S1x21x1x1 .f32) (harg8 : arg8.IsWhole) (arg9 : Memref sig .tc .vmem S1x1x1x1 .f32) (harg9 : arg9.IsWhole) (arg10 : Memref sig .tc .vmem S1x1x1x1 .f32) (harg10 : arg10.IsWhole) (arg11 : Memref sig .tc .vmem S1x21x1x1 .f32) (harg11 : arg11.IsWhole) (arg12 : Memref sig .tc .vmem S1x21x1x1 .f32) (harg12 : arg12.IsWhole) (hc0 : ¬cond0_0 i) (hc1 : cond0_1 i) (x0 : Vec F S1x21x128x512 .f32) (x1 : Vec F S1x1x128x512 .i32) (x2 : Vec F S1x1x128x512 .f32) (xs0 : Vec F S1x1x1x1 .f32) (xs1 : Vec F S1x1x1x1 .f32) (xs2 : Vec F S1x21x1x1 .f32) (xs3 : Vec F S1x21x1x1 .f32) :
    out0_C_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = stepCe x0 x1 x2 xs0 := by
  unfold out0_C_3
  rw [View.read_writes_eq_canon _ _ _ (cover0_C_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_C
  dsimp only
  sl_unfold_words
  rw [View.canon_unit_zero hz4]
  unfold stepCe
  simp only [View.readAt_eq_ld, harg2.read_unread, harg3.read_unread, harg4.read_unread, harg9.read_unread, harg10.read_unread, harg11.read_unread, harg12.read_unread,
    View.readCov_unit_zero (S := S1x1x1x1) _ hz4, View.readCov_unit_zero (S := S1x21x1x1) _ hz4,
    View.ld_unit_zero (S := S1x21x128x512) hz4, View.ld_unit_zero (S := S1x1x128x512) hz4, View.ld_unit_zero (S := S1x1x1x1) hz4, View.ld_unit_zero (S := S1x21x1x1) hz4]

/-- At an image's first tile the accumulator is reset to zero and then updated: it ends at the update of the zero block. -/
theorem scratchFoc_first (c : Dev nD) (i : grid0.Coords) (arg2 : Memref sig .tc .vmem S1x21x128x512 .f32) (harg2 : arg2.IsWhole) (arg3 : Memref sig .tc .vmem S1x1x128x512 .i32) (harg3 : arg3.IsWhole) (arg4 : Memref sig .tc .vmem S1x1x128x512 .f32) (harg4 : arg4.IsWhole) (arg5 : Memref sig .tc .vmem S1x1x1x1 .f32) (harg5 : arg5.IsWhole) (arg6 : Memref sig .tc .vmem S1x1x1x1 .f32) (harg6 : arg6.IsWhole) (arg7 : Memref sig .tc .vmem S1x21x1x1 .f32) (harg7 : arg7.IsWhole) (arg8 : Memref sig .tc .vmem S1x21x1x1 .f32) (harg8 : arg8.IsWhole) (arg9 : Memref sig .tc .vmem S1x1x1x1 .f32) (harg9 : arg9.IsWhole) (arg10 : Memref sig .tc .vmem S1x1x1x1 .f32) (harg10 : arg10.IsWhole) (arg11 : Memref sig .tc .vmem S1x21x1x1 .f32) (harg11 : arg11.IsWhole) (arg12 : Memref sig .tc .vmem S1x21x1x1 .f32) (harg12 : arg12.IsWhole) (hc0 : cond0_0 i) (hc1 : ¬cond0_1 i) (x0 : Vec F S1x21x128x512 .f32) (x1 : Vec F S1x1x128x512 .i32) (x2 : Vec F S1x1x128x512 .f32) :
    sout0_A_1 c i arg2 harg2 arg3 harg3 arg4 harg4 arg5 harg5 arg6 harg6 arg7 harg7 arg8 harg8 arg9 harg9 arg10 harg10 arg11 harg11 arg12 harg12 hc0 hc1 x0 x1 x2 = stepFoc x0 x1 x2 (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  rw [View.canon_cons_unit_zero (S := S1x1x1x1) hz4, View.readCov_unit_zero (S := S1x1x1x1) _ hz4]
  unfold stepFoc
  simp only [View.readAt_eq_ld, harg2.read_unread, harg3.read_unread, harg4.read_unread, harg9.read_unread, harg10.read_unread, harg11.read_unread, harg12.read_unread,
    View.ld_unit_zero (S := S1x21x128x512) hz4, View.ld_unit_zero (S := S1x1x128x512) hz4, View.ld_unit_zero (S := S1x1x1x1) hz4, View.ld_unit_zero (S := S1x21x1x1) hz4]

/-- At a middle tile the accumulator ends at the update of what the tile before left. -/
theorem scratchFoc_mid (c : Dev nD) (i : grid0.Coords) (arg2 : Memref sig .tc .vmem S1x21x128x512 .f32) (harg2 : arg2.IsWhole) (arg3 : Memref sig .tc .vmem S1x1x128x512 .i32) (harg3 : arg3.IsWhole) (arg4 : Memref sig .tc .vmem S1x1x128x512 .f32) (harg4 : arg4.IsWhole) (arg5 : Memref sig .tc .vmem S1x1x1x1 .f32) (harg5 : arg5.IsWhole) (arg6 : Memref sig .tc .vmem S1x1x1x1 .f32) (harg6 : arg6.IsWhole) (arg7 : Memref sig .tc .vmem S1x21x1x1 .f32) (harg7 : arg7.IsWhole) (arg8 : Memref sig .tc .vmem S1x21x1x1 .f32) (harg8 : arg8.IsWhole) (arg9 : Memref sig .tc .vmem S1x1x1x1 .f32) (harg9 : arg9.IsWhole) (arg10 : Memref sig .tc .vmem S1x1x1x1 .f32) (harg10 : arg10.IsWhole) (arg11 : Memref sig .tc .vmem S1x21x1x1 .f32) (harg11 : arg11.IsWhole) (arg12 : Memref sig .tc .vmem S1x21x1x1 .f32) (harg12 : arg12.IsWhole) (hc0 : ¬cond0_0 i) (hc1 : ¬cond0_1 i) (x0 : Vec F S1x21x128x512 .f32) (x1 : Vec F S1x1x128x512 .i32) (x2 : Vec F S1x1x128x512 .f32) (xs0 : Vec F S1x1x1x1 .f32) (xs1 : Vec F S1x1x1x1 .f32) (xs2 : Vec F S1x21x1x1 .f32) (xs3 : Vec F S1x21x1x1 .f32) :
    sout0_B_1 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = stepFoc x0 x1 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_B
  dsimp only
  sl_unfold_words
  rw [View.canon_unit_zero hz4]
  unfold stepFoc
  simp only [View.readAt_eq_ld, harg2.read_unread, harg3.read_unread, harg4.read_unread, harg9.read_unread, harg10.read_unread, harg11.read_unread, harg12.read_unread,
    View.ld_unit_zero (S := S1x21x128x512) hz4, View.ld_unit_zero (S := S1x1x128x512) hz4, View.ld_unit_zero (S := S1x1x1x1) hz4, View.ld_unit_zero (S := S1x21x1x1) hz4]

/-- At an image's last tile likewise, -/
theorem scratchFoc_last (c : Dev nD) (i : grid0.Coords) (arg2 : Memref sig .tc .vmem S1x21x128x512 .f32) (harg2 : arg2.IsWhole) (arg3 : Memref sig .tc .vmem S1x1x128x512 .i32) (harg3 : arg3.IsWhole) (arg4 : Memref sig .tc .vmem S1x1x128x512 .f32) (harg4 : arg4.IsWhole) (arg5 : Memref sig .tc .vmem S1x1x1x1 .f32) (harg5 : arg5.IsWhole) (arg6 : Memref sig .tc .vmem S1x1x1x1 .f32) (harg6 : arg6.IsWhole) (arg7 : Memref sig .tc .vmem S1x21x1x1 .f32) (harg7 : arg7.IsWhole) (arg8 : Memref sig .tc .vmem S1x21x1x1 .f32) (harg8 : arg8.IsWhole) (arg9 : Memref sig .tc .vmem S1x1x1x1 .f32) (harg9 : arg9.IsWhole) (arg10 : Memref sig .tc .vmem S1x1x1x1 .f32) (harg10 : arg10.IsWhole) (arg11 : Memref sig .tc .vmem S1x21x1x1 .f32) (harg11 : arg11.IsWhole) (arg12 : Memref sig .tc .vmem S1x21x1x1 .f32) (harg12 : arg12.IsWhole) (hc0 : ¬cond0_0 i) (hc1 : cond0_1 i) (x0 : Vec F S1x21x128x512 .f32) (x1 : Vec F S1x1x128x512 .i32) (x2 : Vec F S1x1x128x512 .f32) (xs0 : Vec F S1x1x1x1 .f32) (xs1 : Vec F S1x1x1x1 .f32) (xs2 : Vec F S1x21x1x1 .f32) (xs3 : Vec F S1x21x1x1 .f32) :
    sout0_C_1 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = stepFoc x0 x1 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_C
  dsimp only
  sl_unfold_words
  rw [View.canon_unit_zero hz4]
  unfold stepFoc
  simp only [View.readAt_eq_ld, harg2.read_unread, harg3.read_unread, harg4.read_unread, harg9.read_unread, harg10.read_unread, harg11.read_unread, harg12.read_unread,
    View.ld_unit_zero (S := S1x21x128x512) hz4, View.ld_unit_zero (S := S1x1x128x512) hz4, View.ld_unit_zero (S := S1x1x1x1) hz4, View.ld_unit_zero (S := S1x21x1x1) hz4]

/-- and the output block stored there is the accumulator's final value. -/
theorem outFoc_last (c : Dev nD) (i : grid0.Coords) (arg2 : Memref sig .tc .vmem S1x21x128x512 .f32) (harg2 : arg2.IsWhole) (arg3 : Memref sig .tc .vmem S1x1x128x512 .i32) (harg3 : arg3.IsWhole) (arg4 : Memref sig .tc .vmem S1x1x128x512 .f32) (harg4 : arg4.IsWhole) (arg5 : Memref sig .tc .vmem S1x1x1x1 .f32) (harg5 : arg5.IsWhole) (arg6 : Memref sig .tc .vmem S1x1x1x1 .f32) (harg6 : arg6.IsWhole) (arg7 : Memref sig .tc .vmem S1x21x1x1 .f32) (harg7 : arg7.IsWhole) (arg8 : Memref sig .tc .vmem S1x21x1x1 .f32) (harg8 : arg8.IsWhole) (arg9 : Memref sig .tc .vmem S1x1x1x1 .f32) (harg9 : arg9.IsWhole) (arg10 : Memref sig .tc .vmem S1x1x1x1 .f32) (harg10 : arg10.IsWhole) (arg11 : Memref sig .tc .vmem S1x21x1x1 .f32) (harg11 : arg11.IsWhole) (arg12 : Memref sig .tc .vmem S1x21x1x1 .f32) (harg12 : arg12.IsWhole) (hc0 : ¬cond0_0 i) (hc1 : cond0_1 i) (x0 : Vec F S1x21x128x512 .f32) (x1 : Vec F S1x1x128x512 .i32) (x2 : Vec F S1x1x128x512 .f32) (xs0 : Vec F S1x1x1x1 .f32) (xs1 : Vec F S1x1x1x1 .f32) (xs2 : Vec F S1x21x1x1 .f32) (xs3 : Vec F S1x21x1x1 .f32) :
    out0_C_4 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = stepFoc x0 x1 x2 xs1 := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_C
  dsimp only
  sl_unfold_words
  rw [View.canon_unit_zero hz4]
  unfold stepFoc
  simp only [View.readAt_eq_ld, harg2.read_unread, harg3.read_unread, harg4.read_unread, harg9.read_unread, harg10.read_unread, harg11.read_unread, harg12.read_unread,
    View.readCov_unit_zero (S := S1x1x1x1) _ hz4, View.readCov_unit_zero (S := S1x21x1x1) _ hz4,
    View.ld_unit_zero (S := S1x21x128x512) hz4, View.ld_unit_zero (S := S1x1x128x512) hz4, View.ld_unit_zero (S := S1x1x1x1) hz4, View.ld_unit_zero (S := S1x21x1x1) hz4]

/-- At an image's first tile the accumulator is reset to zero and then updated: it ends at the update of the zero block. -/
theorem scratchInt_first (c : Dev nD) (i : grid0.Coords) (arg2 : Memref sig .tc .vmem S1x21x128x512 .f32) (harg2 : arg2.IsWhole) (arg3 : Memref sig .tc .vmem S1x1x128x512 .i32) (harg3 : arg3.IsWhole) (arg4 : Memref sig .tc .vmem S1x1x128x512 .f32) (harg4 : arg4.IsWhole) (arg5 : Memref sig .tc .vmem S1x1x1x1 .f32) (harg5 : arg5.IsWhole) (arg6 : Memref sig .tc .vmem S1x1x1x1 .f32) (harg6 : arg6.IsWhole) (arg7 : Memref sig .tc .vmem S1x21x1x1 .f32) (harg7 : arg7.IsWhole) (arg8 : Memref sig .tc .vmem S1x21x1x1 .f32) (harg8 : arg8.IsWhole) (arg9 : Memref sig .tc .vmem S1x1x1x1 .f32) (harg9 : arg9.IsWhole) (arg10 : Memref sig .tc .vmem S1x1x1x1 .f32) (harg10 : arg10.IsWhole) (arg11 : Memref sig .tc .vmem S1x21x1x1 .f32) (harg11 : arg11.IsWhole) (arg12 : Memref sig .tc .vmem S1x21x1x1 .f32) (harg12 : arg12.IsWhole) (hc0 : cond0_0 i) (hc1 : ¬cond0_1 i) (x0 : Vec F S1x21x128x512 .f32) (x1 : Vec F S1x1x128x512 .i32) (x2 : Vec F S1x1x128x512 .f32) :
    sout0_A_2 c i arg2 harg2 arg3 harg3 arg4 harg4 arg5 harg5 arg6 harg6 arg7 harg7 arg8 harg8 arg9 harg9 arg10 harg10 arg11 harg11 arg12 harg12 hc0 hc1 x0 x1 x2 = stepInt x0 x1 x2 (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  rw [View.canon_cons_unit_zero (S := S1x21x1x1) hz4, View.readCov_unit_zero (S := S1x21x1x1) _ hz4]
  unfold stepInt
  simp only [View.readAt_eq_ld, harg2.read_unread, harg3.read_unread, harg4.read_unread, harg9.read_unread, harg10.read_unread, harg11.read_unread, harg12.read_unread,
    View.ld_unit_zero (S := S1x21x128x512) hz4, View.ld_unit_zero (S := S1x1x128x512) hz4, View.ld_unit_zero (S := S1x1x1x1) hz4, View.ld_unit_zero (S := S1x21x1x1) hz4]

/-- At a middle tile the accumulator ends at the update of what the tile before left. -/
theorem scratchInt_mid (c : Dev nD) (i : grid0.Coords) (arg2 : Memref sig .tc .vmem S1x21x128x512 .f32) (harg2 : arg2.IsWhole) (arg3 : Memref sig .tc .vmem S1x1x128x512 .i32) (harg3 : arg3.IsWhole) (arg4 : Memref sig .tc .vmem S1x1x128x512 .f32) (harg4 : arg4.IsWhole) (arg5 : Memref sig .tc .vmem S1x1x1x1 .f32) (harg5 : arg5.IsWhole) (arg6 : Memref sig .tc .vmem S1x1x1x1 .f32) (harg6 : arg6.IsWhole) (arg7 : Memref sig .tc .vmem S1x21x1x1 .f32) (harg7 : arg7.IsWhole) (arg8 : Memref sig .tc .vmem S1x21x1x1 .f32) (harg8 : arg8.IsWhole) (arg9 : Memref sig .tc .vmem S1x1x1x1 .f32) (harg9 : arg9.IsWhole) (arg10 : Memref sig .tc .vmem S1x1x1x1 .f32) (harg10 : arg10.IsWhole) (arg11 : Memref sig .tc .vmem S1x21x1x1 .f32) (harg11 : arg11.IsWhole) (arg12 : Memref sig .tc .vmem S1x21x1x1 .f32) (harg12 : arg12.IsWhole) (hc0 : ¬cond0_0 i) (hc1 : ¬cond0_1 i) (x0 : Vec F S1x21x128x512 .f32) (x1 : Vec F S1x1x128x512 .i32) (x2 : Vec F S1x1x128x512 .f32) (xs0 : Vec F S1x1x1x1 .f32) (xs1 : Vec F S1x1x1x1 .f32) (xs2 : Vec F S1x21x1x1 .f32) (xs3 : Vec F S1x21x1x1 .f32) :
    sout0_B_2 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = stepInt x0 x1 x2 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_B
  dsimp only
  sl_unfold_words
  rw [View.canon_unit_zero hz4]
  unfold stepInt
  simp only [View.readAt_eq_ld, harg2.read_unread, harg3.read_unread, harg4.read_unread, harg9.read_unread, harg10.read_unread, harg11.read_unread, harg12.read_unread,
    View.ld_unit_zero (S := S1x21x128x512) hz4, View.ld_unit_zero (S := S1x1x128x512) hz4, View.ld_unit_zero (S := S1x1x1x1) hz4, View.ld_unit_zero (S := S1x21x1x1) hz4]

/-- At an image's last tile likewise, -/
theorem scratchInt_last (c : Dev nD) (i : grid0.Coords) (arg2 : Memref sig .tc .vmem S1x21x128x512 .f32) (harg2 : arg2.IsWhole) (arg3 : Memref sig .tc .vmem S1x1x128x512 .i32) (harg3 : arg3.IsWhole) (arg4 : Memref sig .tc .vmem S1x1x128x512 .f32) (harg4 : arg4.IsWhole) (arg5 : Memref sig .tc .vmem S1x1x1x1 .f32) (harg5 : arg5.IsWhole) (arg6 : Memref sig .tc .vmem S1x1x1x1 .f32) (harg6 : arg6.IsWhole) (arg7 : Memref sig .tc .vmem S1x21x1x1 .f32) (harg7 : arg7.IsWhole) (arg8 : Memref sig .tc .vmem S1x21x1x1 .f32) (harg8 : arg8.IsWhole) (arg9 : Memref sig .tc .vmem S1x1x1x1 .f32) (harg9 : arg9.IsWhole) (arg10 : Memref sig .tc .vmem S1x1x1x1 .f32) (harg10 : arg10.IsWhole) (arg11 : Memref sig .tc .vmem S1x21x1x1 .f32) (harg11 : arg11.IsWhole) (arg12 : Memref sig .tc .vmem S1x21x1x1 .f32) (harg12 : arg12.IsWhole) (hc0 : ¬cond0_0 i) (hc1 : cond0_1 i) (x0 : Vec F S1x21x128x512 .f32) (x1 : Vec F S1x1x128x512 .i32) (x2 : Vec F S1x1x128x512 .f32) (xs0 : Vec F S1x1x1x1 .f32) (xs1 : Vec F S1x1x1x1 .f32) (xs2 : Vec F S1x21x1x1 .f32) (xs3 : Vec F S1x21x1x1 .f32) :
    sout0_C_2 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = stepInt x0 x1 x2 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_C
  dsimp only
  sl_unfold_words
  rw [View.canon_unit_zero hz4]
  unfold stepInt
  simp only [View.readAt_eq_ld, harg2.read_unread, harg3.read_unread, harg4.read_unread, harg9.read_unread, harg10.read_unread, harg11.read_unread, harg12.read_unread,
    View.ld_unit_zero (S := S1x21x128x512) hz4, View.ld_unit_zero (S := S1x1x128x512) hz4, View.ld_unit_zero (S := S1x1x1x1) hz4, View.ld_unit_zero (S := S1x21x1x1) hz4]

/-- and the output block stored there is the accumulator's final value. -/
theorem outInt_last (c : Dev nD) (i : grid0.Coords) (arg2 : Memref sig .tc .vmem S1x21x128x512 .f32) (harg2 : arg2.IsWhole) (arg3 : Memref sig .tc .vmem S1x1x128x512 .i32) (harg3 : arg3.IsWhole) (arg4 : Memref sig .tc .vmem S1x1x128x512 .f32) (harg4 : arg4.IsWhole) (arg5 : Memref sig .tc .vmem S1x1x1x1 .f32) (harg5 : arg5.IsWhole) (arg6 : Memref sig .tc .vmem S1x1x1x1 .f32) (harg6 : arg6.IsWhole) (arg7 : Memref sig .tc .vmem S1x21x1x1 .f32) (harg7 : arg7.IsWhole) (arg8 : Memref sig .tc .vmem S1x21x1x1 .f32) (harg8 : arg8.IsWhole) (arg9 : Memref sig .tc .vmem S1x1x1x1 .f32) (harg9 : arg9.IsWhole) (arg10 : Memref sig .tc .vmem S1x1x1x1 .f32) (harg10 : arg10.IsWhole) (arg11 : Memref sig .tc .vmem S1x21x1x1 .f32) (harg11 : arg11.IsWhole) (arg12 : Memref sig .tc .vmem S1x21x1x1 .f32) (harg12 : arg12.IsWhole) (hc0 : ¬cond0_0 i) (hc1 : cond0_1 i) (x0 : Vec F S1x21x128x512 .f32) (x1 : Vec F S1x1x128x512 .i32) (x2 : Vec F S1x1x128x512 .f32) (xs0 : Vec F S1x1x1x1 .f32) (xs1 : Vec F S1x1x1x1 .f32) (xs2 : Vec F S1x21x1x1 .f32) (xs3 : Vec F S1x21x1x1 .f32) :
    out0_C_5 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = stepInt x0 x1 x2 xs2 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_C
  dsimp only
  sl_unfold_words
  rw [View.canon_unit_zero hz4]
  unfold stepInt
  simp only [View.readAt_eq_ld, harg2.read_unread, harg3.read_unread, harg4.read_unread, harg9.read_unread, harg10.read_unread, harg11.read_unread, harg12.read_unread,
    View.readCov_unit_zero (S := S1x1x1x1) _ hz4, View.readCov_unit_zero (S := S1x21x1x1) _ hz4,
    View.ld_unit_zero (S := S1x21x128x512) hz4, View.ld_unit_zero (S := S1x1x128x512) hz4, View.ld_unit_zero (S := S1x1x1x1) hz4, View.ld_unit_zero (S := S1x21x1x1) hz4]

/-- At an image's first tile the accumulator is reset to zero and then updated: it ends at the update of the zero block. -/
theorem scratchMass_first (c : Dev nD) (i : grid0.Coords) (arg2 : Memref sig .tc .vmem S1x21x128x512 .f32) (harg2 : arg2.IsWhole) (arg3 : Memref sig .tc .vmem S1x1x128x512 .i32) (harg3 : arg3.IsWhole) (arg4 : Memref sig .tc .vmem S1x1x128x512 .f32) (harg4 : arg4.IsWhole) (arg5 : Memref sig .tc .vmem S1x1x1x1 .f32) (harg5 : arg5.IsWhole) (arg6 : Memref sig .tc .vmem S1x1x1x1 .f32) (harg6 : arg6.IsWhole) (arg7 : Memref sig .tc .vmem S1x21x1x1 .f32) (harg7 : arg7.IsWhole) (arg8 : Memref sig .tc .vmem S1x21x1x1 .f32) (harg8 : arg8.IsWhole) (arg9 : Memref sig .tc .vmem S1x1x1x1 .f32) (harg9 : arg9.IsWhole) (arg10 : Memref sig .tc .vmem S1x1x1x1 .f32) (harg10 : arg10.IsWhole) (arg11 : Memref sig .tc .vmem S1x21x1x1 .f32) (harg11 : arg11.IsWhole) (arg12 : Memref sig .tc .vmem S1x21x1x1 .f32) (harg12 : arg12.IsWhole) (hc0 : cond0_0 i) (hc1 : ¬cond0_1 i) (x0 : Vec F S1x21x128x512 .f32) (x1 : Vec F S1x1x128x512 .i32) (x2 : Vec F S1x1x128x512 .f32) :
    sout0_A_3 c i arg2 harg2 arg3 harg3 arg4 harg4 arg5 harg5 arg6 harg6 arg7 harg7 arg8 harg8 arg9 harg9 arg10 harg10 arg11 harg11 arg12 harg12 hc0 hc1 x0 x1 x2 = stepMass x0 x1 x2 (k0_pay7 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  rw [View.canon_cons_unit_zero (S := S1x21x1x1) hz4, View.readCov_unit_zero (S := S1x21x1x1) _ hz4]
  unfold stepMass
  simp only [View.readAt_eq_ld, harg2.read_unread, harg3.read_unread, harg4.read_unread, harg9.read_unread, harg10.read_unread, harg11.read_unread, harg12.read_unread,
    View.ld_unit_zero (S := S1x21x128x512) hz4, View.ld_unit_zero (S := S1x1x128x512) hz4, View.ld_unit_zero (S := S1x1x1x1) hz4, View.ld_unit_zero (S := S1x21x1x1) hz4]

/-- At a middle tile the accumulator ends at the update of what the tile before left. -/
theorem scratchMass_mid (c : Dev nD) (i : grid0.Coords) (arg2 : Memref sig .tc .vmem S1x21x128x512 .f32) (harg2 : arg2.IsWhole) (arg3 : Memref sig .tc .vmem S1x1x128x512 .i32) (harg3 : arg3.IsWhole) (arg4 : Memref sig .tc .vmem S1x1x128x512 .f32) (harg4 : arg4.IsWhole) (arg5 : Memref sig .tc .vmem S1x1x1x1 .f32) (harg5 : arg5.IsWhole) (arg6 : Memref sig .tc .vmem S1x1x1x1 .f32) (harg6 : arg6.IsWhole) (arg7 : Memref sig .tc .vmem S1x21x1x1 .f32) (harg7 : arg7.IsWhole) (arg8 : Memref sig .tc .vmem S1x21x1x1 .f32) (harg8 : arg8.IsWhole) (arg9 : Memref sig .tc .vmem S1x1x1x1 .f32) (harg9 : arg9.IsWhole) (arg10 : Memref sig .tc .vmem S1x1x1x1 .f32) (harg10 : arg10.IsWhole) (arg11 : Memref sig .tc .vmem S1x21x1x1 .f32) (harg11 : arg11.IsWhole) (arg12 : Memref sig .tc .vmem S1x21x1x1 .f32) (harg12 : arg12.IsWhole) (hc0 : ¬cond0_0 i) (hc1 : ¬cond0_1 i) (x0 : Vec F S1x21x128x512 .f32) (x1 : Vec F S1x1x128x512 .i32) (x2 : Vec F S1x1x128x512 .f32) (xs0 : Vec F S1x1x1x1 .f32) (xs1 : Vec F S1x1x1x1 .f32) (xs2 : Vec F S1x21x1x1 .f32) (xs3 : Vec F S1x21x1x1 .f32) :
    sout0_B_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = stepMass x0 x1 x2 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_B
  dsimp only
  sl_unfold_words
  rw [View.canon_unit_zero hz4]
  unfold stepMass
  simp only [View.readAt_eq_ld, harg2.read_unread, harg3.read_unread, harg4.read_unread, harg9.read_unread, harg10.read_unread, harg11.read_unread, harg12.read_unread,
    View.ld_unit_zero (S := S1x21x128x512) hz4, View.ld_unit_zero (S := S1x1x128x512) hz4, View.ld_unit_zero (S := S1x1x1x1) hz4, View.ld_unit_zero (S := S1x21x1x1) hz4]

/-- At an image's last tile likewise, -/
theorem scratchMass_last (c : Dev nD) (i : grid0.Coords) (arg2 : Memref sig .tc .vmem S1x21x128x512 .f32) (harg2 : arg2.IsWhole) (arg3 : Memref sig .tc .vmem S1x1x128x512 .i32) (harg3 : arg3.IsWhole) (arg4 : Memref sig .tc .vmem S1x1x128x512 .f32) (harg4 : arg4.IsWhole) (arg5 : Memref sig .tc .vmem S1x1x1x1 .f32) (harg5 : arg5.IsWhole) (arg6 : Memref sig .tc .vmem S1x1x1x1 .f32) (harg6 : arg6.IsWhole) (arg7 : Memref sig .tc .vmem S1x21x1x1 .f32) (harg7 : arg7.IsWhole) (arg8 : Memref sig .tc .vmem S1x21x1x1 .f32) (harg8 : arg8.IsWhole) (arg9 : Memref sig .tc .vmem S1x1x1x1 .f32) (harg9 : arg9.IsWhole) (arg10 : Memref sig .tc .vmem S1x1x1x1 .f32) (harg10 : arg10.IsWhole) (arg11 : Memref sig .tc .vmem S1x21x1x1 .f32) (harg11 : arg11.IsWhole) (arg12 : Memref sig .tc .vmem S1x21x1x1 .f32) (harg12 : arg12.IsWhole) (hc0 : ¬cond0_0 i) (hc1 : cond0_1 i) (x0 : Vec F S1x21x128x512 .f32) (x1 : Vec F S1x1x128x512 .i32) (x2 : Vec F S1x1x128x512 .f32) (xs0 : Vec F S1x1x1x1 .f32) (xs1 : Vec F S1x1x1x1 .f32) (xs2 : Vec F S1x21x1x1 .f32) (xs3 : Vec F S1x21x1x1 .f32) :
    sout0_C_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = stepMass x0 x1 x2 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_C
  dsimp only
  sl_unfold_words
  rw [View.canon_unit_zero hz4]
  unfold stepMass
  simp only [View.readAt_eq_ld, harg2.read_unread, harg3.read_unread, harg4.read_unread, harg9.read_unread, harg10.read_unread, harg11.read_unread, harg12.read_unread,
    View.ld_unit_zero (S := S1x21x128x512) hz4, View.ld_unit_zero (S := S1x1x128x512) hz4, View.ld_unit_zero (S := S1x1x1x1) hz4, View.ld_unit_zero (S := S1x21x1x1) hz4]

/-- and the output block stored there is the accumulator's final value. -/
theorem outMass_last (c : Dev nD) (i : grid0.Coords) (arg2 : Memref sig .tc .vmem S1x21x128x512 .f32) (harg2 : arg2.IsWhole) (arg3 : Memref sig .tc .vmem S1x1x128x512 .i32) (harg3 : arg3.IsWhole) (arg4 : Memref sig .tc .vmem S1x1x128x512 .f32) (harg4 : arg4.IsWhole) (arg5 : Memref sig .tc .vmem S1x1x1x1 .f32) (harg5 : arg5.IsWhole) (arg6 : Memref sig .tc .vmem S1x1x1x1 .f32) (harg6 : arg6.IsWhole) (arg7 : Memref sig .tc .vmem S1x21x1x1 .f32) (harg7 : arg7.IsWhole) (arg8 : Memref sig .tc .vmem S1x21x1x1 .f32) (harg8 : arg8.IsWhole) (arg9 : Memref sig .tc .vmem S1x1x1x1 .f32) (harg9 : arg9.IsWhole) (arg10 : Memref sig .tc .vmem S1x1x1x1 .f32) (harg10 : arg10.IsWhole) (arg11 : Memref sig .tc .vmem S1x21x1x1 .f32) (harg11 : arg11.IsWhole) (arg12 : Memref sig .tc .vmem S1x21x1x1 .f32) (harg12 : arg12.IsWhole) (hc0 : ¬cond0_0 i) (hc1 : cond0_1 i) (x0 : Vec F S1x21x128x512 .f32) (x1 : Vec F S1x1x128x512 .i32) (x2 : Vec F S1x1x128x512 .f32) (xs0 : Vec F S1x1x1x1 .f32) (xs1 : Vec F S1x1x1x1 .f32) (xs2 : Vec F S1x21x1x1 .f32) (xs3 : Vec F S1x21x1x1 .f32) :
    out0_C_6 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = stepMass x0 x1 x2 xs3 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_C
  dsimp only
  sl_unfold_words
  rw [View.canon_unit_zero hz4]
  unfold stepMass
  simp only [View.readAt_eq_ld, harg2.read_unread, harg3.read_unread, harg4.read_unread, harg9.read_unread, harg10.read_unread, harg11.read_unread, harg12.read_unread,
    View.readCov_unit_zero (S := S1x1x1x1) _ hz4, View.readCov_unit_zero (S := S1x21x1x1) _ hz4,
    View.ld_unit_zero (S := S1x21x128x512) hz4, View.ld_unit_zero (S := S1x1x128x512) hz4, View.ld_unit_zero (S := S1x1x1x1) hz4, View.ld_unit_zero (S := S1x21x1x1) hz4]

end Cert.KernelIdeal.Pieces

end
-- ==== Proof.KernelAcc.lean ====
/-
  The four accumulators after every grid point, and what an image's last tile writes out.

  The grid runs over the 8 images and, inside an image, over its 4 tiles; point `4 n + j` is tile `j` of image
  `n`.  At the first tile of an image each accumulator is the update of the zero block by that tile; at a later
  tile the update of what the tile before left; and at the last tile the four outputs receive the accumulators'
  final values.  So an image's four outputs are the four-fold updates of the zero block by the image's tiles in
  order (`imgCe`, `imgFoc`, `imgInt`, `imgMass`).
-/
import proofs.«419937_j16037407883832_3_alg».proof.Proof.KernelPieces

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Pieces

variable {F : FTy → Type} [FloatOps F]
variable (m : (ℓ : Loc nD τ sig) → Buf (Elt F) ℓ)

/-- The tile's block of logits, of labels and of per-pixel class weights at grid point `t`. -/
abbrev blkX (c : Dev nD) (t : Fin cfg0.N) : Vec F S1x21x128x512 .f32 := iblk m c 0 t
abbrev blkT (c : Dev nD) (t : Fin cfg0.N) : Vec F S1x1x128x512 .i32 := iblk m c 1 t
abbrev blkW (c : Dev nD) (t : Fin cfg0.N) : Vec F S1x1x128x512 .f32 := iblk m c 2 t

theorem outsAt0_congr (c : Dev nD) {a b : ℕ} (h : a = b) (ha : a < cfg0.N) (hb : b < cfg0.N) :
    outsAt0 m c a ha = outsAt0 m c b hb := by subst h; rfl

/-- After an image's first tile: each accumulator is the update of the zero block. -/
theorem first_point (c : Dev nD) (t : Fin cfg0.N) (h0 : t.val % 4 = 0) (h1 : ¬t.val % 4 = 3) :
    (outsAt0 m c t.val t.isLt).2.2.2.2.1 = stepCe (blkX m c t) (blkT m c t) (blkW m c t) k0_pay4
    ∧ (outsAt0 m c t.val t.isLt).2.2.2.2.2.1 = stepFoc (blkX m c t) (blkT m c t) (blkW m c t) k0_pay5
    ∧ (outsAt0 m c t.val t.isLt).2.2.2.2.2.2.1 = stepInt (blkX m c t) (blkT m c t) (blkW m c t) k0_pay6
    ∧ (outsAt0 m c t.val t.isLt).2.2.2.2.2.2.2 = stepMass (blkX m c t) (blkT m c t) (blkW m c t) k0_pay7 := by
  rw [outsAt0_A m c t h0 h1]
  dsimp only
  exact ⟨scratchCe_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t),
    scratchFoc_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t),
    scratchInt_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t),
    scratchMass_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)⟩

/-- After a middle tile: each accumulator is the update of what the point before left. -/
theorem mid_point (c : Dev nD) (t : Fin cfg0.N) (h0 : ¬t.val % 4 = 0) (h1 : ¬t.val % 4 = 3) :
    (outsAt0 m c t.val t.isLt).2.2.2.2.1 = stepCe (blkX m c t) (blkT m c t) (blkW m c t) (outsAt0 m c (t.val - 1) (Nat.lt_of_le_of_lt (Nat.sub_le _ _) t.isLt)).2.2.2.2.1
    ∧ (outsAt0 m c t.val t.isLt).2.2.2.2.2.1 = stepFoc (blkX m c t) (blkT m c t) (blkW m c t) (outsAt0 m c (t.val - 1) (Nat.lt_of_le_of_lt (Nat.sub_le _ _) t.isLt)).2.2.2.2.2.1
    ∧ (outsAt0 m c t.val t.isLt).2.2.2.2.2.2.1 = stepInt (blkX m c t) (blkT m c t) (blkW m c t) (outsAt0 m c (t.val - 1) (Nat.lt_of_le_of_lt (Nat.sub_le _ _) t.isLt)).2.2.2.2.2.2.1
    ∧ (outsAt0 m c t.val t.isLt).2.2.2.2.2.2.2 = stepMass (blkX m c t) (blkT m c t) (blkW m c t) (outsAt0 m c (t.val - 1) (Nat.lt_of_le_of_lt (Nat.sub_le _ _) t.isLt)).2.2.2.2.2.2.2 := by
  rw [outsAt0_B m c t h0 h1]
  dsimp only
  exact ⟨scratchCe_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2,
    scratchFoc_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2,
    scratchInt_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2,
    scratchMass_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2⟩

/-- After an image's last tile: the four outputs hold the updates of what the point before left. -/
theorem last_point (c : Dev nD) (t : Fin cfg0.N) (h0 : ¬t.val % 4 = 0) (h1 : t.val % 4 = 3) :
    (outsAt0 m c t.val t.isLt).1 = stepCe (blkX m c t) (blkT m c t) (blkW m c t) (outsAt0 m c (t.val - 1) (Nat.lt_of_le_of_lt (Nat.sub_le _ _) t.isLt)).2.2.2.2.1
    ∧ (outsAt0 m c t.val t.isLt).2.1 = stepFoc (blkX m c t) (blkT m c t) (blkW m c t) (outsAt0 m c (t.val - 1) (Nat.lt_of_le_of_lt (Nat.sub_le _ _) t.isLt)).2.2.2.2.2.1
    ∧ (outsAt0 m c t.val t.isLt).2.2.1 = stepInt (blkX m c t) (blkT m c t) (blkW m c t) (outsAt0 m c (t.val - 1) (Nat.lt_of_le_of_lt (Nat.sub_le _ _) t.isLt)).2.2.2.2.2.2.1
    ∧ (outsAt0 m c t.val t.isLt).2.2.2.1 = stepMass (blkX m c t) (blkT m c t) (blkW m c t) (outsAt0 m c (t.val - 1) (Nat.lt_of_le_of_lt (Nat.sub_le _ _) t.isLt)).2.2.2.2.2.2.2 := by
  rw [outsAt0_C m c t h0 h1]
  dsimp only
  exact ⟨outCe_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2,
    outFoc_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2,
    outInt_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2,
    outMass_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2⟩

/-- Grid point `4 n + j`: tile `j` of image `n`. -/
def pt (n : Fin 8) (j : Fin 4) : Fin cfg0.N :=
  ⟨4 * n.val + j.val, by have hN : cfg0.N = 32 := N_0; have := n.isLt; have := j.isLt; omega⟩

/-- An image's cross-entropy sum: the zero block updated by its four tiles in order. -/
def imgCe (c : Dev nD) (n : Fin 8) : Vec F S1x1x1x1 .f32 :=
  stepCe (blkX m c (pt n 3)) (blkT m c (pt n 3)) (blkW m c (pt n 3))
    (stepCe (blkX m c (pt n 2)) (blkT m c (pt n 2)) (blkW m c (pt n 2))
      (stepCe (blkX m c (pt n 1)) (blkT m c (pt n 1)) (blkW m c (pt n 1))
        (stepCe (blkX m c (pt n 0)) (blkT m c (pt n 0)) (blkW m c (pt n 0)) k0_pay4)))
def imgFoc (c : Dev nD) (n : Fin 8) : Vec F S1x1x1x1 .f32 :=
  stepFoc (blkX m c (pt n 3)) (blkT m c (pt n 3)) (blkW m c (pt n 3))
    (stepFoc (blkX m c (pt n 2)) (blkT m c (pt n 2)) (blkW m c (pt n 2))
      (stepFoc (blkX m c (pt n 1)) (blkT m c (pt n 1)) (blkW m c (pt n 1))
        (stepFoc (blkX m c (pt n 0)) (blkT m c (pt n 0)) (blkW m c (pt n 0)) k0_pay5)))
def imgInt (c : Dev nD) (n : Fin 8) : Vec F S1x21x1x1 .f32 :=
  stepInt (blkX m c (pt n 3)) (blkT m c (pt n 3)) (blkW m c (pt n 3))
    (stepInt (blkX m c (pt n 2)) (blkT m c (pt n 2)) (blkW m c (pt n 2))
      (stepInt (blkX m c (pt n 1)) (blkT m c (pt n 1)) (blkW m c (pt n 1))
        (stepInt (blkX m c (pt n 0)) (blkT m c (pt n 0)) (blkW m c (pt n 0)) k0_pay6)))
def imgMass (c : Dev nD) (n : Fin 8) : Vec F S1x21x1x1 .f32 :=
  stepMass (blkX m c (pt n 3)) (blkT m c (pt n 3)) (blkW m c (pt n 3))
    (stepMass (blkX m c (pt n 2)) (blkT m c (pt n 2)) (blkW m c (pt n 2))
      (stepMass (blkX m c (pt n 1)) (blkT m c (pt n 1)) (blkW m c (pt n 1))
        (stepMass (blkX m c (pt n 0)) (blkT m c (pt n 0)) (blkW m c (pt n 0)) k0_pay7)))

/-- What image `n`'s last tile leaves in the four outputs. -/
theorem img_out (c : Dev nD) (n : Fin 8) :
    (outsAt0 m c (pt n 3).val (pt n 3).isLt).1 = imgCe m c n
    ∧ (outsAt0 m c (pt n 3).val (pt n 3).isLt).2.1 = imgFoc m c n
    ∧ (outsAt0 m c (pt n 3).val (pt n 3).isLt).2.2.1 = imgInt m c n
    ∧ (outsAt0 m c (pt n 3).val (pt n 3).isLt).2.2.2.1 = imgMass m c n := by
  have hn := n.isLt
  obtain ⟨a0, a1, a2, a3⟩ := first_point m c (pt n 0) (by show (4 * n.val + 0) % 4 = 0; omega) (by show ¬(4 * n.val + 0) % 4 = 3; omega)
  obtain ⟨b0, b1, b2, b3⟩ := mid_point m c (pt n 1) (by show ¬(4 * n.val + 1) % 4 = 0; omega) (by show ¬(4 * n.val + 1) % 4 = 3; omega)
  obtain ⟨c0, c1, c2, c3⟩ := mid_point m c (pt n 2) (by show ¬(4 * n.val + 2) % 4 = 0; omega) (by show ¬(4 * n.val + 2) % 4 = 3; omega)
  obtain ⟨d0, d1, d2, d3⟩ := last_point m c (pt n 3) (by show ¬(4 * n.val + 3) % 4 = 0; omega) (by show (4 * n.val + 3) % 4 = 3; omega)
  have e1 := outsAt0_congr m c (show (pt n 1).val - 1 = (pt n 0).val from by show 4 * n.val + 1 - 1 = 4 * n.val + 0; omega)
    (Nat.lt_of_le_of_lt (Nat.sub_le _ _) (pt n 1).isLt) (pt n 0).isLt
  have e2 := outsAt0_congr m c (show (pt n 2).val - 1 = (pt n 1).val from by show 4 * n.val + 2 - 1 = 4 * n.val + 1; omega)
    (Nat.lt_of_le_of_lt (Nat.sub_le _ _) (pt n 2).isLt) (pt n 1).isLt
  have e3 := outsAt0_congr m c (show (pt n 3).val - 1 = (pt n 2).val from by show 4 * n.val + 3 - 1 = 4 * n.val + 2; omega)
    (Nat.lt_of_le_of_lt (Nat.sub_le _ _) (pt n 3).isLt) (pt n 2).isLt
  rw [e1] at b0 b1 b2 b3
  rw [e2] at c0 c1 c2 c3
  rw [e3] at d0 d1 d2 d3
  rw [a0] at b0; rw [a1] at b1; rw [a2] at b2; rw [a3] at b3
  rw [b0] at c0; rw [b1] at c1; rw [b2] at c2; rw [b3] at c3
  rw [c0] at d0; rw [c1] at d1; rw [c2] at d2; rw [c3] at d3
  exact ⟨d0, d1, d2, d3⟩

end Cert.KernelIdeal.Acc

end
-- ==== Proof.KernelArrays.lean ====
/-
  The kernel's four output arrays after the run.

  Output `w` has one block per image; only the image's last tile stores it and writes it back.  So after the
  run the array holds, at `(n, ·, 0, 0)`, image `n`'s accumulator after its four tiles (Proof/KernelAcc.lean):
  the write-backs' blocks are exactly these, and they cover the array.
-/
import proofs.«419937_j16037407883832_3_alg».proof.Proof.KernelAcc
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Pieces Cert.KernelIdeal.Acc

variable {F : FTy → Type} [FloatOps F]
variable (m : (ℓ : Loc nD τ sig) → Buf (Elt F) ℓ)

/-! ## Output 0 -/

/-- The block indices of the output's window, decided over the grid: block `(t / 4, 0, 0, 0)`. -/
theorem idxCe : ∀ t : Fin cfg0.N, win0_3.index t (0 : Fin 4) = t.val / 4 ∧ win0_3.index t (1 : Fin 4) = 0
    ∧ win0_3.index t (2 : Fin 4) = 0 ∧ win0_3.index t (3 : Fin 4) = 0 :=
  (by decide +kernel : ∀ t : Fin grid0.N, _)

/-- What the array ends holding: at `(n, ·, 0, 0)` image `n`'s accumulator. -/
def arrCe (c : Dev nD) : S8x1x1x1.Idx → Elt F .f32 :=
  fun i => imgCe m c (⟨(i 0).val, (i 0).isLt⟩ : Fin 8) (ValueIdx.ix4 (0 : Fin 1) (0 : Fin 1) (0 : Fin 1) (0 : Fin 1))

/-- An index of the array is in point `t`'s block iff each coordinate is in the block's range on its axis. -/
theorem mem_blkCe (t : Fin cfg0.N) (i : S8x1x1x1.Idx) :
    i ∈ ((cfg0.win 3).blk t).view.set ↔ ∀ a : Fin 4, win0_3.index t a * S1x1x1x1.size a ≤ (i a).val ∧ (i a).val < win0_3.index t a * S1x1x1x1.size a + S1x1x1x1.size a := by
  show i ∈ ((View.whole main_v15_0).slice (win0_3.rect t)).set ↔ _
  rw [View.set_slice_whole, Rect.mem_set_unit]
  exact Iff.rfl

/-- The last tile of image `n` writes back block `n` of that array. -/
theorem flushedCe (c : Dev nD) (t : Fin cfg0.N) (hf : (cfg0.win 3).flush t = true) :
    (dats m 0 c).flushed 3 t = ((cfg0.win 3).blk t).view.read (Elt F) (arrCe m c) := by
  have hN : cfg0.N = 32 := N_0
  have h3 : t.val % 4 = 3 := (flush0_3 t).mp hf
  have ht := t.isLt
  obtain ⟨n, rfl⟩ : ∃ n : Fin 8, t = pt n 3 := ⟨⟨t.val / 4, by omega⟩, Fin.ext (by show t.val = 4 * (t.val / 4) + 3; omega)⟩
  show (cfg0.win 3).cut (grid0.coords (pt n 3)) ((dats m 0 c).after 3 (pt n 3)) = _
  rw [after0_3, (img_out m c n).1]
  obtain ⟨e0, e1, e2, e3⟩ := idxCe (pt n 3)
  have hn := n.isLt
  funext y
  show imgCe m c n y = arrCe m c (((cfg0.win 3).blk (pt n 3)).view.emb y)
  unfold arrCe
  have hy0 : (y 0).val < 1 := (y 0).isLt
  have hy1 : (y 1).val < 1 := (y 1).isLt
  have hy2 : (y 2).val < 1 := (y 2).isLt
  have hy3 : (y 3).val < 1 := (y 3).isLt
  refine congrArg₂ (imgCe m c) (Fin.ext ?_) (funext fun a => Fin.ext ?_)
  · show n.val = win0_3.index (pt n 3) (0 : Fin 4) * 1 + 1 * (y 0).val
    rw [e0]; show n.val = (4 * n.val + 3) / 4 * 1 + 1 * (y 0).val; omega
  · match a with
    | ⟨0, _⟩ => show (y 0).val = 0; omega
    | ⟨1, _⟩ => show (y 1).val = 0; omega
    | ⟨2, _⟩ => show (y 2).val = 0; omega
    | ⟨3, _⟩ => show (y 3).val = 0; omega

/-- Every index of the array is in the block some image's last tile writes back. -/
theorem coverCe (c : Dev nD) (i : S8x1x1x1.Idx) :
    ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 1 := (i 2).isLt
  have hi3 : (i 3).val < 1 := (i 3).isLt
  refine ⟨pt ⟨(i 0).val, hi0⟩ 3, (flush0_3 _).mpr (by show (4 * (i 0).val + 3) % 4 = 3; omega), ?_⟩
  obtain ⟨e0, e1, e2, e3⟩ := idxCe (pt ⟨(i 0).val, hi0⟩ 3)
  rw [mem_blkCe]
  intro a
  match a with
  | ⟨0, _⟩ => show win0_3.index (pt ⟨(i 0).val, hi0⟩ 3) (0 : Fin 4) * 1 ≤ (i 0).val ∧ (i 0).val < win0_3.index (pt ⟨(i 0).val, hi0⟩ 3) (0 : Fin 4) * 1 + 1
              rw [e0]; show (4 * (i 0).val + 3) / 4 * 1 ≤ (i 0).val ∧ (i 0).val < (4 * (i 0).val + 3) / 4 * 1 + 1; omega
  | ⟨1, _⟩ => show win0_3.index (pt ⟨(i 0).val, hi0⟩ 3) (1 : Fin 4) * 1 ≤ (i 1).val ∧ (i 1).val < win0_3.index (pt ⟨(i 0).val, hi0⟩ 3) (1 : Fin 4) * 1 + 1
              rw [e1]; omega
  | ⟨2, _⟩ => show win0_3.index (pt ⟨(i 0).val, hi0⟩ 3) (2 : Fin 4) * 1 ≤ (i 2).val ∧ (i 2).val < win0_3.index (pt ⟨(i 0).val, hi0⟩ 3) (2 : Fin 4) * 1 + 1
              rw [e2]; omega
  | ⟨3, _⟩ => show win0_3.index (pt ⟨(i 0).val, hi0⟩ 3) (3 : Fin 4) * 1 ≤ (i 3).val ∧ (i 3).val < win0_3.index (pt ⟨(i 0).val, hi0⟩ 3) (3 : Fin 4) * 1 + 1
              rw [e3]; omega

/-- So the array ends holding every image's accumulator. -/
theorem finalCe (c : Dev nD) : (dats m 0 c).arrAt 3 cfg0.N = arrCe m c :=
  (dats m 0 c).arrAt_eq_of_cover 3 (arrCe m c) (flushedCe m c) (coverCe c)

/-! ## Output 1 -/

/-- The block indices of the output's window, decided over the grid: block `(t / 4, 0, 0, 0)`. -/
theorem idxFoc : ∀ t : Fin cfg0.N, win0_4.index t (0 : Fin 4) = t.val / 4 ∧ win0_4.index t (1 : Fin 4) = 0
    ∧ win0_4.index t (2 : Fin 4) = 0 ∧ win0_4.index t (3 : Fin 4) = 0 :=
  (by decide +kernel : ∀ t : Fin grid0.N, _)

/-- What the array ends holding: at `(n, ·, 0, 0)` image `n`'s accumulator. -/
def arrFoc (c : Dev nD) : S8x1x1x1.Idx → Elt F .f32 :=
  fun i => imgFoc m c (⟨(i 0).val, (i 0).isLt⟩ : Fin 8) (ValueIdx.ix4 (0 : Fin 1) (0 : Fin 1) (0 : Fin 1) (0 : Fin 1))

/-- An index of the array is in point `t`'s block iff each coordinate is in the block's range on its axis. -/
theorem mem_blkFoc (t : Fin cfg0.N) (i : S8x1x1x1.Idx) :
    i ∈ ((cfg0.win 4).blk t).view.set ↔ ∀ a : Fin 4, win0_4.index t a * S1x1x1x1.size a ≤ (i a).val ∧ (i a).val < win0_4.index t a * S1x1x1x1.size a + S1x1x1x1.size a := by
  show i ∈ ((View.whole main_v15_1).slice (win0_4.rect t)).set ↔ _
  rw [View.set_slice_whole, Rect.mem_set_unit]
  exact Iff.rfl

/-- The last tile of image `n` writes back block `n` of that array. -/
theorem flushedFoc (c : Dev nD) (t : Fin cfg0.N) (hf : (cfg0.win 4).flush t = true) :
    (dats m 0 c).flushed 4 t = ((cfg0.win 4).blk t).view.read (Elt F) (arrFoc m c) := by
  have hN : cfg0.N = 32 := N_0
  have h3 : t.val % 4 = 3 := (flush0_4 t).mp hf
  have ht := t.isLt
  obtain ⟨n, rfl⟩ : ∃ n : Fin 8, t = pt n 3 := ⟨⟨t.val / 4, by omega⟩, Fin.ext (by show t.val = 4 * (t.val / 4) + 3; omega)⟩
  show (cfg0.win 4).cut (grid0.coords (pt n 3)) ((dats m 0 c).after 4 (pt n 3)) = _
  rw [after0_4, (img_out m c n).2.1]
  obtain ⟨e0, e1, e2, e3⟩ := idxFoc (pt n 3)
  have hn := n.isLt
  funext y
  show imgFoc m c n y = arrFoc m c (((cfg0.win 4).blk (pt n 3)).view.emb y)
  unfold arrFoc
  have hy0 : (y 0).val < 1 := (y 0).isLt
  have hy1 : (y 1).val < 1 := (y 1).isLt
  have hy2 : (y 2).val < 1 := (y 2).isLt
  have hy3 : (y 3).val < 1 := (y 3).isLt
  refine congrArg₂ (imgFoc m c) (Fin.ext ?_) (funext fun a => Fin.ext ?_)
  · show n.val = win0_4.index (pt n 3) (0 : Fin 4) * 1 + 1 * (y 0).val
    rw [e0]; show n.val = (4 * n.val + 3) / 4 * 1 + 1 * (y 0).val; omega
  · match a with
    | ⟨0, _⟩ => show (y 0).val = 0; omega
    | ⟨1, _⟩ => show (y 1).val = 0; omega
    | ⟨2, _⟩ => show (y 2).val = 0; omega
    | ⟨3, _⟩ => show (y 3).val = 0; omega

/-- Every index of the array is in the block some image's last tile writes back. -/
theorem coverFoc (c : Dev nD) (i : S8x1x1x1.Idx) :
    ∃ t : Fin cfg0.N, (cfg0.win 4).flush t = true ∧ i ∈ ((cfg0.win 4).blk t).view.set := by
  have hi0 : (i 0).val < 8 := (i 0).isLt
  have hi1 : (i 1).val < 1 := (i 1).isLt
  have hi2 : (i 2).val < 1 := (i 2).isLt
  have hi3 : (i 3).val < 1 := (i 3).isLt
  refine ⟨pt ⟨(i 0).val, hi0⟩ 3, (flush0_4 _).mpr (by show (4 * (i 0).val + 3) % 4 = 3; omega), ?_⟩
  obtain ⟨e0, e1, e2, e3⟩ := idxFoc (pt ⟨(i 0).val, hi0⟩ 3)
  rw [mem_blkFoc]
  intro a
  match a with
  | ⟨0, _⟩ => show win0_4.index (pt ⟨(i 0).val, hi0⟩ 3) (0 : Fin 4) * 1 ≤ (i 0).val ∧ (i 0).val < win0_4.index (pt ⟨(i 0).val, hi0⟩ 3) (0 : Fin 4) * 1 + 1
              rw [e0]; show (4 * (i 0).val + 3) / 4 * 1 ≤ (i 0).val ∧ (i 0).val < (4 * (i 0).val + 3) / 4 * 1 + 1; omega
  | ⟨1, _⟩ => show win0_4.index (pt ⟨(i 0).val, hi0⟩ 3) (1 : Fin 4) * 1 ≤ (i 1).val ∧ (i 1).val < win0_4.index (pt ⟨(i 0).val, hi0⟩ 3) (1 : Fin 4) * 1 + 1
              rw [e1]; omega
  | ⟨2, _⟩ => show win0_4.index (pt ⟨(i 0).val, hi0⟩ 3) (2 : Fin 4) * 1 ≤ (i 2).val ∧ (i 2).val < win0_4.index (pt ⟨(i 0).val, hi0⟩ 3) (2 : Fin 4) * 1 + 1
              rw [e2]; omega
  | ⟨3, _⟩ => show win0_4.index (pt ⟨(i 0).val, hi0⟩ 3) (3 : Fin 4) * 1 ≤ (i 3).val ∧ (i 3).val < win0_4.index (pt ⟨(i 0).val, hi0⟩ 3) (3 : Fin 4) * 1 + 1
              rw [e3]; omega

/-- So the array ends holding every image's accumulator. -/
theorem finalFoc (c : Dev nD) : (dats m 0 c).arrAt 4 cfg0.N = arrFoc m c :=
  (dats m 0 c).arrAt_eq_of_cover 4 (arrFoc m c) (flushedFoc m c) (coverFoc c)

/-! ## Output 2 -/

/-- The block indices of the output's window, decided over the grid: block `(t / 4, 0, 0, 0)`. -/
theorem idxInt : ∀ t : Fin cfg0.N, win0_5.index t (0 : Fin 4) = t.val / 4 ∧ win0_5.index t (1 : Fin 4) = 0
    ∧ win0_5.index t (2 : Fin 4) = 0 ∧ win0_5.index t (3 : Fin 4) = 0 :=
  (by decide +kernel : ∀ t : Fin grid0.N, _)

/-- What the array ends holding: at `(n, ·, 0, 0)` image `n`'s accumulator. -/
def arrInt (c : Dev nD) : S8x21x1x1.Idx → Elt F .f32 :=
  fun i => imgInt m c (⟨(i 0).val, (i 0).isLt⟩ : Fin 8) (ValueIdx.ix4 (0 : Fin 1) (⟨(i 1).val, (i 1).isLt⟩ : Fin 21) (0 : Fin 1) (0 : Fin 1))

/-- An index of the array is in point `t`'s block iff each coordinate is in the block's range on its axis. -/
theorem mem_blkInt (t : Fin cfg0.N) (i : S8x21x1x1.Idx) :
    i ∈ ((cfg0.win 5).blk t).view.set ↔ ∀ a : Fin 4, win0_5.index t a * S1x21x1x1.size a ≤ (i a).val ∧ (i a).val < win0_5.index t a * S1x21x1x1.size a + S1x21x1x1.size a := by
  show i ∈ ((View.whole main_v15_2).slice (win0_5.rect t)).set ↔ _
  rw [View.set_slice_whole, Rect.mem_set_unit]
  exact Iff.rfl

/-- The last tile of image `n` writes back block `n` of that array. -/
theorem flushedInt (c : Dev nD) (t : Fin cfg0.N) (hf : (cfg0.win 5).flush t = true) :
    (dats m 0 c).flushed 5 t = ((cfg0.win 5).blk t).view.read (Elt F) (arrInt m c) := by
  have hN : cfg0.N = 32 := N_0
  have h3 : t.val % 4 = 3 := (flush0_5 t).mp hf
  have ht := t.isLt
  obtain ⟨n, rfl⟩ : ∃ n : Fin 8, t = pt n 3 := ⟨⟨t.val / 4, by omega⟩, Fin.ext (by show t.val = 4 * (t.val / 4) + 3; omega)⟩
  show (cfg0.win 5).cut (grid0.coords (pt n 3)) ((dats m 0 c).after 5 (pt n 3)) = _
  rw [after0_5, (img_out m c n).2.2.1]
  obtain ⟨e0, e1, e2, e3⟩ := idxInt (pt n 3)
  have hn := n.isLt
  funext y
  show imgInt m c n y = arrInt m c (((cfg0.win 5).blk (pt n 3)).view.emb y)
  unfold arrInt
  have hy0 : (y 0).val < 1 := (y 0).isLt
  have hy1 : (y 1).val < 21 := (y 1).isLt
  have hy2 : (y 2).val < 1 := (y 2).isLt
  have hy3 : (y 3).val < 1 := (y 3).isLt
  refine congrArg₂ (imgInt m c) (Fin.ext ?_) (funext fun a => Fin.ext ?_)
  · show n.val = win0_5.index (pt n 3) (0 : Fin 4) * 1 + 1 * (y 0).val
    rw [e0]; show n.val = (4 * n.val + 3) / 4 * 1 + 1 * (y 0).val; omega
  · match a with
    | ⟨0, _⟩ => show (y 0).val = 0; omega
    | ⟨1, _⟩ => show (y 1).val = win0_5.index (pt n 3) (1 : Fin 4) * 21 + 1 * (y 1).val; rw [e1]; omega
    | ⟨2, _⟩ => show (y 2).val = 0; omega
    | ⟨3, _⟩ => show (y 3).val = 0; omega

/-- Every index of the array is in the block some image's last tile writes back. -/
theorem coverInt (c : Dev nD) (i : S8x21x1x1.Idx) :
    ∃ t : Fin cfg0.N, (cfg0.win 5).flush t = true ∧ i ∈ ((cfg0.win 5).blk t).view.set := by
  have hi0 : (i 0).val < 8 := (i 0).isLt
  have hi1 : (i 1).val < 21 := (i 1).isLt
  have hi2 : (i 2).val < 1 := (i 2).isLt
  have hi3 : (i 3).val < 1 := (i 3).isLt
  refine ⟨pt ⟨(i 0).val, hi0⟩ 3, (flush0_5 _).mpr (by show (4 * (i 0).val + 3) % 4 = 3; omega), ?_⟩
  obtain ⟨e0, e1, e2, e3⟩ := idxInt (pt ⟨(i 0).val, hi0⟩ 3)
  rw [mem_blkInt]
  intro a
  match a with
  | ⟨0, _⟩ => show win0_5.index (pt ⟨(i 0).val, hi0⟩ 3) (0 : Fin 4) * 1 ≤ (i 0).val ∧ (i 0).val < win0_5.index (pt ⟨(i 0).val, hi0⟩ 3) (0 : Fin 4) * 1 + 1
              rw [e0]; show (4 * (i 0).val + 3) / 4 * 1 ≤ (i 0).val ∧ (i 0).val < (4 * (i 0).val + 3) / 4 * 1 + 1; omega
  | ⟨1, _⟩ => show win0_5.index (pt ⟨(i 0).val, hi0⟩ 3) (1 : Fin 4) * 21 ≤ (i 1).val ∧ (i 1).val < win0_5.index (pt ⟨(i 0).val, hi0⟩ 3) (1 : Fin 4) * 21 + 21
              rw [e1]; omega
  | ⟨2, _⟩ => show win0_5.index (pt ⟨(i 0).val, hi0⟩ 3) (2 : Fin 4) * 1 ≤ (i 2).val ∧ (i 2).val < win0_5.index (pt ⟨(i 0).val, hi0⟩ 3) (2 : Fin 4) * 1 + 1
              rw [e2]; omega
  | ⟨3, _⟩ => show win0_5.index (pt ⟨(i 0).val, hi0⟩ 3) (3 : Fin 4) * 1 ≤ (i 3).val ∧ (i 3).val < win0_5.index (pt ⟨(i 0).val, hi0⟩ 3) (3 : Fin 4) * 1 + 1
              rw [e3]; omega

/-- So the array ends holding every image's accumulator. -/
theorem finalInt (c : Dev nD) : (dats m 0 c).arrAt 5 cfg0.N = arrInt m c :=
  (dats m 0 c).arrAt_eq_of_cover 5 (arrInt m c) (flushedInt m c) (coverInt c)

/-! ## Output 3 -/

/-- The block indices of the output's window, decided over the grid: block `(t / 4, 0, 0, 0)`. -/
theorem idxMass : ∀ t : Fin cfg0.N, win0_6.index t (0 : Fin 4) = t.val / 4 ∧ win0_6.index t (1 : Fin 4) = 0
    ∧ win0_6.index t (2 : Fin 4) = 0 ∧ win0_6.index t (3 : Fin 4) = 0 :=
  (by decide +kernel : ∀ t : Fin grid0.N, _)

/-- What the array ends holding: at `(n, ·, 0, 0)` image `n`'s accumulator. -/
def arrMass (c : Dev nD) : S8x21x1x1.Idx → Elt F .f32 :=
  fun i => imgMass m c (⟨(i 0).val, (i 0).isLt⟩ : Fin 8) (ValueIdx.ix4 (0 : Fin 1) (⟨(i 1).val, (i 1).isLt⟩ : Fin 21) (0 : Fin 1) (0 : Fin 1))

/-- An index of the array is in point `t`'s block iff each coordinate is in the block's range on its axis. -/
theorem mem_blkMass (t : Fin cfg0.N) (i : S8x21x1x1.Idx) :
    i ∈ ((cfg0.win 6).blk t).view.set ↔ ∀ a : Fin 4, win0_6.index t a * S1x21x1x1.size a ≤ (i a).val ∧ (i a).val < win0_6.index t a * S1x21x1x1.size a + S1x21x1x1.size a := by
  show i ∈ ((View.whole main_v15_3).slice (win0_6.rect t)).set ↔ _
  rw [View.set_slice_whole, Rect.mem_set_unit]
  exact Iff.rfl

/-- The last tile of image `n` writes back block `n` of that array. -/
theorem flushedMass (c : Dev nD) (t : Fin cfg0.N) (hf : (cfg0.win 6).flush t = true) :
    (dats m 0 c).flushed 6 t = ((cfg0.win 6).blk t).view.read (Elt F) (arrMass m c) := by
  have hN : cfg0.N = 32 := N_0
  have h3 : t.val % 4 = 3 := (flush0_6 t).mp hf
  have ht := t.isLt
  obtain ⟨n, rfl⟩ : ∃ n : Fin 8, t = pt n 3 := ⟨⟨t.val / 4, by omega⟩, Fin.ext (by show t.val = 4 * (t.val / 4) + 3; omega)⟩
  show (cfg0.win 6).cut (grid0.coords (pt n 3)) ((dats m 0 c).after 6 (pt n 3)) = _
  rw [after0_6, (img_out m c n).2.2.2]
  obtain ⟨e0, e1, e2, e3⟩ := idxMass (pt n 3)
  have hn := n.isLt
  funext y
  show imgMass m c n y = arrMass m c (((cfg0.win 6).blk (pt n 3)).view.emb y)
  unfold arrMass
  have hy0 : (y 0).val < 1 := (y 0).isLt
  have hy1 : (y 1).val < 21 := (y 1).isLt
  have hy2 : (y 2).val < 1 := (y 2).isLt
  have hy3 : (y 3).val < 1 := (y 3).isLt
  refine congrArg₂ (imgMass m c) (Fin.ext ?_) (funext fun a => Fin.ext ?_)
  · show n.val = win0_6.index (pt n 3) (0 : Fin 4) * 1 + 1 * (y 0).val
    rw [e0]; show n.val = (4 * n.val + 3) / 4 * 1 + 1 * (y 0).val; omega
  · match a with
    | ⟨0, _⟩ => show (y 0).val = 0; omega
    | ⟨1, _⟩ => show (y 1).val = win0_6.index (pt n 3) (1 : Fin 4) * 21 + 1 * (y 1).val; rw [e1]; omega
    | ⟨2, _⟩ => show (y 2).val = 0; omega
    | ⟨3, _⟩ => show (y 3).val = 0; omega

/-- Every index of the array is in the block some image's last tile writes back. -/
theorem coverMass (c : Dev nD) (i : S8x21x1x1.Idx) :
    ∃ t : Fin cfg0.N, (cfg0.win 6).flush t = true ∧ i ∈ ((cfg0.win 6).blk t).view.set := by
  have hi0 : (i 0).val < 8 := (i 0).isLt
  have hi1 : (i 1).val < 21 := (i 1).isLt
  have hi2 : (i 2).val < 1 := (i 2).isLt
  have hi3 : (i 3).val < 1 := (i 3).isLt
  refine ⟨pt ⟨(i 0).val, hi0⟩ 3, (flush0_6 _).mpr (by show (4 * (i 0).val + 3) % 4 = 3; omega), ?_⟩
  obtain ⟨e0, e1, e2, e3⟩ := idxMass (pt ⟨(i 0).val, hi0⟩ 3)
  rw [mem_blkMass]
  intro a
  match a with
  | ⟨0, _⟩ => show win0_6.index (pt ⟨(i 0).val, hi0⟩ 3) (0 : Fin 4) * 1 ≤ (i 0).val ∧ (i 0).val < win0_6.index (pt ⟨(i 0).val, hi0⟩ 3) (0 : Fin 4) * 1 + 1
              rw [e0]; show (4 * (i 0).val + 3) / 4 * 1 ≤ (i 0).val ∧ (i 0).val < (4 * (i 0).val + 3) / 4 * 1 + 1; omega
  | ⟨1, _⟩ => show win0_6.index (pt ⟨(i 0).val, hi0⟩ 3) (1 : Fin 4) * 21 ≤ (i 1).val ∧ (i 1).val < win0_6.index (pt ⟨(i 0).val, hi0⟩ 3) (1 : Fin 4) * 21 + 21
              rw [e1]; omega
  | ⟨2, _⟩ => show win0_6.index (pt ⟨(i 0).val, hi0⟩ 3) (2 : Fin 4) * 1 ≤ (i 2).val ∧ (i 2).val < win0_6.index (pt ⟨(i 0).val, hi0⟩ 3) (2 : Fin 4) * 1 + 1
              rw [e2]; omega
  | ⟨3, _⟩ => show win0_6.index (pt ⟨(i 0).val, hi0⟩ 3) (3 : Fin 4) * 1 ≤ (i 3).val ∧ (i 3).val < win0_6.index (pt ⟨(i 0).val, hi0⟩ 3) (3 : Fin 4) * 1 + 1
              rw [e3]; omega

/-- So the array ends holding every image's accumulator. -/
theorem finalMass (c : Dev nD) : (dats m 0 c).arrAt 6 cfg0.N = arrMass m c :=
  (dats m 0 c).arrAt_eq_of_cover 6 (arrMass m c) (flushedMass m c) (coverMass c)

end Cert.KernelIdeal.Arrays

end
-- ==== Proof.LibERealBatchNorm.lean ====
/- Extended-real arithmetic on real-valued data, and the identity between the two spellings of the
   variance of a finite family: the mean of the squares minus the square of the mean, and the mean of the
   squared deviations. Both are stated for families every entry of which is a real number; at an infinity
   the two spellings differ. -/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

noncomputable section

namespace Cert.ERealBN

open Idealize.ShloMosaic
open scoped BigOperators

/-- An extended real that is a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The sum of real numbers, read in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

theorem IsReal.div_coe {x : EReal} (hx : IsReal x) {r : ℝ} (hr : r ≠ 0) : IsReal (Ideal.div x (r : EReal)) := by
  rw [Ideal.div_coe hr x]
  exact IsReal.mul hx (IsReal.coe _)

theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

/-! The float constants the programs spell, as the extended reals their patterns denote. -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_1e5 : Ideal.ofBits .f32 0x47C35000#32 = ((100000 : ℝ) : EReal) := by
  simp [Ideal.ofBits, Ideal.ieee, -EReal.coe_mul]; norm_num

/-- The batch-normalisation epsilon is a positive real (the dyadic `10995116 · 2⁻⁴⁰`, about `1e-5`). -/
theorem ofBits_eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

/-! The variance law. -/

/-- Division of a real sum by a nonzero real, in the reals. -/
private theorem div_sum_coe {ι : Type*} [Fintype ι] (f : ι → ℝ) {N : ℝ} (hN : N ≠ 0) :
    Ideal.div (∑ i, ((f i : ℝ) : EReal)) (N : EReal) = (((∑ i, f i) * (1 / N) : ℝ) : EReal) := by
  rw [Ideal.div_coe hN, coe_sum, ← EReal.coe_mul]

/-- The sum of squared deviations from `m`, expanded. -/
private theorem sum_dev_sq {ι : Type*} [Fintype ι] (f : ι → ℝ) (m : ℝ) :
    ∑ i, (f i - m) * (f i - m)
      = ∑ i, f i * f i - 2 * m * ∑ i, f i + (Fintype.card ι : ℝ) * (m * m) := by
  have h : ∀ i, (f i - m) * (f i - m) = f i * f i - 2 * m * f i + m * m := fun i => by ring
  simp_rw [h, Finset.sum_add_distrib, Finset.sum_sub_distrib, ← Finset.mul_sum, Finset.sum_const,
    Finset.card_univ, nsmul_eq_mul]
  ring

/-- The deviations' side, in the reals. -/
private theorem dev_coe {ι : Type*} [Fintype ι] (f : ι → ℝ) {N : ℝ} (hN : N ≠ 0) :
    Ideal.div (∑ i, (((f i : ℝ) : EReal) - Ideal.div (∑ i, ((f i : ℝ) : EReal)) (N : EReal))
        * (((f i : ℝ) : EReal) - Ideal.div (∑ i, ((f i : ℝ) : EReal)) (N : EReal))) (N : EReal)
      = (((∑ i, (f i - (∑ i, f i) * (1 / N)) * (f i - (∑ i, f i) * (1 / N))) * (1 / N) : ℝ) : EReal) := by
  rw [div_sum_coe f hN]
  simp_rw [← EReal.coe_sub, ← EReal.coe_mul]
  rw [div_sum_coe _ hN]

theorem var_eq {ι : Type*} [Fintype ι] (c : ι → EReal) (hc : ∀ i, IsReal (c i)) (N : ℝ) (hN : (Fintype.card ι : ℝ) = N) (hpos : 0 < N) :
    Ideal.div (∑ i, c i * c i) (N : EReal) - Ideal.div (∑ i, c i) (N : EReal) * Ideal.div (∑ i, c i) (N : EReal)
      = Ideal.div (∑ i, (c i - Ideal.div (∑ i, c i) (N : EReal)) * (c i - Ideal.div (∑ i, c i) (N : EReal))) (N : EReal) := by
  choose f hf using hc
  obtain rfl : c = fun i => ((f i : ℝ) : EReal) := funext hf
  have hN0 : N ≠ 0 := hpos.ne'
  rw [dev_coe f hN0, div_sum_coe f hN0]
  simp_rw [← EReal.coe_mul]
  rw [div_sum_coe _ hN0, ← EReal.coe_sub, sum_dev_sq, hN]
  congr 1
  field_simp
  ring

theorem var_isReal_nonneg {ι : Type*} [Fintype ι] (c : ι → EReal) (hc : ∀ i, IsReal (c i)) (N : ℝ) (hpos : 0 < N) :
    IsReal (Ideal.div (∑ i, (c i - Ideal.div (∑ i, c i) (N : EReal)) * (c i - Ideal.div (∑ i, c i) (N : EReal))) (N : EReal))
    ∧ 0 ≤ Ideal.div (∑ i, (c i - Ideal.div (∑ i, c i) (N : EReal)) * (c i - Ideal.div (∑ i, c i) (N : EReal))) (N : EReal) := by
  choose f hf using hc
  obtain rfl : c = fun i => ((f i : ℝ) : EReal) := funext hf
  rw [dev_coe f hpos.ne']
  refine ⟨IsReal.coe _, ?_⟩
  rw [EReal.coe_nonneg]
  exact mul_nonneg (Finset.sum_nonneg (fun i _ => mul_self_nonneg _)) (by positivity)

theorem rsqrt_var_isReal {v e : EReal} (hv : IsReal v) (hv0 : 0 ≤ v) (he : IsReal e) (he0 : 0 < e) : IsReal (Ideal.rsqrt (v + e)) := by
  obtain ⟨a, rfl⟩ := hv
  obtain ⟨b, rfl⟩ := he
  have ha : 0 ≤ a := by exact_mod_cast hv0
  have hb : 0 < b := by exact_mod_cast he0
  rw [← EReal.coe_add]
  refine IsReal.rsqrt_of_pos (IsReal.coe _) ?_
  exact_mod_cast (by linarith : 0 < a + b)

end Cert.ERealBN

end
-- ==== Proof.Spec.lean ====
/-
  The loss, pixel by pixel, and its five sums.

  A pixel carries 21 logits `x`, a label `t` (a 32-bit word) and a class weight `w`.  Both programs shift the
  logits by their largest entry `M = max_c x_c` (folded from `-∞`), exponentiate, and sum: `S = ∑_c e^{x_c - M}`,
  `L = log S`.  The log-probability of class `c` is `x_c - M - L`.

  The kernel never gathers: it selects the labelled class by the one-hot mask `c = t`, so its log-probability of the
  label is `(∑_c [c = t] (x_c - M)) - L`, its cross entropy `(0 - w) · lp`, its focal term `(1 - e^{0 - ce})² · ce`
  written as a product, its probability of the label `e^{lp}` spread by the same mask, and its softmax
  `e^{x_c - M} · (1 / S)`.  The reference gathers the labelled class `k`: `ce = (-w) · (x_k - M - L)`, the focal
  term with the square as a power `(·)^2`, the softmax as `e^{x_c - M - L}`.  For finite logits and weight and a
  label `t = k < 21` these agree (Proof/PixelMath.lean).

  The kernel sums a tile of 128 rows lane by lane, then row by row, and adds the four tiles of an image in order into
  an accumulator that starts at zero; the host then sums over the 8 images.  The reference sums over all pixels at
  once.  Over the extended reals addition is commutative and associative, so the two agree (Proof/Sums.lean).

  Both programs end with the same arithmetic on the five sums (`results`): the two means over `2^21` pixels, and
  the dice loss `mean_c (1 - (2 I_c + ε) / (P_c + N_c + ε))` of the intersections `I`, the probability masses `P`
  and the label counts `N`.
-/
import Idealize.ShloMosaic.PureOps.Ideal
import Idealize.ShloMosaic.Lib.ValueIdx
import proofs.«419937_j16037407883832_3_alg».proof.Proof.LibERealBatchNorm

noncomputable section

open scoped BigOperators

namespace Cert.SegLoss

open Idealize.ShloMosaic Idealize.ShloMosaic.ValueIdx

/-! ## Shapes of the three inputs -/

abbrev SX : Shape := ⟨4, ![8, 21, 512, 512]⟩
abbrev SC : Shape := ⟨1, ![21]⟩
abbrev ST : Shape := ⟨3, ![8, 512, 512]⟩

/-! ## One pixel, as both programs compute it -/

/-- The largest of a pixel's 21 logits: the fold of `max` from `-∞`. -/
def chMax (x : Fin 21 → EReal) : EReal := (Finset.univ : Finset (Fin 21)).fold max ⊥ x

/-- The shifted logit of class `c`. -/
def sh (x : Fin 21 → EReal) (c : Fin 21) : EReal := x c - chMax x

/-- The sum of the exponentials of the shifted logits. -/
def se (x : Fin 21 → EReal) : EReal := ∑ c : Fin 21, Ideal.exp (sh x c)

/-- Its logarithm. -/
def lse (x : Fin 21 → EReal) : EReal := Ideal.log (se x)

/-- The log-probability of class `c`. -/
def logp (x : Fin 21 → EReal) (c : Fin 21) : EReal := sh x c - lse x

/-! ### The kernel's forms (label `t` a word, selected by a one-hot mask) -/

/-- The log-probability of the labelled class: the masked sum of the shifted logits, minus the log-sum-exp. -/
def lpK (x : Fin 21 → EReal) (t : BitVec 32) : EReal :=
  (∑ c : Fin 21, if BitVec.ofNat 32 c.val = t then sh x c else 0) - lse x

/-- The weighted cross entropy `(0 - w) · lp`. -/
def ceK (x : Fin 21 → EReal) (t : BitVec 32) (w : EReal) : EReal := (0 - w) * lpK x t

/-- The focal term `((1 - e^{0 - ce}) · (1 - e^{0 - ce})) · ce`. -/
def focK (x : Fin 21 → EReal) (t : BitVec 32) (w : EReal) : EReal :=
  ((1 - Ideal.exp (0 - ceK x t w)) * (1 - Ideal.exp (0 - ceK x t w))) * ceK x t w

/-- The probability of the labelled class, on that class's channel and zero on the others. -/
def ptK (x : Fin 21 → EReal) (t : BitVec 32) (c : Fin 21) : EReal :=
  if BitVec.ofNat 32 c.val = t then Ideal.exp (lpK x t) else 0

/-- The softmax as a product with the reciprocal of the sum. -/
def prK (x : Fin 21 → EReal) (c : Fin 21) : EReal := Ideal.exp (sh x c) * Ideal.div 1 (se x)

/-! ### The reference's forms (label `k` a class, gathered) -/

/-- The weighted cross entropy `(-w) · log p_k`. -/
def ceR (x : Fin 21 → EReal) (k : Fin 21) (w : EReal) : EReal := (-w) * logp x k

/-- The focal term `(1 - e^{-ce})^2 · ce`. -/
def focR (x : Fin 21 → EReal) (k : Fin 21) (w : EReal) : EReal :=
  Ideal.pow (1 - Ideal.exp (-(ceR x k w))) ((2 : ℝ) : EReal) * ceR x k w

/-- The softmax as the exponential of the log-probability. -/
def prR (x : Fin 21 → EReal) (c : Fin 21) : EReal := Ideal.exp (logp x c)

/-! ## Labels and classes -/

/-- The class a label word names (total: the residue mod 21; for a label below 21 it is the label). -/
def cls (t : BitVec 32) : Fin 21 := ⟨t.toNat % 21, Nat.mod_lt _ (by decide)⟩

theorem cls_val_of_lt {t : BitVec 32} (h : t.toNat < 21) : (cls t).val = t.toNat := Nat.mod_eq_of_lt h

/-- A label below 21 is the word of its class. -/
theorem ofNat_cls_of_lt {t : BitVec 32} (h : t.toNat < 21) : BitVec.ofNat 32 (cls t).val = t := by
  rw [cls_val_of_lt h]
  apply BitVec.eq_of_toNat_eq
  rw [BitVec.toNat_ofNat]
  exact Nat.mod_eq_of_lt t.isLt

/-! ## The image: pixels of the three inputs -/

/-- The 21 logits of pixel `(n, h, w)`. -/
def px (X : SX.Idx → EReal) (n : Fin 8) (h w : Fin 512) : Fin 21 → EReal := fun c => X (ix4 n c h w)

/-- Row `r` of tile `j` is image row `128 j + r`. -/
def row (j : Fin 4) (r : Fin 128) : Fin 512 := ⟨128 * j.val + r.val, by have := j.isLt; have := r.isLt; omega⟩

/-- A tile's sum as the kernel takes it: over the 512 lanes of a row, then over the tile's 128 rows. -/
def tileSum (f : Fin 512 → Fin 512 → EReal) (j : Fin 4) : EReal := ∑ r : Fin 128, ∑ w : Fin 512, f (row j r) w

/-- The four tiles of an image added in order into an accumulator that starts at zero. -/
def acc4 (T : Fin 4 → EReal) : EReal := (((0 + T 0) + T 1) + T 2) + T 3

/-- The kernel's sum of a per-pixel quantity over one image. -/
def imgSum (f : Fin 512 → Fin 512 → EReal) : EReal := acc4 (tileSum f)

/-- The 21 logits of the pixel a label index `i = (n, h, w)` names. -/
def pxAt (X : SX.Idx → EReal) (i : ST.Idx) : Fin 21 → EReal := fun c => X (ix4 (i 0) c (i 1) (i 2))

/-- The kernel's sum of a per-pixel quantity over the whole batch: image by image, each image tile by tile. -/
def pixSumK (g : ST.Idx → EReal) : EReal := ∑ n : Fin 8, imgSum (fun h w => g (ix3 n h w))

/-! ## What both programs do with the five sums -/

/-- An f32 literal read as an extended real. -/
abbrev lit (b : BitVec 32) : EReal := Ideal.ofBits .f32 b

/-- A sum from zero, divided by the number of pixels `2^21`. -/
def meanPix (s : EReal) : EReal := Ideal.div (lit 0x00000000#32 + s) (lit 0x4A000000#32)

/-- One class's dice term `1 - (2 I + ε) / ((P + N) + ε)`. -/
def dice (I P N : Fin 21 → EReal) (c : Fin 21) : EReal :=
  lit 0x3F800000#32 - Ideal.div (lit 0x40000000#32 * I c + lit 0x358637BD#32) ((P c + N c) + lit 0x358637BD#32)

/-- The dice loss: the mean of the 21 dice terms. -/
def diceLoss (I P N : Fin 21 → EReal) : EReal :=
  Ideal.div (lit 0x00000000#32 + ∑ c : Fin 21, dice I P N c) (lit 0x41A80000#32)

/-- The three results: total loss `focal + ½ dice`, mean cross entropy, dice loss. -/
def results (ceS focS : EReal) (I P N : Fin 21 → EReal) : EReal × EReal × EReal :=
  (meanPix focS + lit 0x3F000000#32 * diceLoss I P N, meanPix ceS, diceLoss I P N)

end Cert.SegLoss

end
-- ==== Proof.KernelTile.lean ====
/-
  One tile of the kernel, read at the extended reals.

  A tile holds 128 rows of 512 lanes: 21 logits, a label word and a class weight per pixel.  Per pixel the body
  shifts the logits by their largest entry, exponentiates and sums; it selects the labelled class by the one-hot
  mask "the channel's word is the label"; and it forms the weighted cross entropy, the focal term, the probability
  of the label spread by the mask, and the softmax as a product with the reciprocal of the sum — the forms
  `ceK`, `focK`, `ptK`, `prK` of the specification.  Each of the four is then summed over the lanes of a row,
  over the rows of the tile, and added to the accumulator it found.  The zero blocks the first tile stores are zero.
-/
import proofs.«419937_j16037407883832_3_alg».proof.Proof.Gen.KernelIdeal.Skeleton
import proofs.«419937_j16037407883832_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Cert.SegLoss Idealize.ShloMosaic Idealize.ShloMosaic.ValueIdx

/-- The 21 logits of the tile's pixel in row `r`, lane `w`. -/
def bx (x0 : Vec Ideal S1x21x128x512 .f32) (r : Fin 128) (w : Fin 512) : Fin 21 → EReal := fun c => x0 (ix4 0 c r w)

/-! ## Layout operations of the tile's shapes read at an index -/

section Layout
variable {α : Type}

/-- A shape cast that adds a trailing unit axis reads the operand at the other coordinates. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- A per-pixel block spread over the 21 channels reads the pixel's entry on every channel. -/
theorem broadcastTo_px_apply (v : S1x1x128x512.Idx → α) (h : S1x1x128x512.Broadcasts S1x21x128x512)
    (c : Fin 21) (r : Fin 128) (w : Fin 512) :
    broadcastTo S1x21x128x512 v h (ix4 0 c r w) = v (ix4 0 0 r w) :=
  broadcastTo_apply v h _ _ fun ax => by
    match ax with
    | ⟨0, _⟩ => rfl
    | ⟨1, _⟩ => rfl
    | ⟨2, _⟩ => rfl
    | ⟨3, _⟩ => rfl

/-- A per-channel column spread over the tile reads the channel's entry at every pixel. -/
theorem broadcastTo_ch_apply (v : S1x21x1x1.Idx → α) (h : S1x21x1x1.Broadcasts S1x21x128x512)
    (c : Fin 21) (r : Fin 128) (w : Fin 512) :
    broadcastTo S1x21x128x512 v h (ix4 0 c r w) = v (ix4 0 c 0 0) :=
  broadcastTo_apply v h _ _ fun ax => by
    match ax with
    | ⟨0, _⟩ => rfl
    | ⟨1, _⟩ => rfl
    | ⟨2, _⟩ => rfl
    | ⟨3, _⟩ => rfl

end Layout

/-! ## The reductions of the tile's shapes read at an index -/

/-- The channel axis put back into a pixel's index. -/
theorem lift_ch (h : S1x21x128x512.Reduces [1] S1x128x512) (r : Fin 128) (w : Fin 512) (c : Fin 21) :
    h.lift (ix3 0 r w) c = ix4 0 c r w := by
  funext a
  match a with
  | ⟨0, _⟩ => exact Fin.ext rfl
  | ⟨1, _⟩ => exact Fin.ext rfl
  | ⟨2, _⟩ => exact Fin.ext rfl
  | ⟨3, _⟩ => exact Fin.ext rfl

/-- The sum over the channels at a pixel. -/
theorem sum_ch (src : FVec Ideal S1x21x128x512 .f32) (h : S1x21x128x512.Reduces [1] S1x128x512) (hφ : FKind.Formats .f32)
    (hacc : (0x00000000#32 : BitVec 32) = FKind.add.neutral .f32 hφ) (r : Fin 128) (w : Fin 512) :
    multiReduction .add [1] S1x128x512 src 0x00000000#32 h hφ hacc (ix3 0 r w) = ∑ c : Fin 21, src (ix4 0 c r w) :=
  (Ideal.multiReduction_add_single src _ h hφ hacc (ix3 0 r w)).trans
    (Finset.sum_congr rfl fun c _ => congrArg src (lift_ch h r w c))

/-- The largest entry over the channels at a pixel, folded from `-∞`. -/
theorem max_ch (src : FVec Ideal S1x21x128x512 .f32) (h : S1x21x128x512.Reduces [1] S1x128x512) (hφ : FKind.Formats .f32)
    (hacc : (0xFF800000#32 : BitVec 32) = FKind.maximumf.neutral .f32 hφ) (r : Fin 128) (w : Fin 512) :
    multiReduction .maximumf [1] S1x128x512 src 0xFF800000#32 h hφ hacc (ix3 0 r w)
      = chMax fun c => src (ix4 0 c r w) := by
  refine (Ideal.multiReduction_maximumf_single src _ h hφ hacc (ix3 0 r w)).trans ?_
  have e : (src ∘ h.lift (ix3 0 r w)) = fun c : Fin 21 => src (ix4 0 c r w) :=
    funext fun c => congrArg src (lift_ch h r w c)
  have hb : FloatOps.ofBits (F := Ideal) .f32 0xFF800000#32 = (⊥ : EReal) := by
    show Ideal.ofBits .f32 0xFF800000#32 = ⊥
    simp [Ideal.ofBits, Ideal.ieee]
  unfold chMax
  rw [e, hb]
  rfl

/-- The lane axis put back into a row's index. -/
theorem lift_lane {n : ℕ} (h : (⟨4, ![1, n, 128, 512]⟩ : Shape).Reduces [3] ⟨3, ![1, n, 128]⟩) (c : Fin n) (r : Fin 128)
    (w : Fin 512) : h.lift (ix3 0 c r) w = ix4 0 c r w := by
  funext a
  match a with
  | ⟨0, _⟩ => exact Fin.ext rfl
  | ⟨1, _⟩ => exact Fin.ext rfl
  | ⟨2, _⟩ => exact Fin.ext rfl
  | ⟨3, _⟩ => exact Fin.ext rfl

/-- The sum over the 512 lanes of a row. -/
theorem sum_lane {n : ℕ} (src : FVec Ideal ⟨4, ![1, n, 128, 512]⟩ .f32)
    (h : (⟨4, ![1, n, 128, 512]⟩ : Shape).Reduces [3] ⟨3, ![1, n, 128]⟩) (hφ : FKind.Formats .f32)
    (hacc : (0x00000000#32 : BitVec 32) = FKind.add.neutral .f32 hφ) (c : Fin n) (r : Fin 128) :
    multiReduction .add [3] ⟨3, ![1, n, 128]⟩ src 0x00000000#32 h hφ hacc (ix3 0 c r) = ∑ w : Fin 512, src (ix4 0 c r w) :=
  (Ideal.multiReduction_add_single src _ h hφ hacc (ix3 0 c r)).trans
    (Finset.sum_congr rfl fun w _ => congrArg src (lift_lane h c r w))

/-- The row axis put back into a channel's index. -/
theorem lift_row {n : ℕ} (h : (⟨4, ![1, n, 128, 1]⟩ : Shape).Reduces [2] ⟨3, ![1, n, 1]⟩) (c : Fin n) (r : Fin 128) :
    h.lift (ix3 0 c 0) r = ix4 0 c r 0 := by
  funext a
  match a with
  | ⟨0, _⟩ => exact Fin.ext rfl
  | ⟨1, _⟩ => exact Fin.ext rfl
  | ⟨2, _⟩ => exact Fin.ext rfl
  | ⟨3, _⟩ => exact Fin.ext rfl

/-- The sum over the 128 rows of a tile. -/
theorem sum_row {n : ℕ} (src : FVec Ideal ⟨4, ![1, n, 128, 1]⟩ .f32)
    (h : (⟨4, ![1, n, 128, 1]⟩ : Shape).Reduces [2] ⟨3, ![1, n, 1]⟩) (hφ : FKind.Formats .f32)
    (hacc : (0x00000000#32 : BitVec 32) = FKind.add.neutral .f32 hφ) (c : Fin n) :
    multiReduction .add [2] ⟨3, ![1, n, 1]⟩ src 0x00000000#32 h hφ hacc (ix3 0 c 0) = ∑ r : Fin 128, src (ix4 0 c r 0) :=
  (Ideal.multiReduction_add_single src _ h hφ hacc (ix3 0 c 0)).trans
    (Finset.sum_congr rfl fun r _ => congrArg src (lift_row h c r))

/-- The two adjacent sums of a tile: over the 512 lanes, kept as a unit axis, then over the 128 rows. -/
theorem tile_sum {n : ℕ} (v : FVec Ideal ⟨4, ![1, n, 128, 512]⟩ .f32)
    (h1 : (⟨4, ![1, n, 128, 512]⟩ : Shape).Reduces [3] ⟨3, ![1, n, 128]⟩) (hφ1 : FKind.Formats .f32)
    (hacc1 : (0x00000000#32 : BitVec 32) = FKind.add.neutral .f32 hφ1)
    (c1 : (⟨3, ![1, n, 128]⟩ : Shape).ShapeCasts ⟨4, ![1, n, 128, 1]⟩)
    (h2 : (⟨4, ![1, n, 128, 1]⟩ : Shape).Reduces [2] ⟨3, ![1, n, 1]⟩) (hφ2 : FKind.Formats .f32)
    (hacc2 : (0x00000000#32 : BitVec 32) = FKind.add.neutral .f32 hφ2)
    (c2 : (⟨3, ![1, n, 1]⟩ : Shape).ShapeCasts ⟨4, ![1, n, 1, 1]⟩) (c : Fin n) :
    shapeCast ⟨4, ![1, n, 1, 1]⟩
        (multiReduction .add [2] ⟨3, ![1, n, 1]⟩
          (shapeCast ⟨4, ![1, n, 128, 1]⟩ (multiReduction .add [3] ⟨3, ![1, n, 128]⟩ v 0x00000000#32 h1 hφ1 hacc1) c1)
          0x00000000#32 h2 hφ2 hacc2) c2 (ix4 0 c 0 0)
      = ∑ r : Fin 128, ∑ w : Fin 512, v (ix4 0 c r w) := by
  refine (shapeCast_abc_abc1_apply _ _ 0 c 0 0).trans ?_
  refine (sum_row _ _ _ _ c).trans ?_
  refine Finset.sum_congr rfl fun r _ => ?_
  refine (shapeCast_abc_abc1_apply _ _ 0 c r 0).trans ?_
  exact sum_lane _ _ _ _ c r

/-! ## The literals and the one-hot mask -/

theorem lit_zero : Ideal.ofBits .f32 0x00000000#32 = 0 := Cert.ERealBN.ofBits_zero

theorem lit_one : Ideal.ofBits .f32 0x3F800000#32 = 1 := Cert.ERealBN.ofBits_one.trans EReal.coe_one

/-- The comparison bit "equal" is set exactly at equal words. -/
theorem cmpi_eq_one_iff (a b : BitVec 32) : IntOp.cmpi .eq a b = 1#1 ↔ a = b := by
  show BitVec.ofBool (a == b) = 1#1 ↔ a = b
  by_cases h : a = b
  · subst h; simp
  · have hb : (a == b) = false := by simpa using h
    rw [hb]; simp [h]

/-- A select on the bit "the channel's word is the label", against the zero literal, is the `if`. -/
theorem select_onehot (c : Fin 21) (t : BitVec 32) (a : EReal) :
    Scalar.select (IntOp.cmpi .eq (BitVec.ofNat 32 c.val) t) a (Ideal.ofBits .f32 0x00000000#32)
      = if BitVec.ofNat 32 c.val = t then a else 0 := by
  unfold Scalar.select
  rw [lit_zero]
  by_cases h : BitVec.ofNat 32 c.val = t
  · rw [if_pos h]
    exact if_pos ((cmpi_eq_one_iff _ _).mpr h)
  · rw [if_neg h]
    exact if_neg fun h' => h ((cmpi_eq_one_iff _ _).mp h')

/-! ## The per-pixel values of the kernel's body -/

section Pixel
variable (x0 : Vec Ideal S1x21x128x512 .f32) (x1 : Vec Ideal S1x1x128x512 .i32) (x2 : Vec Ideal S1x1x128x512 .f32)

/-- The logits shifted by their largest entry. -/
theorem pay8_apply (c : Fin 21) (r : Fin 128) (w : Fin 512) :
    k0_pay8 (F := Ideal) x0 (ix4 0 c r w) = sh (bx x0 r w) c := by
  unfold k0_pay8
  dsimp only
  refine (subf_apply _ _ _).trans ?_
  unfold sh
  refine congrArg (fun t => x0 (ix4 0 c r w) - t) ?_
  refine (broadcastTo_px_apply _ _ c r w).trans ?_
  refine (shapeCast_abc_1abc_apply _ _ 0 0 r w).trans ?_
  exact max_ch x0 _ _ _ r w

/-- Their exponentials. -/
theorem pay9_apply (c : Fin 21) (r : Fin 128) (w : Fin 512) :
    k0_pay9 (F := Ideal) x0 (ix4 0 c r w) = Ideal.exp (sh (bx x0 r w) c) := by
  show Ideal.exp (k0_pay8 (F := Ideal) x0 (ix4 0 c r w)) = _
  rw [pay8_apply]

/-- The sum of the exponentials. -/
theorem pay10_apply (r : Fin 128) (w : Fin 512) :
    k0_pay10 (F := Ideal) x0 (ix4 0 0 r w) = se (bx x0 r w) := by
  unfold k0_pay10
  dsimp only
  refine (shapeCast_abc_1abc_apply _ _ 0 0 r w).trans ?_
  refine (sum_ch _ _ _ _ r w).trans ?_
  unfold se
  exact Finset.sum_congr rfl fun c _ => pay9_apply x0 c r w

/-- The softmax as the product with the reciprocal of the sum. -/
theorem pay11_apply (c : Fin 21) (r : Fin 128) (w : Fin 512) :
    k0_pay11 (F := Ideal) x0 (ix4 0 c r w) = prK (bx x0 r w) c := by
  unfold k0_pay11
  refine (mulf_apply _ _ _).trans ?_
  unfold prK
  refine congrArg₂ (fun a b : EReal => a * b) (pay9_apply x0 c r w) ?_
  refine (broadcastTo_px_apply _ _ c r w).trans ?_
  show Ideal.div (Ideal.ofBits .f32 0x3F800000#32) (k0_pay10 (F := Ideal) x0 (ix4 0 0 r w)) = _
  rw [pay10_apply, lit_one]

/-- The one-hot mask: the bit "the channel's word is the label". -/
theorem pay12_apply (c : Fin 21) (r : Fin 128) (w : Fin 512) :
    k0_pay12 (F := Ideal) x1 (ix4 0 c r w) = IntOp.cmpi .eq (BitVec.ofNat 32 c.val) (x1 (ix4 0 0 r w)) := by
  unfold k0_pay12
  dsimp only
  refine congrArg₂ (fun a b : BitVec 32 => IntOp.cmpi .eq a b) ?_ ?_
  · refine (broadcastTo_ch_apply _ _ c r w).trans ?_
    exact iota_single_apply .tc S1x21x1x1 32 1 _ (ix4 0 c 0 0)
  · refine (broadcastTo_px_apply _ _ c r w).trans ?_
    exact congrFun (shapeCast_self x1 _) _

/-- The log-probability of the labelled class. -/
theorem pay13_apply (r : Fin 128) (w : Fin 512) :
    k0_pay13 (F := Ideal) x0 x1 (ix4 0 0 r w) = lpK (bx x0 r w) (x1 (ix4 0 0 r w)) := by
  unfold k0_pay13
  dsimp only
  refine (subf_apply _ _ _).trans ?_
  unfold lpK lse
  refine congrArg₂ (fun a b : EReal => a - b) ?_ ?_
  · refine (shapeCast_abc_1abc_apply _ _ 0 0 r w).trans ?_
    refine (sum_ch _ _ _ _ r w).trans ?_
    refine Finset.sum_congr rfl fun c _ => ?_
    refine (select_apply _ _ _ _).trans ?_
    rw [pay12_apply, pay8_apply]
    exact select_onehot c _ _
  · show Ideal.log (k0_pay10 (F := Ideal) x0 (ix4 0 0 r w)) = _
    rw [pay10_apply]

/-- The weighted cross entropy. -/
theorem pay14_apply (r : Fin 128) (w : Fin 512) :
    k0_pay14 (F := Ideal) x0 x1 x2 (ix4 0 0 r w) = ceK (bx x0 r w) (x1 (ix4 0 0 r w)) (x2 (ix4 0 0 r w)) := by
  unfold k0_pay14
  refine (mulf_apply _ _ _).trans ?_
  unfold ceK
  refine congrArg₂ (fun a b : EReal => a * b) ?_ (pay13_apply x0 x1 r w)
  show Ideal.ofBits .f32 0x00000000#32 - shapeCast S1x1x128x512 x2 _ (ix4 0 0 r w) = _
  rw [shapeCast_self, lit_zero]

/-- Its negation, as the difference from zero. -/
theorem pay15_apply (r : Fin 128) (w : Fin 512) :
    k0_pay15 (F := Ideal) x0 x1 x2 (ix4 0 0 r w) = 0 - ceK (bx x0 r w) (x1 (ix4 0 0 r w)) (x2 (ix4 0 0 r w)) := by
  unfold k0_pay15
  show Ideal.ofBits .f32 0x00000000#32 - k0_pay14 (F := Ideal) x0 x1 x2 (ix4 0 0 r w) = _
  rw [pay14_apply, lit_zero]

end Pixel

/-! ## The four accumulators after a tile, and the zero blocks -/

theorem ce_tile (x0 : Vec Ideal S1x21x128x512 .f32) (x1 : Vec Ideal S1x1x128x512 .i32) (x2 : Vec Ideal S1x1x128x512 .f32)
    (prev : Vec Ideal S1x1x1x1 .f32) :
    k0_pay18 (F := Ideal) (k0_pay14 x0 x1 x2) prev (ix4 0 0 0 0)
      = prev (ix4 0 0 0 0) + ∑ r : Fin 128, ∑ w : Fin 512, ceK (bx x0 r w) (x1 (ix4 0 0 r w)) (x2 (ix4 0 0 r w)) := by
  unfold k0_pay18
  dsimp only
  refine (congrFun (shapeCast_self _ _) _).trans ?_
  refine (addf_apply _ _ _).trans ?_
  refine congrArg (fun t => prev (ix4 0 0 0 0) + t) ?_
  refine (tile_sum (n := 1) _ _ _ _ _ _ _ _ _ 0).trans ?_
  exact Finset.sum_congr rfl fun r _ => Finset.sum_congr rfl fun w _ => pay14_apply x0 x1 x2 r w

theorem foc_tile (x0 : Vec Ideal S1x21x128x512 .f32) (x1 : Vec Ideal S1x1x128x512 .i32) (x2 : Vec Ideal S1x1x128x512 .f32)
    (prev : Vec Ideal S1x1x1x1 .f32) :
    k0_pay1 (F := Ideal) (k0_pay19 (k0_pay14 x0 x1 x2) (k0_pay15 x0 x1 x2) prev) (ix4 0 0 0 0)
      = prev (ix4 0 0 0 0) + ∑ r : Fin 128, ∑ w : Fin 512, focK (bx x0 r w) (x1 (ix4 0 0 r w)) (x2 (ix4 0 0 r w)) := by
  unfold k0_pay1 k0_pay19
  dsimp only
  refine (congrFun (shapeCast_self _ _) _).trans ?_
  refine (addf_apply _ _ _).trans ?_
  refine congrArg (fun t => prev (ix4 0 0 0 0) + t) ?_
  refine (tile_sum (n := 1) _ _ _ _ _ _ _ _ _ 0).trans ?_
  refine Finset.sum_congr rfl fun r _ => Finset.sum_congr rfl fun w _ => ?_
  show ((Ideal.ofBits .f32 0x3F800000#32 - Ideal.exp (k0_pay15 (F := Ideal) x0 x1 x2 (ix4 0 0 r w)))
        * (Ideal.ofBits .f32 0x3F800000#32 - Ideal.exp (k0_pay15 (F := Ideal) x0 x1 x2 (ix4 0 0 r w))))
        * k0_pay14 (F := Ideal) x0 x1 x2 (ix4 0 0 r w) = _
  unfold focK
  rw [pay15_apply, pay14_apply, lit_one]

theorem int_tile (x0 : Vec Ideal S1x21x128x512 .f32) (x1 : Vec Ideal S1x1x128x512 .i32)
    (prev : Vec Ideal S1x21x1x1 .f32) (c : Fin 21) :
    k0_pay2 (F := Ideal) (k0_pay16 (k0_pay12 (F := Ideal) x1) (k0_pay13 x0 x1)) prev (ix4 0 c 0 0)
      = prev (ix4 0 c 0 0) + ∑ r : Fin 128, ∑ w : Fin 512, ptK (bx x0 r w) (x1 (ix4 0 0 r w)) c := by
  unfold k0_pay2 k0_pay16
  dsimp only
  refine (congrFun (shapeCast_self _ _) _).trans ?_
  refine (addf_apply _ _ _).trans ?_
  refine congrArg (fun t => prev (ix4 0 c 0 0) + t) ?_
  refine (tile_sum (n := 21) _ _ _ _ _ _ _ _ _ c).trans ?_
  refine Finset.sum_congr rfl fun r _ => Finset.sum_congr rfl fun w _ => ?_
  refine (select_apply _ _ _ _).trans ?_
  unfold ptK
  refine (congrArg₂ (fun (b : BitVec 1) (a : EReal) => Scalar.select b a (Ideal.ofBits .f32 0x00000000#32))
    (pay12_apply x1 c r w) ?_).trans (select_onehot c _ _)
  refine (broadcastTo_px_apply _ _ c r w).trans ?_
  refine (congrFun (shapeCast_self _ _) _).trans ?_
  show Ideal.exp (k0_pay13 (F := Ideal) x0 x1 (ix4 0 0 r w)) = _
  rw [pay13_apply]

theorem prob_tile (x0 : Vec Ideal S1x21x128x512 .f32) (prev : Vec Ideal S1x21x1x1 .f32) (c : Fin 21) :
    k0_pay3 (F := Ideal) (k0_pay17 (k0_pay11 x0)) prev (ix4 0 c 0 0)
      = prev (ix4 0 c 0 0) + ∑ r : Fin 128, ∑ w : Fin 512, prK (bx x0 r w) c := by
  unfold k0_pay3 k0_pay17
  dsimp only
  refine (congrFun (shapeCast_self _ _) _).trans ?_
  refine (addf_apply _ _ _).trans ?_
  refine congrArg (fun t => prev (ix4 0 c 0 0) + t) ?_
  refine (tile_sum (n := 21) _ _ _ _ _ _ _ _ _ c).trans ?_
  exact Finset.sum_congr rfl fun r _ => Finset.sum_congr rfl fun w _ => pay11_apply x0 c r w

theorem zero4 (i : S1x1x1x1.Idx) : k0_pay4 (F := Ideal) i = 0 := by
  unfold k0_pay4
  exact (congrFun (shapeCast_self _ _) _).trans lit_zero

theorem zero5 (i : S1x1x1x1.Idx) : k0_pay5 (F := Ideal) i = 0 := by
  unfold k0_pay5
  exact (congrFun (shapeCast_self _ _) _).trans lit_zero

theorem zero6 (i : S1x21x1x1.Idx) : k0_pay6 (F := Ideal) i = 0 := by
  unfold k0_pay6
  exact (congrFun (shapeCast_self _ _) _).trans lit_zero

theorem zero7 (i : S1x21x1x1.Idx) : k0_pay7 (F := Ideal) i = 0 := by
  unfold k0_pay7
  exact (congrFun (shapeCast_self _ _) _).trans lit_zero

end Cert.KernelIdeal.Tile

end
-- ==== Proof.KernelHost.lean ====
/-
  What the kernel's launch finds in its arrays.

  Before the launch the program reshapes the labels to [8,1,512,512], gathers each pixel's class weight (the table
  read at the label, a negative label first shifted by 21) and reshapes it likewise, and counts the labels per class
  by an integer scatter-add of ones, converted to f32.  At grid point (n, j) — point number 4 n + j — the three input
  windows hold rows 128 j … 128 j + 127 of image n: the 21 logit planes, the labels, and the class weights of the
  labels.
-/
import proofs.«419937_j16037407883832_3_alg».proof.Proof.Gen.KernelIdeal.Frame
import proofs.«419937_j16037407883832_3_alg».proof.Proof.Spec
import Idealize.ShloMosaic.Lib.ValueIdx
import Idealize.ShloMosaic.Lib.Pipeline.Value
import Idealize.ShloMosaic.Lib.StableHlo.Run
import Idealize.ShloMosaic.Lib.StableHlo.Predicate

noncomputable section

namespace Cert.KernelIdeal.HostValue

open Cert.KernelIdeal Cert.KernelIdeal.Gen Cert.SegLoss Idealize.ShloMosaic Idealize.ShloMosaic.TcCoe
  Idealize.ShloMosaic.ValueIdx Idealize.SL.Sem

variable (m : (ℓ : Loc nD τ sig) → Buf (Elt Ideal) ℓ) (c : Dev nD)

/-- The logits as launched. -/
abbrev Xin : SX.Idx → EReal := m ((c : Thread nD τ).loc main_arg0)
/-- The class weights as launched. -/
abbrev CWin : SC.Idx → EReal := m ((c : Thread nD τ).loc main_arg1)
/-- The labels as launched. -/
abbrev TGin : ST.Idx → BitVec 32 := m ((c : Thread nD τ).loc main_arg2)

/-- Grid point (n, j) is point number 4 n + j. -/
def pt (n : Fin 8) (j : Fin 4) : Fin cfg0.N :=
  ⟨4 * n.val + j.val, by have := n.isLt; have := j.isLt; rw [show cfg0.N = 32 from N_0]; omega⟩

/-- The three input windows' block indices at point (n, j): (n, 0, j, 0). -/
theorem index_pt : ∀ (n : Fin 8) (j : Fin 4),
    (win0_0.index (pt n j) 0 = n.val ∧ win0_0.index (pt n j) 1 = 0 ∧ win0_0.index (pt n j) 2 = j.val ∧ win0_0.index (pt n j) 3 = 0)
    ∧ (win0_1.index (pt n j) 0 = n.val ∧ win0_1.index (pt n j) 1 = 0 ∧ win0_1.index (pt n j) 2 = j.val ∧ win0_1.index (pt n j) 3 = 0)
    ∧ (win0_2.index (pt n j) 0 = n.val ∧ win0_2.index (pt n j) 1 = 0 ∧ win0_2.index (pt n j) 2 = j.val ∧ win0_2.index (pt n j) 3 = 0) := by
  decide +kernel

theorem iblk0_apply (n : Fin 8) (j : Fin 4) (k : Fin 21) (r : Fin 128) (w : Fin 512) :
    (iblk m c 0 (pt n j) : Vec Ideal S1x21x128x512 .f32) (ix4 0 k r w) = Xin m c (ix4 n k (row j r) w) := by
  have hi := (index_pt n j).1
  unfold iblk
  rw [View.read_apply]
  show V m c main_arg0 _ = m (c.tc.loc main_arg0) _
  rw [V_main_arg0]
  refine congrArg (m (c.tc.loc main_arg0)) ?_
  funext a
  apply Fin.ext
  match a with
  | ⟨0, _⟩ => show win0_0.index (pt n j) 0 * 1 + 1 * 0 = n.val; rw [hi.1]; omega
  | ⟨1, _⟩ => show win0_0.index (pt n j) 1 * 21 + 1 * k.val = k.val; rw [hi.2.1]; omega
  | ⟨2, _⟩ => show win0_0.index (pt n j) 2 * 128 + 1 * r.val = 128 * j.val + r.val; rw [hi.2.2.1]; omega
  | ⟨3, _⟩ => show win0_0.index (pt n j) 3 * 512 + 1 * w.val = w.val; rw [hi.2.2.2]; omega

/-- The reshape [8,512,512] → [8,1,512,512] read at an index: the unit axis sits between the image and the row. -/
theorem reshape_mid_apply {α : Type} (x : S8x512x512.Idx → α) (h : S8x512x512.ShapeCasts S8x1x512x512)
    (n : Fin 8) (u : Fin 1) (hh ww : Fin 512) :
    shapeCast S8x1x512x512 x h (ix4 n u hh ww) = x (ix3 n hh ww) := by
  refine shapeCast_apply x h _ _ ?_
  rw [Shape.rowMajor_val_three, Shape.rowMajor_val_four]
  have := u.isLt
  show (n.val * 512 + hh.val) * 512 + ww.val = ((n.val * 1 + u.val) * 512 + hh.val) * 512 + ww.val
  omega

/-- The labels' window reads the reshaped labels. -/
theorem V_v0 : (V m c main_v0 : S8x1x512x512.Idx → BitVec 32)
    = shapeCast S8x1x512x512 (TGin m c) shapeCasts_S8x512x512_S8x1x512x512 := by
  dsimp only [Gen.V, Gen.V0]
  simp only [Gen.hostOps0, List.flatten_cons, List.flatten_nil, List.append_nil]
  after_results
  rfl

theorem iblk1_apply (n : Fin 8) (j : Fin 4) (r : Fin 128) (w : Fin 512) :
    (iblk m c 1 (pt n j) : Vec Ideal S1x1x128x512 .i32) (ix4 0 0 r w) = TGin m c (ix3 n (row j r) w) := by
  have hi := (index_pt n j).2.1
  unfold iblk
  rw [View.read_apply]
  show (V m c main_v0 : S8x1x512x512.Idx → BitVec 32) _ = _
  rw [V_v0]
  refine Eq.trans (congrArg (shapeCast S8x1x512x512 (TGin m c) shapeCasts_S8x512x512_S8x1x512x512) ?_)
    (reshape_mid_apply (TGin m c) _ n 0 (row j r) w)
  funext a
  apply Fin.ext
  match a with
  | ⟨0, _⟩ => show win0_1.index (pt n j) 0 * 1 + 1 * 0 = n.val; rw [hi.1]; omega
  | ⟨1, _⟩ => show win0_1.index (pt n j) 1 * 1 + 1 * 0 = 0; rw [hi.2.1]
  | ⟨2, _⟩ => show win0_1.index (pt n j) 2 * 128 + 1 * r.val = 128 * j.val + r.val; rw [hi.2.2.1]; omega
  | ⟨3, _⟩ => show win0_1.index (pt n j) 3 * 512 + 1 * w.val = w.val; rw [hi.2.2.2]; omega

/-- The gather's start indices: the label, a negative one shifted by 21, as an [8,512,512,1] column. -/
def startIdx (T : S8x512x512.Idx → BitVec 32) : S8x512x512x1.Idx → BitVec 32 :=
  broadcastInDim S8x512x512x1 ![0, 1, 2] bcast_S8x512x512_S8x512x512x1_0_1_2
    (select (cmpi .slt T (broadcastInDim S8x512x512 ![] bcast_S_S8x512x512 (constantI S_ 32 0#32)))
      (addi T (broadcastInDim S8x512x512 ![] bcast_S_S8x512x512 (constantI S_ 32 21#32))) T)

/-- The class weights' window reads the gathered weights, reshaped. -/
theorem V_v8 : (V m c main_v8 : S8x1x512x512.Idx → EReal)
    = shapeCast S8x1x512x512
        (Host.gather gather_S21_S8x512x512x1_S8x512x512_n_0_n_n_0_3_1 (CWin m c) (startIdx (TGin m c)))
        shapeCasts_S8x512x512_S8x1x512x512 := by
  unfold startIdx
  dsimp only [Gen.V, Gen.V0]
  simp only [Gen.hostOps0, List.flatten_cons, List.flatten_nil, List.append_nil]
  after_results
  rfl

/-- The start index of pixel (n, h, w) is its label when that is below 21. -/
theorem startIdx_apply (T : S8x512x512.Idx → BitVec 32) (n : Fin 8) (hh ww : Fin 512) (u : Fin 1)
    (ht : (T (ix3 n hh ww)).toNat < 21) : startIdx T (ix4 n hh ww u) = T (ix3 n hh ww) := by
  unfold startIdx
  refine (broadcastInDim_apply _ _ _ (ix4 n hh ww u) (ix3 n hh ww) ?_).trans ?_
  · intro a
    match a with
    | ⟨0, _⟩ => rfl
    | ⟨1, _⟩ => rfl
    | ⟨2, _⟩ => rfl
  · rw [select_apply]
    have h0 : cmpi .slt T (broadcastInDim S8x512x512 ![] bcast_S_S8x512x512 (constantI S_ 32 0#32)) (ix3 n hh ww) = 0#1 := by
      show IntOp.cmpi .slt (T (ix3 n hh ww)) 0#32 = 0#1
      generalize T (ix3 n hh ww) = t at ht
      have hti : t.toInt = t.toNat := StableHlo.Predicate.toInt_eq_toNat_of_lt (by omega)
      have h0' : (0#32 : BitVec 32).toInt = 0 := by decide
      unfold IntOp.cmpi
      simp only [BitVec.slt, hti, h0']
      rw [decide_eq_false (by omega : ¬ ((t.toNat : Int) < 0))]
      rfl
    rw [h0, select_zero]

/-- The gather read at a pixel: the table at the pixel's start index, read signed and clamped into [0, 20]. -/
theorem gather_apply (x : S21.Idx → EReal) (idx : S8x512x512x1.Idx → BitVec 32) (n : Fin 8) (hh ww : Fin 512) :
    Host.gather gather_S21_S8x512x512x1_S8x512x512_n_0_n_n_0_3_1 x idx (ix3 n hh ww)
      = x (ix1 ⟨min (idx (ix4 n hh ww 0)).toInt.toNat 20, by omega⟩) := by
  unfold Host.gather
  refine congrArg x ?_
  funext a
  obtain rfl : a = 0 := Subsingleton.elim _ _
  refine Fin.ext ?_
  show gather_S21_S8x512x512x1_S8x512x512_n_0_n_n_0_3_1.start (ix3 n hh ww) idx 0
      + gather_S21_S8x512x512x1_S8x512x512_n_0_n_n_0_3_1.batchCoord (ix3 n hh ww) 0
      + gather_S21_S8x512x512x1_S8x512x512_n_0_n_n_0_3_1.offCoord (ix3 n hh ww) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S21_S8x512x512x1_S8x512x512_n_0_n_n_0_3_1.startIndexMap from List.mem_singleton.mpr rfl)]
  have hsi : gather_S21_S8x512x512x1_S8x512x512_n_0_n_n_0_3_1.siIdx (ix3 n hh ww)
      ⟨List.idxOf (0 : Fin 1) gather_S21_S8x512x512x1_S8x512x512_n_0_n_n_0_3_1.startIndexMap,
        List.idxOf_lt_length_iff.2 (List.mem_singleton.mpr rfl)⟩ = ix4 n hh ww 0 := by
    funext b; refine Fin.ext ?_
    match b with
    | ⟨0, _⟩ => rfl
    | ⟨1, _⟩ => rfl
    | ⟨2, _⟩ => rfl
    | ⟨3, _⟩ => rfl
  rw [hsi]
  rfl

theorem iblk2_apply (hT : ∀ i, (TGin m c i).toNat < 21) (n : Fin 8) (j : Fin 4) (r : Fin 128) (w : Fin 512) :
    (iblk m c 2 (pt n j) : Vec Ideal S1x1x128x512 .f32) (ix4 0 0 r w)
      = CWin m c (ix1 (cls (TGin m c (ix3 n (row j r) w)))) := by
  have hi := (index_pt n j).2.2
  have ht := hT (ix3 n (row j r) w)
  unfold iblk
  rw [View.read_apply]
  show (V m c main_v8 : S8x1x512x512.Idx → EReal) _ = _
  rw [V_v8]
  refine Eq.trans (congrArg (shapeCast S8x1x512x512
      (Host.gather gather_S21_S8x512x512x1_S8x512x512_n_0_n_n_0_3_1 (CWin m c) (startIdx (TGin m c)))
      shapeCasts_S8x512x512_S8x1x512x512) (?_ : _ = ix4 n 0 (row j r) w)) ?_
  · funext a
    apply Fin.ext
    match a with
    | ⟨0, _⟩ => show win0_2.index (pt n j) 0 * 1 + 1 * 0 = n.val; rw [hi.1]; omega
    | ⟨1, _⟩ => show win0_2.index (pt n j) 1 * 1 + 1 * 0 = 0; rw [hi.2.1]
    | ⟨2, _⟩ => show win0_2.index (pt n j) 2 * 128 + 1 * r.val = 128 * j.val + r.val; rw [hi.2.2.1]; omega
    | ⟨3, _⟩ => show win0_2.index (pt n j) 3 * 512 + 1 * w.val = w.val; rw [hi.2.2.2]; omega
  · rw [reshape_mid_apply, gather_apply]
    refine congrArg (CWin m c) (congrArg ix1 (Fin.ext ?_))
    show min (startIdx (TGin m c) (ix4 n (row j r) w 0)).toInt.toNat 20 = (cls (TGin m c (ix3 n (row j r) w))).val
    rw [startIdx_apply _ _ _ _ _ ht, cls_val_of_lt ht, StableHlo.Predicate.toInt_eq_toNat_of_lt (by omega)]
    simp only [Int.toNat_natCast]
    omega

/-! ## The label counts -/

/-- The scatter's indices: the labels in row-major order, as a [2097152,1] column. -/
def flatIdx (lab : S2097152.Idx → BitVec 32) : S2097152x1.Idx → BitVec 32 :=
  broadcastInDim S2097152x1 ![0] bcast_S2097152_S2097152x1_0 lab

/-- The counts' buffer holds the scatter-add of ones at the labels into zeros, converted. -/
theorem V_v14 : (V m c main_v14 : S21.Idx → EReal)
    = sitofp (F := Ideal) .f32 (Host.scatter scatter_S21_S2097152x1_S2097152_n_0_0_1 IntOp.addi
        (broadcastInDim S21 ![] bcast_S_S21 (constantI S_ 32 0#32))
        (flatIdx (shapeCast S2097152 (TGin m c) shapeCasts_S8x512x512_S2097152))
        (broadcastInDim S2097152 ![] bcast_S_S2097152 (constantI S_ 32 1#32))) := by
  unfold flatIdx
  dsimp only [Gen.V, Gen.V0]
  simp only [Gen.hostOps0, List.flatten_cons, List.flatten_nil, List.append_nil]
  after_results
  rfl

/-- Update `j` lands at the class of its label. -/
theorem resultIdx_eq (lab : S2097152.Idx → BitVec 32) (hl : ∀ i, (lab i).toNat < 21) (j : S2097152.Idx) :
    scatter_S21_S2097152x1_S2097152_n_0_0_1.resultIdx? j (flatIdx lab) = some (ix1 (cls (lab j))) := by
  have hidx : flatIdx lab (scatter_S21_S2097152x1_S2097152_n_0_0_1.siIdx j
      ⟨List.idxOf (0 : Fin 1) scatter_S21_S2097152x1_S2097152_n_0_0_1.scatterDimsToOperandDims,
        List.idxOf_lt_length_iff.2 (List.mem_singleton.mpr rfl)⟩) = lab j := by
    unfold flatIdx
    refine broadcastInDim_apply _ _ _ _ j ?_
    intro a
    obtain rfl : a = 0 := Subsingleton.elim _ _
    rfl
  have hs : ∀ a : Fin 1, scatter_S21_S2097152x1_S2097152_n_0_0_1.start j (flatIdx lab) a + (scatter_S21_S2097152x1_S2097152_n_0_0_1.window j a : Int) = ((lab j).toNat : Int) := by
    intro a
    obtain rfl : a = 0 := Subsingleton.elim _ _
    unfold ScatterDims.start ScatterDims.window
    rw [dif_pos (show (0 : Fin 1) ∈ scatter_S21_S2097152x1_S2097152_n_0_0_1.scatterDimsToOperandDims from List.mem_singleton.mpr rfl),
      dif_neg (show (0 : Fin 1) ∉ scatter_S21_S2097152x1_S2097152_n_0_0_1.sKept by decide), hidx,
      StableHlo.Predicate.toInt_eq_toNat_of_lt (by have := hl j; omega)]
    simp
  unfold ScatterDims.resultIdx?
  have hall : ∀ a : Fin 1, 0 ≤ scatter_S21_S2097152x1_S2097152_n_0_0_1.start j (flatIdx lab) a + (scatter_S21_S2097152x1_S2097152_n_0_0_1.window j a : Int)
      ∧ scatter_S21_S2097152x1_S2097152_n_0_0_1.start j (flatIdx lab) a + (scatter_S21_S2097152x1_S2097152_n_0_0_1.window j a : Int) < (S21.size a : Int) := by
    intro a
    rw [hs a]
    obtain rfl : a = 0 := Subsingleton.elim _ _
    have := hl j
    show (0 : Int) ≤ ((lab j).toNat : Int) ∧ ((lab j).toNat : Int) < ((21 : Nat) : Int)
    omega
  rw [dif_pos hall]
  refine congrArg some (funext fun a => Fin.ext ?_)
  obtain rfl : a = 0 := Subsingleton.elim _ _
  show (scatter_S21_S2097152x1_S2097152_n_0_0_1.start j (flatIdx lab) 0 + (scatter_S21_S2097152x1_S2097152_n_0_0_1.window j 0 : Int)).toNat = (cls (lab j)).val
  rw [hs 0, cls_val_of_lt (hl j)]
  simp

/-- Adding one at `g n` for each `n` of a list, from `x`, leaves at `k` the count of the `n` with `g n = k` above `x k`. -/
theorem foldl_count {ι κ : Type} [DecidableEq κ] (g : ι → κ) (l : List ι) (x : κ → BitVec 32) (k : κ) :
    (l.foldl (fun r n => fun i' => if i' = g n then IntOp.addi (r (g n)) 1#32 else r i') x) k
      = x k + BitVec.ofNat 32 (l.countP (fun n => decide (g n = k))) := by
  induction l generalizing x with
  | nil => simp
  | cons a l ih =>
    rw [List.foldl_cons, ih, List.countP_cons]
    by_cases h : g a = k
    · subst h
      simp only [if_true, decide_true, IntOp.addi, BitVec.ofNat_add]
      rw [BitVec.add_assoc, BitVec.add_comm (1#32)]
    · have h' : ¬ k = g a := fun e => h e.symm
      simp [h, h']

/-- The count of a decidable property over `0 … N − 1` listed in order is the cardinality of its filter. -/
theorem countP_finRange (N : Nat) (p : Fin N → Prop) [DecidablePred p] :
    (List.finRange N).countP (fun n => decide (p n)) = (Finset.univ.filter p).card := by
  rw [List.countP_eq_length_filter]
  rfl

/-- The class the `n`-th label in row-major order names, as an index of the counts. -/
def clsAt (lab : S2097152.Idx → BitVec 32) (n : Fin S2097152.numel) : S21.Idx :=
  ix1 (cls (lab (S2097152.rowMajor.symm n)))

/-- The scatter-add of ones at labels below 21, from zeros, counts each class. -/
theorem scatter_count (lab : S2097152.Idx → BitVec 32) (hl : ∀ i, (lab i).toNat < 21) (k : Fin 21) :
    Host.scatter scatter_S21_S2097152x1_S2097152_n_0_0_1 IntOp.addi
        (broadcastInDim S21 ![] bcast_S_S21 (constantI S_ 32 0#32)) (flatIdx lab)
        (broadcastInDim S2097152 ![] bcast_S_S2097152 (constantI S_ 32 1#32)) (ix1 k)
      = BitVec.ofNat 32 (Finset.univ.filter (fun n : Fin S2097152.numel => clsAt lab n = ix1 k)).card := by
  have hstep : Host.scatter scatter_S21_S2097152x1_S2097152_n_0_0_1 IntOp.addi
        (broadcastInDim S21 ![] bcast_S_S21 (constantI S_ 32 0#32)) (flatIdx lab)
        (broadcastInDim S2097152 ![] bcast_S_S2097152 (constantI S_ 32 1#32))
      = (List.finRange S2097152.numel).foldl
          (fun r n => fun i' => if i' = clsAt lab n then IntOp.addi (r (clsAt lab n)) 1#32 else r i')
          (broadcastInDim S21 ![] bcast_S_S21 (constantI S_ 32 0#32)) := by
    unfold Host.scatter
    refine congrArg (fun f => List.foldl f (broadcastInDim S21 ![] bcast_S_S21 (constantI S_ 32 0#32))
      (List.finRange S2097152.numel)) ?_
    funext r n
    rw [resultIdx_eq lab hl]
    rfl
  rw [hstep, foldl_count, countP_finRange]
  show 0#32 + _ = _
  rw [BitVec.zero_add]

theorem counts_apply (hT : ∀ i, (TGin m c i).toNat < 21) (k : Fin 21) :
    (V m c main_v14 : FVec Ideal S21 .f32) (ix1 k)
      = (((Finset.univ.filter (fun i : ST.Idx => cls (TGin m c i) = k)).card : ℝ) : EReal) := by
  show (V m c main_v14 : S21.Idx → EReal) (ix1 k) = _
  rw [V_v14, sitofp_apply,
    scatter_count (shapeCast S2097152 (TGin m c) shapeCasts_S8x512x512_S2097152) (fun i => hT _) k]
  show (((BitVec.ofNat 32 _).toInt : ℝ) : EReal) = _
  have hN : S2097152.numel = 2097152 := by decide
  have hcard : (Finset.univ.filter (fun n : Fin S2097152.numel =>
        clsAt (shapeCast S2097152 (TGin m c) shapeCasts_S8x512x512_S2097152) n = ix1 k)).card
      = (Finset.univ.filter (fun i : ST.Idx => cls (TGin m c i) = k)).card := by
    refine Finset.card_equiv (S2097152.rowMajor.symm.trans (Shape.reshapeEquiv shapeCasts_S8x512x512_S2097152)) ?_
    intro n
    simp only [Finset.mem_filter, Finset.mem_univ, true_and]
    unfold clsAt shapeCast
    constructor
    · intro h; exact Fin.ext (by have := congrArg (fun f => (f 0).val) h; exact this)
    · intro h; exact congrArg ix1 h
  have hle : (Finset.univ.filter (fun n : Fin S2097152.numel =>
        clsAt (shapeCast S2097152 (TGin m c) shapeCasts_S8x512x512_S2097152) n = ix1 k)).card ≤ 2097152 := by
    refine (Finset.card_le_univ _).trans ?_
    rw [Fintype.card_fin, hN]
  rw [StableHlo.Predicate.toInt_ofNat_small _ (by omega), hcard, Int.cast_natCast]

end Cert.KernelIdeal.HostValue

end
-- ==== Proof.KernelValue.lean ====
/-
  An image's four accumulators as sums over its pixels.

  Tile `j` of image `n` holds the image's rows `128 j` to `128 j + 127`: its logits, labels and per-pixel class
  weights are the image's at those rows, the weight of a pixel being the class weight of its label.  So each update of
  an accumulator by a tile adds the tile's sum of the per-pixel quantity of the image, and the four updates of the zero
  block by an image's four tiles in order leave the image's sum.
-/
import proofs.«419937_j16037407883832_3_alg».proof.Proof.KernelAcc
import proofs.«419937_j16037407883832_3_alg».proof.Proof.KernelTile
import proofs.«419937_j16037407883832_3_alg».proof.Proof.KernelHost
import proofs.«419937_j16037407883832_3_alg».proof.Proof.Spec

noncomputable section

open scoped BigOperators

namespace Cert.KernelIdeal.KValue

open Cert.KernelIdeal Cert.KernelIdeal.Gen Cert.KernelIdeal.Pieces Cert.KernelIdeal.Acc Cert.KernelIdeal.Tile
  Cert.KernelIdeal.HostValue Cert.SegLoss Idealize.ShloMosaic Idealize.ShloMosaic.TcCoe Idealize.ShloMosaic.ValueIdx
  Idealize.SL.Sem

variable (m : (ℓ : Loc nD τ sig) → Buf (Elt Ideal) ℓ) (c : Dev nD)

/-! ## A tile's blocks are the image's rows -/

/-- The logits of a tile's pixel are those of the image's pixel in the tile's row. -/
theorem bx_blk (n : Fin 8) (j : Fin 4) (r : Fin 128) (w : Fin 512) :
    bx (blkX m c (Acc.pt n j)) r w = pxAt (Xin m c) (ix3 n (row j r) w) :=
  funext fun k => iblk0_apply m c n j k r w

/-- Its label is the image's. -/
theorem blkT_apply (n : Fin 8) (j : Fin 4) (r : Fin 128) (w : Fin 512) :
    blkT m c (Acc.pt n j) (ix4 0 0 r w) = TGin m c (ix3 n (row j r) w) :=
  iblk1_apply m c n j r w

/-- Its weight is the class weight of the image's label there. -/
theorem blkW_apply (hT : ∀ i, (TGin m c i).toNat < 21) (n : Fin 8) (j : Fin 4) (r : Fin 128) (w : Fin 512) :
    blkW m c (Acc.pt n j) (ix4 0 0 r w) = CWin m c (ix1 (cls (TGin m c (ix3 n (row j r) w)))) :=
  iblk2_apply m c hT n j r w

/-! ## One tile's update adds the tile's sum over the image's pixels -/

theorem tileCe (hT : ∀ i, (TGin m c i).toNat < 21) (n : Fin 8) (j : Fin 4) (p : Vec Ideal S1x1x1x1 .f32) :
    stepCe (blkX m c (Acc.pt n j)) (blkT m c (Acc.pt n j)) (blkW m c (Acc.pt n j)) p (ix4 0 0 0 0)
      = p (ix4 0 0 0 0) + tileSum (fun h w => ceK (pxAt (Xin m c) (ix3 n h w)) (TGin m c (ix3 n h w))
          (CWin m c (ix1 (cls (TGin m c (ix3 n h w)))))) j := by
  unfold stepCe tileSum
  refine (ce_tile _ _ _ p).trans ?_
  refine congrArg (fun t => p (ix4 0 0 0 0) + t) ?_
  refine Finset.sum_congr rfl fun r _ => Finset.sum_congr rfl fun w _ => ?_
  rw [bx_blk, blkT_apply, blkW_apply m c hT]

theorem tileFoc (hT : ∀ i, (TGin m c i).toNat < 21) (n : Fin 8) (j : Fin 4) (p : Vec Ideal S1x1x1x1 .f32) :
    stepFoc (blkX m c (Acc.pt n j)) (blkT m c (Acc.pt n j)) (blkW m c (Acc.pt n j)) p (ix4 0 0 0 0)
      = p (ix4 0 0 0 0) + tileSum (fun h w => focK (pxAt (Xin m c) (ix3 n h w)) (TGin m c (ix3 n h w))
          (CWin m c (ix1 (cls (TGin m c (ix3 n h w)))))) j := by
  unfold stepFoc tileSum
  refine (foc_tile _ _ _ p).trans ?_
  refine congrArg (fun t => p (ix4 0 0 0 0) + t) ?_
  refine Finset.sum_congr rfl fun r _ => Finset.sum_congr rfl fun w _ => ?_
  rw [bx_blk, blkT_apply, blkW_apply m c hT]

theorem tileInt (n : Fin 8) (j : Fin 4) (k : Fin 21) (p : Vec Ideal S1x21x1x1 .f32) :
    stepInt (blkX m c (Acc.pt n j)) (blkT m c (Acc.pt n j)) (blkW m c (Acc.pt n j)) p (ix4 0 k 0 0)
      = p (ix4 0 k 0 0) + tileSum (fun h w => ptK (pxAt (Xin m c) (ix3 n h w)) (TGin m c (ix3 n h w)) k) j := by
  unfold stepInt tileSum
  refine (int_tile _ _ p k).trans ?_
  refine congrArg (fun t => p (ix4 0 k 0 0) + t) ?_
  refine Finset.sum_congr rfl fun r _ => Finset.sum_congr rfl fun w _ => ?_
  rw [bx_blk, blkT_apply]

theorem tileMass (n : Fin 8) (j : Fin 4) (k : Fin 21) (p : Vec Ideal S1x21x1x1 .f32) :
    stepMass (blkX m c (Acc.pt n j)) (blkT m c (Acc.pt n j)) (blkW m c (Acc.pt n j)) p (ix4 0 k 0 0)
      = p (ix4 0 k 0 0) + tileSum (fun h w => prK (pxAt (Xin m c) (ix3 n h w)) k) j := by
  unfold stepMass tileSum
  refine (prob_tile _ p k).trans ?_
  refine congrArg (fun t => p (ix4 0 k 0 0) + t) ?_
  refine Finset.sum_congr rfl fun r _ => Finset.sum_congr rfl fun w _ => ?_
  rw [bx_blk]

/-! ## The four tiles in order, from the zero block -/

theorem imgCe_apply (hT : ∀ i, (TGin m c i).toNat < 21) (n : Fin 8) :
    imgCe m c n (ix4 0 0 0 0)
      = imgSum (fun h w => ceK (pxAt (Xin m c) (ix3 n h w)) (TGin m c (ix3 n h w))
          (CWin m c (ix1 (cls (TGin m c (ix3 n h w)))))) := by
  unfold imgCe imgSum acc4
  rw [tileCe m c hT n 3, tileCe m c hT n 2, tileCe m c hT n 1, tileCe m c hT n 0, zero4]

theorem imgFoc_apply (hT : ∀ i, (TGin m c i).toNat < 21) (n : Fin 8) :
    imgFoc m c n (ix4 0 0 0 0)
      = imgSum (fun h w => focK (pxAt (Xin m c) (ix3 n h w)) (TGin m c (ix3 n h w))
          (CWin m c (ix1 (cls (TGin m c (ix3 n h w)))))) := by
  unfold imgFoc imgSum acc4
  rw [tileFoc m c hT n 3, tileFoc m c hT n 2, tileFoc m c hT n 1, tileFoc m c hT n 0, zero5]

theorem imgInt_apply (n : Fin 8) (k : Fin 21) :
    imgInt m c n (ix4 0 k 0 0)
      = imgSum (fun h w => ptK (pxAt (Xin m c) (ix3 n h w)) (TGin m c (ix3 n h w)) k) := by
  unfold imgInt imgSum acc4
  rw [tileInt m c n 3 k, tileInt m c n 2 k, tileInt m c n 1 k, tileInt m c n 0 k, zero6]

theorem imgMass_apply (n : Fin 8) (k : Fin 21) :
    imgMass m c n (ix4 0 k 0 0) = imgSum (fun h w => prK (pxAt (Xin m c) (ix3 n h w)) k) := by
  unfold imgMass imgSum acc4
  rw [tileMass m c n 3 k, tileMass m c n 2 k, tileMass m c n 1 k, tileMass m c n 0 k, zero7]

end Cert.KernelIdeal.KValue

end
-- ==== Proof.Sums.lean ====
/-
  Re-indexing finite sums of extended reals.

  Addition of extended reals is commutative and associative with unit zero, so a finite sum may be taken in any
  order and along any bijection of its index set.  The sum over the pixels of a batch is the sum over images, rows
  and lanes; the 512 rows of an image are the 128 rows of each of its four tiles; and the accumulator that adds the
  four tiles in order from zero is the sum over the tiles.
-/
import Mathlib.Algebra.BigOperators.Fin
import Mathlib.Algebra.BigOperators.Group.Finset.Basic
import Mathlib.Algebra.BigOperators.Pi
import proofs.«419937_j16037407883832_3_alg».proof.Proof.Spec

noncomputable section

open scoped BigOperators

namespace Cert.SegLoss

open Idealize.ShloMosaic Idealize.ShloMosaic.ValueIdx

/-- The accumulator over four tiles is their sum. -/
theorem acc4_eq_sum (T : Fin 4 → EReal) : acc4 T = ∑ j : Fin 4, T j := by
  rw [Fin.sum_univ_four, acc4, zero_add]

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the pixels of the batch is the triple sum over images, rows and lanes. -/
theorem sum_idx3 (g : ST.Idx → EReal) :
    ∑ i : ST.Idx, g i = ∑ n : Fin 8, ∑ h : Fin 512, ∑ w : Fin 512, g (ix3 n h w) := by
  rw [← Equiv.sum_comp (idxEquiv3 (n0 := 8) (n1 := 512) (n2 := 512)).symm g, Fintype.sum_prod_type]
  refine Finset.sum_congr rfl fun n _ => ?_
  rw [Fintype.sum_prod_type]
  rfl

/-- An image row is a tile and a row within the tile: `h = 128 j + r` with `j = h / 128`, `r = h mod 128`. -/
def rowEquiv : Fin 4 × Fin 128 ≃ Fin 512 where
  toFun p := row p.1 p.2
  invFun h := (⟨h.val / 128, by have := h.isLt; omega⟩, ⟨h.val % 128, Nat.mod_lt _ (by decide)⟩)
  left_inv p := by
    obtain ⟨j, r⟩ := p
    have hj := j.isLt
    have hr := r.isLt
    refine Prod.ext (Fin.ext ?_) (Fin.ext ?_)
    · show (128 * j.val + r.val) / 128 = j.val
      omega
    · show (128 * j.val + r.val) % 128 = r.val
      omega
  right_inv h := by
    apply Fin.ext
    show 128 * (h.val / 128) + h.val % 128 = h.val
    omega

/-- A sum over the 512 rows of an image is the sum over its four tiles of the sum over the tile's 128 rows. -/
theorem sum_rows (f : Fin 512 → EReal) : ∑ h : Fin 512, f h = ∑ j : Fin 4, ∑ r : Fin 128, f (row j r) := by
  rw [← Equiv.sum_comp rowEquiv f, Fintype.sum_prod_type]
  rfl

/-- The sum taken image by image and tile by tile is the sum over all pixels. -/
theorem pixSumK_eq (g : ST.Idx → EReal) : pixSumK g = ∑ i : ST.Idx, g i := by
  rw [sum_idx3, pixSumK]
  refine Finset.sum_congr rfl fun n _ => ?_
  rw [imgSum, acc4_eq_sum, sum_rows (fun h => ∑ w : Fin 512, g (ix3 n h w))]
  rfl

/-- An index set with extents `8, 1, 1, 1` is its first coordinate. -/
def unit4Equiv : (⟨4, ![8, 1, 1, 1]⟩ : Shape).Idx ≃ Fin 8 where
  toFun i := i 0
  invFun n := ix4 n 0 0 0
  left_inv i := by
    have h1 : i 1 = (0 : Fin 1) := Subsingleton.elim (α := Fin 1) _ _
    have h2 : i 2 = (0 : Fin 1) := Subsingleton.elim (α := Fin 1) _ _
    have h3 : i 3 = (0 : Fin 1) := Subsingleton.elim (α := Fin 1) _ _
    have h := eq_ix4 i
    rw [h1, h2, h3] at h
    exact h.symm
  right_inv _ := rfl

/-- A sum over an index set with extents `8, 1, 1, 1` is the sum over its first coordinate. -/
theorem sum_unit4 (f : (⟨4, ![8, 1, 1, 1]⟩ : Shape).Idx → EReal) : ∑ i, f i = ∑ n : Fin 8, f (ix4 n 0 0 0) := by
  rw [← Equiv.sum_comp unit4Equiv.symm f]
  rfl

/-- The sum over the pixels labelled `c` is the sum over all pixels of the quantity masked by the label. -/
theorem sum_filter_cls (TG : ST.Idx → BitVec 32) (f : ST.Idx → EReal) (c : Fin 21) :
    ∑ i ∈ Finset.univ.filter (fun i => cls (TG i) = c), f i
      = ∑ i : ST.Idx, if cls (TG i) = c then f i else 0 :=
  Finset.sum_filter _ _

/-- For a label below 21, the one-hot mask of class `c` holds exactly when the label's class is `c`. -/
theorem hot_iff_cls {t : BitVec 32} (ht : t.toNat < 21) (c : Fin 21) :
    BitVec.ofNat 32 c.val = t ↔ cls t = c := by
  constructor
  · intro h
    apply Fin.ext
    rw [cls_val_of_lt ht, ← h, BitVec.toNat_ofNat]
    have := c.isLt
    exact Nat.mod_eq_of_lt (by omega)
  · intro h
    rw [← h]
    exact ofNat_cls_of_lt ht

end Cert.SegLoss

end
-- ==== Proof.KernelTail.lean ====
/-
  The arithmetic the kernel's program does on the host after the pallas_call, as functions of the four output
  arrays and the label counts: the mean over the `2^21` pixels of an [8,1,1,1] array of per-image sums
  (`tailMean`), the dice loss from the [8,21,1,1] arrays of per-image intersections and probability masses and
  the [21] label counts (`tailDice`), and the total loss (`tailTotal`).  Read at the ideal instance they are the
  specification's `meanPix` and `diceLoss` of the sums over the 8 images.
-/
import proofs.«419937_j16037407883832_3_alg».proof.Proof.Gen.KernelIdeal
import proofs.«419937_j16037407883832_3_alg».proof.Proof.Spec
import proofs.«419937_j16037407883832_3_alg».proof.Proof.Sums
import Idealize.ShloMosaic.Lib.ValueIdx
import Idealize.ShloMosaic.Lib.Pipeline.Value
import Idealize.ShloMosaic.PureOps.Ideal.Laws

noncomputable section

open scoped BigOperators

namespace Cert.KernelIdeal.Tail

open Cert.KernelIdeal Cert.KernelIdeal.Facts₀ Cert.KernelIdeal.Facts Cert.SegLoss Idealize.ShloMosaic Idealize.ShloMosaic.ValueIdx

variable {F : FTy → Type} [FloatOps F]

/-- The sum of the 8 per-image entries from zero, divided by `2^21`. -/
def tailMean (a : FVec F S8x1x1x1 .f32) : FVec F S_ .f32 :=
  Host.divf (Host.reduceAdd a (constant S_ .f32 0x00000000#32) reducesTo_S8x1x1x1_S_d0_1_2_3 h_S_) (constant S_ .f32 0x4A000000#32)

/-- The dice loss: per class `1 - (2 I + ε) / ((P + N) + ε)` with `I`, `P` the sums over the 8 images, averaged over the 21 classes. -/
def tailDice (a5 a6 : FVec F S8x21x1x1 .f32) (cn : FVec F S21 .f32) : FVec F S_ .f32 :=
  Host.divf
    (Host.reduceAdd
      (subf (broadcastInDim S21 ![] bcast_S_S21 (constant S_ .f32 0x3F800000#32))
        (Host.divf
          (addf
            (mulf (broadcastInDim S21 ![] bcast_S_S21 (constant S_ .f32 0x40000000#32))
              (Host.reduceAdd (shapeCast S8x21 a5 shapeCasts_S8x21x1x1_S8x21) (constant S_ .f32 0x00000000#32) reducesTo_S8x21_S21_d0 h_S_))
            (broadcastInDim S21 ![] bcast_S_S21 (constant S_ .f32 0x358637BD#32)))
          (addf
            (addf (Host.reduceAdd (shapeCast S8x21 a6 shapeCasts_S8x21x1x1_S8x21) (constant S_ .f32 0x00000000#32) reducesTo_S8x21_S21_d0 h_S_) cn)
            (broadcastInDim S21 ![] bcast_S_S21 (constant S_ .f32 0x358637BD#32)))))
      (constant S_ .f32 0x00000000#32) reducesTo_S21_S_d0 h_S_)
    (constant S_ .f32 0x41A80000#32)

/-- The total loss: the focal mean plus half the dice loss. -/
def tailTotal (a4 : FVec F S8x1x1x1 .f32) (a5 a6 : FVec F S8x21x1x1 .f32) (cn : FVec F S21 .f32) : FVec F S_ .f32 :=
  addf (tailMean a4) (mulf (constant S_ .f32 0x3F000000#32) (tailDice a5 a6 cn))

/-- An index set with extent `21` is its coordinate. -/
def unit1Equiv : S21.Idx ≃ Fin 21 where
  toFun i := i 0
  invFun k := ix1 k
  left_inv i := (eq_ix1 i).symm
  right_inv _ := rfl

/-- A sum over an index set with extent `21` is the sum over its coordinate. -/
theorem sum_idx1 (f : S21.Idx → EReal) : ∑ i, f i = ∑ k : Fin 21, f (ix1 k) := by
  rw [← Equiv.sum_comp unit1Equiv.symm f]
  rfl

/-- The sum over the 8 images of an [8,21,1,1] array, at class `k`: the array is reshaped to [8,21] and summed along
    its first axis from zero. -/
theorem reduce8_apply (a : FVec Ideal S8x21x1x1 .f32) (k : Fin 21) :
    Ideal.hostReduceAdd reducesTo_S8x21_S21_d0 (shapeCast S8x21 a shapeCasts_S8x21x1x1_S8x21) (lit 0x00000000#32) (ix1 k)
      = lit 0x00000000#32 + ∑ n : Fin 8, a (ix4 n k 0 0) := by
  have h : S8x21.Reduces [0] S21 := by decide
  rw [Ideal.hostReduceAdd_single _ h]
  refine congrArg (fun s => lit 0x00000000#32 + s) (Finset.sum_congr rfl fun n _ => ?_)
  refine shapeCast_apply a _ _ (ix4 n k 0 0) ?_
  rw [Shape.rowMajor_val_four, Shape.rowMajor_val_two]
  show ((n.val * 21 + k.val) * 1 + 0) * 1 + 0 = n.val * 21 + k.val
  omega

/-- At the ideal instance the mean is the specification's, of the sum over the 8 images. -/
theorem tailMean_apply (a : FVec Ideal S8x1x1x1 .f32) :
    tailMean a ix0 = meanPix (∑ n : Fin 8, a (ix4 n 0 0 0)) := by
  unfold tailMean meanPix
  show Ideal.div (Ideal.hostReduceAdd reducesTo_S8x1x1x1_S_d0_1_2_3 a (lit 0x00000000#32) ix0) (lit 0x4A000000#32) = _
  rw [Ideal.hostReduceAdd_total _ (fun b => b.elim0), sum_unit4]

/-- At the ideal instance the dice loss is the specification's, of the sums over the 8 images. -/
theorem tailDice_apply (a5 a6 : FVec Ideal S8x21x1x1 .f32) (cn : FVec Ideal S21 .f32) :
    tailDice a5 a6 cn ix0
      = diceLoss (fun k => lit 0x00000000#32 + ∑ n : Fin 8, a5 (ix4 n k 0 0)) (fun k => lit 0x00000000#32 + ∑ n : Fin 8, a6 (ix4 n k 0 0)) (fun k => cn (ix1 k)) := by
  unfold tailDice diceLoss
  show Ideal.div (Ideal.hostReduceAdd reducesTo_S21_S_d0 _ (lit 0x00000000#32) ix0) (lit 0x41A80000#32) = _
  rw [Ideal.hostReduceAdd_total _ (fun b => b.elim0), sum_idx1]
  refine congrArg (fun s => Ideal.div (lit 0x00000000#32 + s) (lit 0x41A80000#32)) (Finset.sum_congr rfl fun k _ => ?_)
  show _ = lit 0x3F800000#32 - Ideal.div
      (lit 0x40000000#32 * (lit 0x00000000#32 + ∑ n : Fin 8, a5 (ix4 n k 0 0)) + lit 0x358637BD#32)
      (((lit 0x00000000#32 + ∑ n : Fin 8, a6 (ix4 n k 0 0)) + cn (ix1 k)) + lit 0x358637BD#32)
  rw [← reduce8_apply a5 k, ← reduce8_apply a6 k]
  rfl

/-- and the total loss. -/
theorem tailTotal_apply (a4 : FVec Ideal S8x1x1x1 .f32) (a5 a6 : FVec Ideal S8x21x1x1 .f32) (cn : FVec Ideal S21 .f32) :
    tailTotal a4 a5 a6 cn ix0
      = meanPix (∑ n : Fin 8, a4 (ix4 n 0 0 0)) + lit 0x3F000000#32
          * diceLoss (fun k => lit 0x00000000#32 + ∑ n : Fin 8, a5 (ix4 n k 0 0)) (fun k => lit 0x00000000#32 + ∑ n : Fin 8, a6 (ix4 n k 0 0)) (fun k => cn (ix1 k)) := by
  unfold tailTotal
  show tailMean a4 ix0 + lit 0x3F000000#32 * tailDice a5 a6 cn ix0 = _
  rw [tailMean_apply, tailDice_apply]

end Cert.KernelIdeal.Tail

end
-- ==== Proof.KernelRun.lean ====
/-
  The idealized kernel program's run, with its three results read.

  The generated frame run ends with every output array of the pallas_call at what the write-backs left
  (Proof/KernelArrays.lean: image by image, the accumulators after four tiles) and every other buffer at what the
  host operations after the call compute from those arrays and from the label counts computed before the call
  (Proof/KernelTail.lean).  At the ideal instance an image's accumulator is the sum of the per-pixel quantity
  over the image's four tiles (Proof/KernelValue.lean), so the three results are the specification's `results` of
  the kernel's five sums.
-/
import proofs.«419937_j16037407883832_3_alg».proof.Proof.KernelArrays
import proofs.«419937_j16037407883832_3_alg».proof.Proof.KernelValue
import proofs.«419937_j16037407883832_3_alg».proof.Proof.KernelHost
import proofs.«419937_j16037407883832_3_alg».proof.Proof.KernelTail
import Idealize.ShloMosaic.Lib.StableHlo.Run

set_option maxRecDepth 16384

noncomputable section

open scoped BigOperators
open Idealize.ShloMosaic Idealize.ShloMosaic.TcCoe Idealize.SL.Sem
open Idealize.ShloMosaic.Pipeline (Dat)

namespace Cert.KernelIdeal.KRun

open Cert.KernelIdeal Cert.KernelIdeal.Gen Cert.KernelIdeal.Acc Cert.KernelIdeal.Arrays Cert.KernelIdeal.Tail

section AnyValues

variable {F : FTy → Type} [FloatOps F]
variable (m : (ℓ : Loc nD τ sig) → Buf (Elt F) ℓ) (ρ : Dev nD → PrngReg)

/-- What the host operations after the call find in the four output arrays and in the label counts. -/
theorem found3 (c : Dev nD) : Pipeline.withArrays (cfgs 0).spec c (V0 m c) (fun w => (dats m 0 c).arrAt w (cfgs 0).N) (Proc.devRef .tc main_v15_0) = arrCe m c :=
  (Pipeline.withArrays_arr spec0 launch0.win.arr_inj c _ _ 3).trans (finalCe m c)
theorem found4 (c : Dev nD) : Pipeline.withArrays (cfgs 0).spec c (V0 m c) (fun w => (dats m 0 c).arrAt w (cfgs 0).N) (Proc.devRef .tc main_v15_1) = arrFoc m c :=
  (Pipeline.withArrays_arr spec0 launch0.win.arr_inj c _ _ 4).trans (finalFoc m c)
theorem found5 (c : Dev nD) : Pipeline.withArrays (cfgs 0).spec c (V0 m c) (fun w => (dats m 0 c).arrAt w (cfgs 0).N) (Proc.devRef .tc main_v15_2) = arrInt m c :=
  (Pipeline.withArrays_arr spec0 launch0.win.arr_inj c _ _ 5).trans (finalInt m c)
theorem found6 (c : Dev nD) : Pipeline.withArrays (cfgs 0).spec c (V0 m c) (fun w => (dats m 0 c).arrAt w (cfgs 0).N) (Proc.devRef .tc main_v15_3) = arrMass m c :=
  (Pipeline.withArrays_arr spec0 launch0.win.arr_inj c _ _ 6).trans (finalMass m c)
theorem foundN (c : Dev nD) : Pipeline.withArrays (cfgs 0).spec c (V0 m c) (fun w => (dats m 0 c).arrAt w (cfgs 0).N) (Proc.devRef .tc main_v14) = V m c main_v14 :=
  Pipeline.withArrays_of_ne _ c (V0 m c) _ main_v14 (by exact (by decide : ∀ w, Pipeline.arrRef spec0 w ≠ main_v14))

/-- The mean cross entropy the program returns. -/
theorem tail_ce (c : Dev nD) : Pipeline.afterTail₀ cfgs (dats m) 0 (V0 m) [hostOps1] c main_v17 = tailMean (arrCe m c) := by
  unfold Pipeline.afterTail₀
  show StableHlo.after hostOps1 _ (Proc.devRef .tc main_v17) = _
  after_results
  rw [found3 m c]
  rfl

set_option maxHeartbeats 8000000 in
/-- The dice loss the program returns. -/
theorem tail_dice (c : Dev nD) : Pipeline.afterTail₀ cfgs (dats m) 0 (V0 m) [hostOps1] c main_v35 = tailDice (arrInt m c) (arrMass m c) (V m c main_v14) := by
  unfold Pipeline.afterTail₀
  show StableHlo.after hostOps1 _ (Proc.devRef .tc main_v35) = _
  after_results
  rw [found5 m c, found6 m c, foundN m c]
  rfl

set_option maxHeartbeats 8000000 in
/-- The total loss the program returns. -/
theorem tail_total (c : Dev nD) : Pipeline.afterTail₀ cfgs (dats m) 0 (V0 m) [hostOps1] c main_v37 = tailTotal (arrFoc m c) (arrInt m c) (arrMass m c) (V m c main_v14) := by
  unfold Pipeline.afterTail₀
  show StableHlo.after hostOps1 _ (Proc.devRef .tc main_v37) = _
  after_results
  rw [found4 m c, found5 m c, found6 m c, foundN m c]
  rfl

/-- The run, with the three results at the tail's functions of the four arrays, and the arguments kept. -/
theorem run_tail : θ_run defs (onTc (τ := τ) (main (F := F))) ⟨m, fun _ => 0, ρ⟩ (fun r => ∀ c : Dev nD,
      r.2.mem ((c.tc : Thread nD τ).loc main_v37) = tailTotal (arrFoc m c) (arrInt m c) (arrMass m c) (V m c main_v14)
      ∧ r.2.mem ((c.tc : Thread nD τ).loc main_v17) = tailMean (arrCe m c)
      ∧ r.2.mem ((c.tc : Thread nD τ).loc main_v35) = tailDice (arrInt m c) (arrMass m c) (V m c main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v37 (Pipeline.mem_restRefs_of main_v37 (by decide) (by decide))).trans (tail_total m c),
     ((h c).2 main_v17 (Pipeline.mem_restRefs_of main_v17 (by decide) (by decide))).trans (tail_ce m c),
     ((h c).2 main_v35 (Pipeline.mem_restRefs_of main_v35 (by decide) (by decide))).trans (tail_dice m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end AnyValues

section IdealValues

open Cert.KernelIdeal.HostValue Cert.KernelIdeal.KValue Cert.SegLoss Idealize.ShloMosaic.ValueIdx

variable (m : (ℓ : Loc nD τ sig) → Buf (Elt Ideal) ℓ) (ρ : Dev nD → PrngReg)

/-- The specification's three results of the kernel's five sums over the inputs as launched. -/
def kres (c : Dev nD) : EReal × EReal × EReal :=
  results (pixSumK (fun i => ceK (pxAt (Xin m c) i) (TGin m c i) (CWin m c (ix1 (cls (TGin m c i))))))
    (pixSumK (fun i => focK (pxAt (Xin m c) i) (TGin m c i) (CWin m c (ix1 (cls (TGin m c i))))))
    (fun k => lit 0x00000000#32 + pixSumK (fun i => ptK (pxAt (Xin m c) i) (TGin m c i) k))
    (fun k => lit 0x00000000#32 + pixSumK (fun i => prK (pxAt (Xin m c) i) k))
    (fun k => (((Finset.univ.filter (fun i : ST.Idx => cls (TGin m c i) = k)).card : ℝ) : EReal))

/-- The sum over the 8 images of an output array's entries is the kernel's sum over the batch. -/
theorem sumCe (c : Dev nD) (hT : ∀ i, (TGin m c i).toNat < 21) :
    ∑ n : Fin 8, arrCe m c (ix4 n 0 0 0) = pixSumK (fun i => ceK (pxAt (Xin m c) i) (TGin m c i) (CWin m c (ix1 (cls (TGin m c i))))) :=
  Finset.sum_congr rfl fun n _ => (show arrCe m c (ix4 n 0 0 0) = imgCe m c n (ix4 0 0 0 0) from rfl).trans (imgCe_apply m c hT n)
theorem sumFoc (c : Dev nD) (hT : ∀ i, (TGin m c i).toNat < 21) :
    ∑ n : Fin 8, arrFoc m c (ix4 n 0 0 0) = pixSumK (fun i => focK (pxAt (Xin m c) i) (TGin m c i) (CWin m c (ix1 (cls (TGin m c i))))) :=
  Finset.sum_congr rfl fun n _ => (show arrFoc m c (ix4 n 0 0 0) = imgFoc m c n (ix4 0 0 0 0) from rfl).trans (imgFoc_apply m c hT n)
theorem sumInt (c : Dev nD) (k : Fin 21) :
    ∑ n : Fin 8, arrInt m c (ix4 n k 0 0) = pixSumK (fun i => ptK (pxAt (Xin m c) i) (TGin m c i) k) :=
  Finset.sum_congr rfl fun n _ => (show arrInt m c (ix4 n k 0 0) = imgInt m c n (ix4 0 k 0 0) from rfl).trans (imgInt_apply m c n k)
theorem sumMass (c : Dev nD) (k : Fin 21) :
    ∑ n : Fin 8, arrMass m c (ix4 n k 0 0) = pixSumK (fun i => prK (pxAt (Xin m c) i) k) :=
  Finset.sum_congr rfl fun n _ => (show arrMass m c (ix4 n k 0 0) = imgMass m c n (ix4 0 k 0 0) from rfl).trans (imgMass_apply m c n k)

/-- The dice loss of the kernel's sums. -/
theorem dice_eq (c : Dev nD) (hT : ∀ i, (TGin m c i).toNat < 21) :
    diceLoss (fun k => lit 0x00000000#32 + ∑ n : Fin 8, arrInt m c (ix4 n k 0 0)) (fun k => lit 0x00000000#32 + ∑ n : Fin 8, arrMass m c (ix4 n k 0 0))
        (fun k => (V m c main_v14 : FVec Ideal S21 .f32) (ix1 k))
      = (kres m c).2.2 := by
  have hI : (fun k : Fin 21 => lit 0x00000000#32 + ∑ n : Fin 8, arrInt m c (ix4 n k 0 0))
      = fun k => lit 0x00000000#32 + pixSumK (fun i => ptK (pxAt (Xin m c) i) (TGin m c i) k) := funext fun k => by rw [sumInt m c k]
  have hP : (fun k : Fin 21 => lit 0x00000000#32 + ∑ n : Fin 8, arrMass m c (ix4 n k 0 0))
      = fun k => lit 0x00000000#32 + pixSumK (fun i => prK (pxAt (Xin m c) i) k) := funext fun k => by rw [sumMass m c k]
  have hN : (fun k : Fin 21 => (V m c main_v14 : FVec Ideal S21 .f32) (ix1 k))
      = fun k => (((Finset.univ.filter (fun i : ST.Idx => cls (TGin m c i) = k)).card : ℝ) : EReal) := funext fun k => counts_apply m c hT k
  rw [hI, hP, hN]
  rfl

theorem res_total (c : Dev nD) (hT : ∀ i, (TGin m c i).toNat < 21) :
    tailTotal (arrFoc m c) (arrInt m c) (arrMass m c) (V m c main_v14) = fun _ => (kres m c).1 := by
  funext j
  rw [eq_ix0 j, tailTotal_apply, sumFoc m c hT, dice_eq m c hT]
  rfl

theorem res_ce (c : Dev nD) (hT : ∀ i, (TGin m c i).toNat < 21) :
    tailMean (arrCe m c) = fun _ => (kres m c).2.1 := by
  funext j
  rw [eq_ix0 j, tailMean_apply, sumCe m c hT]
  rfl

theorem res_dice (c : Dev nD) (hT : ∀ i, (TGin m c i).toNat < 21) :
    tailDice (arrInt m c) (arrMass m c) (V m c main_v14) = fun _ => (kres m c).2.2 := by
  funext j
  rw [eq_ix0 j, tailDice_apply, dice_eq m c hT]

/-- The idealized kernel program's run: its three results are the specification's results of the kernel's five sums
    over the inputs as launched, for labels below 21; the arguments end unchanged. -/
theorem run_value (hT : ∀ (c : Dev nD) i, (TGin m c i).toNat < 21) :
    θ_run defs (onTc (τ := τ) (main (F := Ideal))) ⟨m, fun _ => 0, ρ⟩ (fun r => ∀ c : Dev nD,
      r.2.mem ((c.tc : Thread nD τ).loc main_v37) = (fun _ => (kres m c).1)
      ∧ r.2.mem ((c.tc : Thread nD τ).loc main_v17) = (fun _ => (kres m c).2.1)
      ∧ r.2.mem ((c.tc : Thread nD τ).loc main_v35) = (fun _ => (kres m c).2.2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).1.trans (res_total m c (hT c)), (h c).2.1.trans (res_ce m c (hT c)), (h c).2.2.1.trans (res_dice m c (hT c)), (h c).2.2.2⟩)
    (run_tail m ρ)

end IdealValues

end Cert.KernelIdeal.KRun

end
-- ==== Proof.RefRunStaged.lean ====
/-
  The reference program's run, proved in stages.

  @main's 129 host operations are cut into five stretches: the log-softmax; the first take-along-axis (the labelled
  class's log-probability); the class-weight gather, the cross entropy, the focal term and their two means; the
  softmax and the second take-along-axis (the labelled class's probability); and the per-class scatter-adds, the
  probability mass, the dice loss and the total.  For each stretch, from ANY contents of the buffers: the buffers
  it computes hold the stage functions of the inputs (the `val_…` of Proof/RefRead.lean) provided the buffers it
  reads hold theirs, and the buffers it does not write are kept.  Chained over the five stretches this gives the
  contents of the three result buffers after the whole list, hence the run.
-/
import proofs.«419937_j16037407883832_3_alg».proof.Proof.RefRun
import proofs.«419937_j16037407883832_3_alg».proof.Proof.RefRead
import Idealize.ShloMosaic.Lib.Pipeline.Frame

set_option maxRecDepth 16384

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Contents moved to a typed reference's buffer type and back are the contents. -/
theorem ofBuf_toBuf {T : BufTy} (x : TRef sig T) (v : T.Contents (Elt F)) : x.ofBuf (x.toBuf v) = v := by
  obtain ⟨r, h, h1, h2⟩ := x
  subst h
  rfl

/-! ## The five stretches -/

/-- The log-softmax (15 operations). -/
abbrev opsA : List (HloOp τ sig (Elt F)) :=
  [ TRef.nullary (TRef.of (T := ⟨S_, .f32⟩) main_call0_cst) (constant S_ .f32 0xFF800000#32),
    TRef.binary (TRef.of (T := ⟨S8x21x512x512, .f32⟩) main_arg0) (TRef.of (T := ⟨S_, .f32⟩) main_call0_cst) (TRef.of (T := ⟨S8x512x512, .f32⟩) main_call0_v0) (fun x v => Host.reduce FloatOps.maximumf x v reducesTo_S8x21x512x512_S8x512x512_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8x512x512, .f32⟩) main_call0_v1) (broadcastInDim S8x512x512 ![] bcast_S_S8x512x512),
    TRef.binary (TRef.of (T := ⟨S8x512x512, .f32⟩) main_call0_v1) (TRef.of (T := ⟨S8x512x512, .f32⟩) main_call0_v0) (TRef.of (T := ⟨S8x512x512, .f32⟩) main_call0_v2) maximumf,
    TRef.unary (TRef.of (T := ⟨S8x512x512, .f32⟩) main_call0_v2) (TRef.of (T := ⟨S8x1x512x512, .f32⟩) main_call0_v3) (broadcastInDim S8x1x512x512 ![0, 2, 3] bcast_S8x512x512_S8x1x512x512_0_2_3),
    TRef.unary (TRef.of (T := ⟨S8x1x512x512, .f32⟩) main_call0_v3) (TRef.of (T := ⟨S8x21x512x512, .f32⟩) main_call0_v4) (broadcastInDim S8x21x512x512 ![0, 1, 2, 3] bcast_S8x1x512x512_S8x21x512x512_0_1_2_3),
    TRef.binary (TRef.of (T := ⟨S8x21x512x512, .f32⟩) main_arg0) (TRef.of (T := ⟨S8x21x512x512, .f32⟩) main_call0_v4) (TRef.of (T := ⟨S8x21x512x512, .f32⟩) main_call0_v5) subf,
    TRef.unary (TRef.of (T := ⟨S8x21x512x512, .f32⟩) main_call0_v5) (TRef.of (T := ⟨S8x21x512x512, .f32⟩) main_call0_v6) Host.exp,
    TRef.nullary (TRef.of (T := ⟨S_, .f32⟩) main_call0_cst_1) (constant S_ .f32 0x00000000#32),
    TRef.binary (TRef.of (T := ⟨S8x21x512x512, .f32⟩) main_call0_v6) (TRef.of (T := ⟨S_, .f32⟩) main_call0_cst_1) (TRef.of (T := ⟨S8x512x512, .f32⟩) main_call0_v7) (fun x v => Host.reduceAdd x v reducesTo_S8x21x512x512_S8x512x512_d1 h_S_),
    TRef.unary (TRef.of (T := ⟨S8x512x512, .f32⟩) main_call0_v7) (TRef.of (T := ⟨S8x1x512x512, .f32⟩) main_call0_v8) (broadcastInDim S8x1x512x512 ![0, 2, 3] bcast_S8x512x512_S8x1x512x512_0_2_3),
    TRef.unary (TRef.of (T := ⟨S8x1x512x512, .f32⟩) main_call0_v8) (TRef.of (T := ⟨S8x1x512x512, .f32⟩) main_call0_v9) Host.log,
    TRef.unary (TRef.of (T := ⟨S8x1x512x512, .f32⟩) main_call0_v9) (TRef.of (T := ⟨S8x21x512x512, .f32⟩) main_call0_v10) (broadcastInDim S8x21x512x512 ![0, 1, 2, 3] bcast_S8x1x512x512_S8x21x512x512_0_1_2_3),
    TRef.binary (TRef.of (T := ⟨S8x21x512x512, .f32⟩) main_call0_v5) (TRef.of (T := ⟨S8x21x512x512, .f32⟩) main_call0_v10) (TRef.of (T := ⟨S8x21x512x512, .f32⟩) main_v0) subf ]

/-- The labels as a column, the first take-along-axis and its reshape (24 operations). -/
abbrev opsB : List (HloOp τ sig (Elt F)) :=
  [ unary main_arg2 main_v1 (broadcastInDim S8x1x512x512 ![0, 2, 3] bcast_S8x512x512_S8x1x512x512_0_2_3 : (⟨S8x512x512, .i32⟩ : BufTy).Contents (Elt F) → (⟨S8x1x512x512, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8x1x512x512, .i32⟩) main_call1_v0) (broadcastInDim S8x1x512x512 ![] bcast_S_S8x1x512x512),
    TRef.binary (TRef.of (T := ⟨S8x1x512x512, .i32⟩) main_v1) (TRef.of (T := ⟨S8x1x512x512, .i32⟩) main_call1_v0) (TRef.of (T := ⟨S8x1x512x512, .i1⟩) main_call1_v1) (cmpi .slt),
    TRef.nullary (TRef.of (T := ⟨S_, .i32⟩) main_call1_c_0) (constantI S_ 32 21#32),
    TRef.unary (TRef.of (T := ⟨S_, .i32⟩) main_call1_c_0) (TRef.of (T := ⟨S8x1x512x512, .i32⟩) main_call1_v2) (broadcastInDim S8x1x512x512 ![] bcast_S_S8x1x512x512),
    TRef.binary (TRef.of (T := ⟨S8x1x512x512, .i32⟩) main_v1) (TRef.of (T := ⟨S8x1x512x512, .i32⟩) main_call1_v2) (TRef.of (T := ⟨S8x1x512x512, .i32⟩) main_call1_v3) addi,
    TRef.ternary (TRef.of (T := ⟨S8x1x512x512, .i1⟩) main_call1_v1) (TRef.of (T := ⟨S8x1x512x512, .i32⟩) main_call1_v3) (TRef.of (T := ⟨S8x1x512x512, .i32⟩) main_v1) (TRef.of (T := ⟨S8x1x512x512, .i32⟩) main_call1_v4) select,
    TRef.reshape (TRef.of (T := ⟨S8x1x512x512, .i32⟩) main_call1_v4) (TRef.of (T := ⟨S8x1x512x512x1, .i32⟩) main_call1_v5) rfl shapeCasts_S8x1x512x512_S8x1x512x512x1,
    TRef.nullary (TRef.of (T := ⟨S1, .i32⟩) main_call1_c_1) (constantI S1 32 20#32),
    TRef.nullary (TRef.of (T := ⟨S_, .i32⟩) main_call1_c_2) (constantI S_ 32 0#32),
    TRef.unary (TRef.of (T := ⟨S_, .i32⟩) main_call1_c_2) (TRef.of (T := ⟨S8x1x512x512x1, .i32⟩) main_call1_v6) (broadcastInDim S8x1x512x512x1 ![] bcast_S_S8x1x512x512x1),
    TRef.binary (TRef.of (T := ⟨S8x1x512x512x1, .i32⟩) main_call1_v5) (TRef.of (T := ⟨S8x1x512x512x1, .i32⟩) main_call1_v6) (TRef.of (T := ⟨S8x1x512x512x1, .i1⟩) main_call1_v7) (cmpi .sge),
    TRef.unary (TRef.of (T := ⟨S1, .i32⟩) main_call1_c_1) (TRef.of (T := ⟨S1x1x1x1x1, .i32⟩) main_call1_v8) (broadcastInDim S1x1x1x1x1 ![4] bcast_S1_S1x1x1x1x1_4),
    TRef.unary (TRef.of (T := ⟨S1x1x1x1x1, .i32⟩) main_call1_v8) (TRef.of (T := ⟨S8x1x512x512x1, .i32⟩) main_call1_v9) (broadcastInDim S8x1x512x512x1 ![0, 1, 2, 3, 4] bcast_S1x1x1x1x1_S8x1x512x512x1_0_1_2_3_4),
    TRef.binary (TRef.of (T := ⟨S8x1x512x512x1, .i32⟩) main_call1_v5) (TRef.of (T := ⟨S8x1x512x512x1, .i32⟩) main_call1_v9) (TRef.of (T := ⟨S8x1x512x512x1, .i1⟩) main_call1_v10) (cmpi .sle),
    TRef.binary (TRef.of (T := ⟨S8x1x512x512x1, .i1⟩) main_call1_v7) (TRef.of (T := ⟨S8x1x512x512x1, .i1⟩) main_call1_v10) (TRef.of (T := ⟨S8x1x512x512x1, .i1⟩) main_call1_v11) andi,
    TRef.nullary (TRef.of (T := ⟨S_, .i1⟩) main_call1_c_3) (constantI S_ 1 1#1),
    TRef.binary (TRef.of (T := ⟨S8x1x512x512x1, .i1⟩) main_call1_v11) (TRef.of (T := ⟨S_, .i1⟩) main_call1_c_3) (TRef.of (T := ⟨S8x1x512x512, .i1⟩) main_call1_v12) (fun x v => Host.reduce IntOp.andi x v reducesTo_S8x1x512x512x1_S8x1x512x512_d4 h_S_),
    TRef.binary (TRef.of (T := ⟨S8x21x512x512, .f32⟩) main_v0) (TRef.of (T := ⟨S8x1x512x512x1, .i32⟩) main_call1_v5) (TRef.of (T := ⟨S8x1x512x512, .f32⟩) main_call1_v13) (fun x i => Host.gather gather_S8x21x512x512_S8x1x512x512x1_S8x1x512x512_n_1_023_023_1_4_1111 x i),
    TRef.nullary (TRef.of (T := ⟨S_, .f32⟩) main_call1_cst) (constant S_ .f32 0x7FC00000#32),
    TRef.unary (TRef.of (T := ⟨S_, .f32⟩) main_call1_cst) (TRef.of (T := ⟨S8x1x512x512, .f32⟩) main_call1_v14) (broadcastInDim S8x1x512x512 ![] bcast_S_S8x1x512x512),
    TRef.ternary (TRef.of (T := ⟨S8x1x512x512, .i1⟩) main_call1_v12) (TRef.of (T := ⟨S8x1x512x512, .f32⟩) main_call1_v13) (TRef.of (T := ⟨S8x1x512x512, .f32⟩) main_call1_v14) (TRef.of (T := ⟨S8x1x512x512, .f32⟩) main_v2) select,
    reshape main_v2 main_v3 rfl shapeCasts_S8x1x512x512_S8x512x512 ]

/-- The class-weight gather, the cross entropy, the focal term and the two means (28 operations). -/
abbrev opsC : List (HloOp τ sig (Elt F)) :=
  [ nullary main_c (constantI S_ 32 0#32),
    unary main_c main_v4 (broadcastInDim S8x512x512 ![] bcast_S_S8x512x512 : (⟨S_, .i32⟩ : BufTy).Contents (Elt F) → (⟨S8x512x512, .i32⟩ : BufTy).Contents (Elt F)),
    binary main_arg2 main_v4 main_v5 (cmpi .slt : (⟨S8x512x512, .i32⟩ : BufTy).Contents (Elt F) → (⟨S8x512x512, .i32⟩ : BufTy).Contents (Elt F) → (⟨S8x512x512, .i1⟩ : BufTy).Contents (Elt F)),
    nullary main_c_0 (constantI S_ 32 21#32),
    unary main_c_0 main_v6 (broadcastInDim S8x512x512 ![] bcast_S_S8x512x512 : (⟨S_, .i32⟩ : BufTy).Contents (Elt F) → (⟨S8x512x512, .i32⟩ : BufTy).Contents (Elt F)),
    binary main_arg2 main_v6 main_v7 (addi : (⟨S8x512x512, .i32⟩ : BufTy).Contents (Elt F) → (⟨S8x512x512, .i32⟩ : BufTy).Contents (Elt F) → (⟨S8x512x512, .i32⟩ : BufTy).Contents (Elt F)),
    ternary main_v5 main_v7 main_arg2 main_v8 (select : (⟨S8x512x512, .i1⟩ : BufTy).Contents (Elt F) → (⟨S8x512x512, .i32⟩ : BufTy).Contents (Elt F) → (⟨S8x512x512, .i32⟩ : BufTy).Contents (Elt F) → (⟨S8x512x512, .i32⟩ : BufTy).Contents (Elt F)),
    unary main_v8 main_v9 (broadcastInDim S8x512x512x1 ![0, 1, 2] bcast_S8x512x512_S8x512x512x1_0_1_2 : (⟨S8x512x512, .i32⟩ : BufTy).Contents (Elt F) → (⟨S8x512x512x1, .i32⟩ : BufTy).Contents (Elt F)),
    binary main_arg1 main_v9 main_v10 ((fun x i => Host.gather gather_S21_S8x512x512x1_S8x512x512_n_0_n_n_0_3_1 x i) : (⟨S21, .f32⟩ : BufTy).Contents (Elt F) → (⟨S8x512x512x1, .i32⟩ : BufTy).Contents (Elt F) → (⟨S8x512x512, .f32⟩ : BufTy).Contents (Elt F)),
    unary main_v10 main_v11 (Host.negf : (⟨S8x512x512, .f32⟩ : BufTy).Contents (Elt F) → (⟨S8x512x512, .f32⟩ : BufTy).Contents (Elt F)),
    binary main_v11 main_v3 main_v12 (mulf : (⟨S8x512x512, .f32⟩ : BufTy).Contents (Elt F) → (⟨S8x512x512, .f32⟩ : BufTy).Contents (Elt F) → (⟨S8x512x512, .f32⟩ : BufTy).Contents (Elt F)),
    unary main_v12 main_v13 (Host.negf : (⟨S8x512x512, .f32⟩ : BufTy).Contents (Elt F) → (⟨S8x512x512, .f32⟩ : BufTy).Contents (Elt F)),
    unary main_v13 main_v14 (Host.exp : (⟨S8x512x512, .f32⟩ : BufTy).Contents (Elt F) → (⟨S8x512x512, .f32⟩ : BufTy).Contents (Elt F)),
    nullary main_cst (constant S_ .f32 0x3F800000#32),
    unary main_cst main_v15 (broadcastInDim S8x512x512 ![] bcast_S_S8x512x512 : (⟨S_, .f32⟩ : BufTy).Contents (Elt F) → (⟨S8x512x512, .f32⟩ : BufTy).Contents (Elt F)),
    binary main_v15 main_v14 main_v16 (subf : (⟨S8x512x512, .f32⟩ : BufTy).Contents (Elt F) → (⟨S8x512x512, .f32⟩ : BufTy).Contents (Elt F) → (⟨S8x512x512, .f32⟩ : BufTy).Contents (Elt F)),
    nullary main_cst_1 (constant S_ .f32 0x40000000#32),
    unary main_cst_1 main_v17 (broadcastInDim S8x512x512 ![] bcast_S_S8x512x512 : (⟨S_, .f32⟩ : BufTy).Contents (Elt F) → (⟨S8x512x512, .f32⟩ : BufTy).Contents (Elt F)),
    binary main_v16 main_v17 main_v18 (Host.powf : (⟨S8x512x512, .f32⟩ : BufTy).Contents (Elt F) → (⟨S8x512x512, .f32⟩ : BufTy).Contents (Elt F) → (⟨S8x512x512, .f32⟩ : BufTy).Contents (Elt F)),
    binary main_v18 main_v12 main_v19 (mulf : (⟨S8x512x512, .f32⟩ : BufTy).Contents (Elt F) → (⟨S8x512x512, .f32⟩ : BufTy).Contents (Elt F) → (⟨S8x512x512, .f32⟩ : BufTy).Contents (Elt F)),
    nullary main_cst_2 (constant S_ .f32 0x00000000#32),
    binary main_v19 main_cst_2 main_v20 ((fun x v => Host.reduceAdd x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
    nullary main_cst_3 (constant S_ .f32 0x4A000000#32),
    binary main_v20 main_cst_3 main_v21 (Host.divf : (⟨S_, .f32⟩ : BufTy).Contents (Elt F) → (⟨S_, .f32⟩ : BufTy).Contents (Elt F) → (⟨S_, .f32⟩ : BufTy).Contents (Elt F)),
    nullary main_cst_4 (constant S_ .f32 0x00000000#32),
    binary main_v12 main_cst_4 main_v22 ((fun x v => Host.reduceAdd x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
    nullary main_cst_5 (constant S_ .f32 0x4A000000#32),
    binary main_v22 main_cst_5 main_v23 (Host.divf : (⟨S_, .f32⟩ : BufTy).Contents (Elt F) → (⟨S_, .f32⟩ : BufTy).Contents (Elt F) → (⟨S_, .f32⟩ : BufTy).Contents (Elt F)) ]

/-- The softmax, the second take-along-axis and its reshape (25 operations). -/
abbrev opsD : List (HloOp τ sig (Elt F)) :=
  [ unary main_v0 main_v24 (Host.exp : (⟨S8x21x512x512, .f32⟩ : BufTy).Contents (Elt F) → (⟨S8x21x512x512, .f32⟩ : BufTy).Contents (Elt F)),
    unary main_arg2 main_v25 (broadcastInDim S8x1x512x512 ![0, 2, 3] bcast_S8x512x512_S8x1x512x512_0_2_3 : (⟨S8x512x512, .i32⟩ : BufTy).Contents (Elt F) → (⟨S8x1x512x512, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S8x1x512x512, .i32⟩) main_call2_v0) (broadcastInDim S8x1x512x512 ![] bcast_S_S8x1x512x512),
    TRef.binary (TRef.of (T := ⟨S8x1x512x512, .i32⟩) main_v25) (TRef.of (T := ⟨S8x1x512x512, .i32⟩) main_call2_v0) (TRef.of (T := ⟨S8x1x512x512, .i1⟩) main_call2_v1) (cmpi .slt),
    TRef.nullary (TRef.of (T := ⟨S_, .i32⟩) main_call2_c_0) (constantI S_ 32 21#32),
    TRef.unary (TRef.of (T := ⟨S_, .i32⟩) main_call2_c_0) (TRef.of (T := ⟨S8x1x512x512, .i32⟩) main_call2_v2) (broadcastInDim S8x1x512x512 ![] bcast_S_S8x1x512x512),
    TRef.binary (TRef.of (T := ⟨S8x1x512x512, .i32⟩) main_v25) (TRef.of (T := ⟨S8x1x512x512, .i32⟩) main_call2_v2) (TRef.of (T := ⟨S8x1x512x512, .i32⟩) main_call2_v3) addi,
    TRef.ternary (TRef.of (T := ⟨S8x1x512x512, .i1⟩) main_call2_v1) (TRef.of (T := ⟨S8x1x512x512, .i32⟩) main_call2_v3) (TRef.of (T := ⟨S8x1x512x512, .i32⟩) main_v25) (TRef.of (T := ⟨S8x1x512x512, .i32⟩) main_call2_v4) select,
    TRef.reshape (TRef.of (T := ⟨S8x1x512x512, .i32⟩) main_call2_v4) (TRef.of (T := ⟨S8x1x512x512x1, .i32⟩) main_call2_v5) rfl shapeCasts_S8x1x512x512_S8x1x512x512x1,
    TRef.nullary (TRef.of (T := ⟨S1, .i32⟩) main_call2_c_1) (constantI S1 32 20#32),
    TRef.nullary (TRef.of (T := ⟨S_, .i32⟩) main_call2_c_2) (constantI S_ 32 0#32),
    TRef.unary (TRef.of (T := ⟨S_, .i32⟩) main_call2_c_2) (TRef.of (T := ⟨S8x1x512x512x1, .i32⟩) main_call2_v6) (broadcastInDim S8x1x512x512x1 ![] bcast_S_S8x1x512x512x1),
    TRef.binary (TRef.of (T := ⟨S8x1x512x512x1, .i32⟩) main_call2_v5) (TRef.of (T := ⟨S8x1x512x512x1, .i32⟩) main_call2_v6) (TRef.of (T := ⟨S8x1x512x512x1, .i1⟩) main_call2_v7) (cmpi .sge),
    TRef.unary (TRef.of (T := ⟨S1, .i32⟩) main_call2_c_1) (TRef.of (T := ⟨S1x1x1x1x1, .i32⟩) main_call2_v8) (broadcastInDim S1x1x1x1x1 ![4] bcast_S1_S1x1x1x1x1_4),
    TRef.unary (TRef.of (T := ⟨S1x1x1x1x1, .i32⟩) main_call2_v8) (TRef.of (T := ⟨S8x1x512x512x1, .i32⟩) main_call2_v9) (broadcastInDim S8x1x512x512x1 ![0, 1, 2, 3, 4] bcast_S1x1x1x1x1_S8x1x512x512x1_0_1_2_3_4),
    TRef.binary (TRef.of (T := ⟨S8x1x512x512x1, .i32⟩) main_call2_v5) (TRef.of (T := ⟨S8x1x512x512x1, .i32⟩) main_call2_v9) (TRef.of (T := ⟨S8x1x512x512x1, .i1⟩) main_call2_v10) (cmpi .sle),
    TRef.binary (TRef.of (T := ⟨S8x1x512x512x1, .i1⟩) main_call2_v7) (TRef.of (T := ⟨S8x1x512x512x1, .i1⟩) main_call2_v10) (TRef.of (T := ⟨S8x1x512x512x1, .i1⟩) main_call2_v11) andi,
    TRef.nullary (TRef.of (T := ⟨S_, .i1⟩) main_call2_c_3) (constantI S_ 1 1#1),
    TRef.binary (TRef.of (T := ⟨S8x1x512x512x1, .i1⟩) main_call2_v11) (TRef.of (T := ⟨S_, .i1⟩) main_call2_c_3) (TRef.of (T := ⟨S8x1x512x512, .i1⟩) main_call2_v12) (fun x v => Host.reduce IntOp.andi x v reducesTo_S8x1x512x512x1_S8x1x512x512_d4 h_S_),
    TRef.binary (TRef.of (T := ⟨S8x21x512x512, .f32⟩) main_v24) (TRef.of (T := ⟨S8x1x512x512x1, .i32⟩) main_call2_v5) (TRef.of (T := ⟨S8x1x512x512, .f32⟩) main_call2_v13) (fun x i => Host.gather gather_S8x21x512x512_S8x1x512x512x1_S8x1x512x512_n_1_023_023_1_4_1111 x i),
    TRef.nullary (TRef.of (T := ⟨S_, .f32⟩) main_call2_cst) (constant S_ .f32 0x7FC00000#32),
    TRef.unary (TRef.of (T := ⟨S_, .f32⟩) main_call2_cst) (TRef.of (T := ⟨S8x1x512x512, .f32⟩) main_call2_v14) (broadcastInDim S8x1x512x512 ![] bcast_S_S8x1x512x512),
    TRef.ternary (TRef.of (T := ⟨S8x1x512x512, .i1⟩) main_call2_v12) (TRef.of (T := ⟨S8x1x512x512, .f32⟩) main_call2_v13) (TRef.of (T := ⟨S8x1x512x512, .f32⟩) main_call2_v14) (TRef.of (T := ⟨S8x1x512x512, .f32⟩) main_v26) select,
    reshape main_v26 main_v27 rfl shapeCasts_S8x1x512x512_S8x512x512 ]

/-- The scatter-adds, the probability mass, the dice loss and the total (37 operations). -/
abbrev opsE : List (HloOp τ sig (Elt F)) :=
  [ reshape main_v27 main_v28 rfl shapeCasts_S8x512x512_S2097152,
    reshape main_arg2 main_v29 rfl shapeCasts_S8x512x512_S2097152,
    nullary main_cst_6 (constant S_ .f32 0x00000000#32),
    unary main_cst_6 main_v30 (broadcastInDim S21 ![] bcast_S_S21 : (⟨S_, .f32⟩ : BufTy).Contents (Elt F) → (⟨S21, .f32⟩ : BufTy).Contents (Elt F)),
    unary main_v29 main_v31 (broadcastInDim S2097152x1 ![0] bcast_S2097152_S2097152x1_0 : (⟨S2097152, .i32⟩ : BufTy).Contents (Elt F) → (⟨S2097152x1, .i32⟩ : BufTy).Contents (Elt F)),
    ternary main_v30 main_v31 main_v28 main_v32 ((fun x i u => Host.scatterAdd scatter_S21_S2097152x1_S2097152_n_0_0_1 x i u) : (⟨S21, .f32⟩ : BufTy).Contents (Elt F) → (⟨S2097152x1, .i32⟩ : BufTy).Contents (Elt F) → (⟨S2097152, .f32⟩ : BufTy).Contents (Elt F) → (⟨S21, .f32⟩ : BufTy).Contents (Elt F)),
    nullary main_cst_7 (constant S_ .f32 0x3F800000#32),
    unary main_cst_7 main_v33 (broadcastInDim S8x512x512 ![] bcast_S_S8x512x512 : (⟨S_, .f32⟩ : BufTy).Contents (Elt F) → (⟨S8x512x512, .f32⟩ : BufTy).Contents (Elt F)),
    reshape main_v33 main_v34 rfl shapeCasts_S8x512x512_S2097152,
    reshape main_arg2 main_v35 rfl shapeCasts_S8x512x512_S2097152,
    nullary main_cst_8 (constant S_ .f32 0x00000000#32),
    unary main_cst_8 main_v36 (broadcastInDim S21 ![] bcast_S_S21 : (⟨S_, .f32⟩ : BufTy).Contents (Elt F) → (⟨S21, .f32⟩ : BufTy).Contents (Elt F)),
    unary main_v35 main_v37 (broadcastInDim S2097152x1 ![0] bcast_S2097152_S2097152x1_0 : (⟨S2097152, .i32⟩ : BufTy).Contents (Elt F) → (⟨S2097152x1, .i32⟩ : BufTy).Contents (Elt F)),
    ternary main_v36 main_v37 main_v34 main_v38 ((fun x i u => Host.scatterAdd scatter_S21_S2097152x1_S2097152_n_0_0_1 x i u) : (⟨S21, .f32⟩ : BufTy).Contents (Elt F) → (⟨S2097152x1, .i32⟩ : BufTy).Contents (Elt F) → (⟨S2097152, .f32⟩ : BufTy).Contents (Elt F) → (⟨S21, .f32⟩ : BufTy).Contents (Elt F)),
    nullary main_cst_9 (constant S_ .f32 0x00000000#32),
    binary main_v24 main_cst_9 main_v39 ((fun x v => Host.reduceAdd x v reducesTo_S8x21x512x512_S21_d0_2_3 h_S_) : (⟨S8x21x512x512, .f32⟩ : BufTy).Contents (Elt F) → (⟨S_, .f32⟩ : BufTy).Contents (Elt F) → (⟨S21, .f32⟩ : BufTy).Contents (Elt F)),
    binary main_v39 main_v38 main_v40 (addf : (⟨S21, .f32⟩ : BufTy).Contents (Elt F) → (⟨S21, .f32⟩ : BufTy).Contents (Elt F) → (⟨S21, .f32⟩ : BufTy).Contents (Elt F)),
    nullary main_cst_10 (constant S_ .f32 0x40000000#32),
    unary main_cst_10 main_v41 (broadcastInDim S21 ![] bcast_S_S21 : (⟨S_, .f32⟩ : BufTy).Contents (Elt F) → (⟨S21, .f32⟩ : BufTy).Contents (Elt F)),
    binary main_v41 main_v32 main_v42 (mulf : (⟨S21, .f32⟩ : BufTy).Contents (Elt F) → (⟨S21, .f32⟩ : BufTy).Contents (Elt F) → (⟨S21, .f32⟩ : BufTy).Contents (Elt F)),
    nullary main_cst_11 (constant S_ .f32 0x358637BD#32),
    unary main_cst_11 main_v43 (broadcastInDim S21 ![] bcast_S_S21 : (⟨S_, .f32⟩ : BufTy).Contents (Elt F) → (⟨S21, .f32⟩ : BufTy).Contents (Elt F)),
    binary main_v42 main_v43 main_v44 (addf : (⟨S21, .f32⟩ : BufTy).Contents (Elt F) → (⟨S21, .f32⟩ : BufTy).Contents (Elt F) → (⟨S21, .f32⟩ : BufTy).Contents (Elt F)),
    nullary main_cst_12 (constant S_ .f32 0x358637BD#32),
    unary main_cst_12 main_v45 (broadcastInDim S21 ![] bcast_S_S21 : (⟨S_, .f32⟩ : BufTy).Contents (Elt F) → (⟨S21, .f32⟩ : BufTy).Contents (Elt F)),
    binary main_v40 main_v45 main_v46 (addf : (⟨S21, .f32⟩ : BufTy).Contents (Elt F) → (⟨S21, .f32⟩ : BufTy).Contents (Elt F) → (⟨S21, .f32⟩ : BufTy).Contents (Elt F)),
    binary main_v44 main_v46 main_v47 (Host.divf : (⟨S21, .f32⟩ : BufTy).Contents (Elt F) → (⟨S21, .f32⟩ : BufTy).Contents (Elt F) → (⟨S21, .f32⟩ : BufTy).Contents (Elt F)),
    nullary main_cst_13 (constant S_ .f32 0x3F800000#32),
    unary main_cst_13 main_v48 (broadcastInDim S21 ![] bcast_S_S21 : (⟨S_, .f32⟩ : BufTy).Contents (Elt F) → (⟨S21, .f32⟩ : BufTy).Contents (Elt F)),
    binary main_v48 main_v47 main_v49 (subf : (⟨S21, .f32⟩ : BufTy).Contents (Elt F) → (⟨S21, .f32⟩ : BufTy).Contents (Elt F) → (⟨S21, .f32⟩ : BufTy).Contents (Elt F)),
    nullary main_cst_14 (constant S_ .f32 0x00000000#32),
    binary main_v49 main_cst_14 main_v50 ((fun x v => Host.reduceAdd x v reducesTo_S21_S_d0 h_S_) : (⟨S21, .f32⟩ : BufTy).Contents (Elt F) → (⟨S_, .f32⟩ : BufTy).Contents (Elt F) → (⟨S_, .f32⟩ : BufTy).Contents (Elt F)),
    nullary main_cst_15 (constant S_ .f32 0x41A80000#32),
    binary main_v50 main_cst_15 main_v51 (Host.divf : (⟨S_, .f32⟩ : BufTy).Contents (Elt F) → (⟨S_, .f32⟩ : BufTy).Contents (Elt F) → (⟨S_, .f32⟩ : BufTy).Contents (Elt F)),
    nullary main_cst_16 (constant S_ .f32 0x3F000000#32),
    binary main_cst_16 main_v51 main_v52 (mulf : (⟨S_, .f32⟩ : BufTy).Contents (Elt F) → (⟨S_, .f32⟩ : BufTy).Contents (Elt F) → (⟨S_, .f32⟩ : BufTy).Contents (Elt F)),
    binary main_v21 main_v52 main_v53 (addf : (⟨S_, .f32⟩ : BufTy).Contents (Elt F) → (⟨S_, .f32⟩ : BufTy).Contents (Elt F) → (⟨S_, .f32⟩ : BufTy).Contents (Elt F)) ]

set_option maxRecDepth 65536 in
/-- The operation list is the five stretches in order. -/
theorem ops_split : (ops : List (HloOp τ sig (Elt F))) = opsA ++ (opsB ++ (opsC ++ (opsD ++ opsE))) := rfl

/-! ## Typed references at literal buffers

A called function's operations read and write their buffers through typed references; where such an operation
meets one of @main's own (a call's argument or result), the transport along the literal reference's type is left
over, and it is the identity. -/

theorem ofBuf_v0 (h1 : main_v0.ty = (⟨S8x21x512x512, .f32⟩ : BufTy)) (h2 h3) (v : main_v0.ty.Contents (Elt F)) : (TRef.of (T := ⟨S8x21x512x512, .f32⟩) main_v0 h1 h2 h3).ofBuf v = v := rfl
theorem ofBuf_v1 (h1 : main_v1.ty = (⟨S8x1x512x512, .i32⟩ : BufTy)) (h2 h3) (v : main_v1.ty.Contents (Elt F)) : (TRef.of (T := ⟨S8x1x512x512, .i32⟩) main_v1 h1 h2 h3).ofBuf v = v := rfl
theorem ofBuf_c1v5 (h1 : main_call1_v5.ty = (⟨S8x1x512x512x1, .i32⟩ : BufTy)) (h2 h3) (v : main_call1_v5.ty.Contents (Elt F)) : (TRef.of (T := ⟨S8x1x512x512x1, .i32⟩) main_call1_v5 h1 h2 h3).ofBuf v = v := rfl
theorem toBuf_c1v4 (h1 : main_call1_v4.ty = (⟨S8x1x512x512, .i32⟩ : BufTy)) (h2 h3) (v : (⟨S8x1x512x512, .i32⟩ : BufTy).Contents (Elt F)) : (TRef.of (T := ⟨S8x1x512x512, .i32⟩) main_call1_v4 h1 h2 h3).toBuf v = v := rfl
theorem toBuf_v2 (h1 : main_v2.ty = (⟨S8x1x512x512, .f32⟩ : BufTy)) (h2 h3) (v : (⟨S8x1x512x512, .f32⟩ : BufTy).Contents (Elt F)) : (TRef.of (T := ⟨S8x1x512x512, .f32⟩) main_v2 h1 h2 h3).toBuf v = v := rfl
theorem ofBuf_v24 (h1 : main_v24.ty = (⟨S8x21x512x512, .f32⟩ : BufTy)) (h2 h3) (v : main_v24.ty.Contents (Elt F)) : (TRef.of (T := ⟨S8x21x512x512, .f32⟩) main_v24 h1 h2 h3).ofBuf v = v := rfl
theorem ofBuf_v25 (h1 : main_v25.ty = (⟨S8x1x512x512, .i32⟩ : BufTy)) (h2 h3) (v : main_v25.ty.Contents (Elt F)) : (TRef.of (T := ⟨S8x1x512x512, .i32⟩) main_v25 h1 h2 h3).ofBuf v = v := rfl
theorem ofBuf_c2v5 (h1 : main_call2_v5.ty = (⟨S8x1x512x512x1, .i32⟩ : BufTy)) (h2 h3) (v : main_call2_v5.ty.Contents (Elt F)) : (TRef.of (T := ⟨S8x1x512x512x1, .i32⟩) main_call2_v5 h1 h2 h3).ofBuf v = v := rfl
theorem toBuf_c2v4 (h1 : main_call2_v4.ty = (⟨S8x1x512x512, .i32⟩ : BufTy)) (h2 h3) (v : (⟨S8x1x512x512, .i32⟩ : BufTy).Contents (Elt F)) : (TRef.of (T := ⟨S8x1x512x512, .i32⟩) main_call2_v4 h1 h2 h3).toBuf v = v := rfl
theorem toBuf_v26 (h1 : main_v26.ty = (⟨S8x1x512x512, .f32⟩ : BufTy)) (h2 h3) (v : (⟨S8x1x512x512, .f32⟩ : BufTy).Contents (Elt F)) : (TRef.of (T := ⟨S8x1x512x512, .f32⟩) main_v26 h1 h2 h3).toBuf v = v := rfl

abbrev Val := Valuation τ sig (Elt F)

/-! ## Stretch A -/
section A
variable (V : Valuation τ sig (Elt F))
theorem A_v0 : after opsA V (Proc.devRef .tc main_v0) = val_main_v0 (V (Proc.devRef .tc main_arg0)) := by
  after_results_simp
  simp only [ofBuf_toBuf]
  rfl
theorem A_arg0 : after opsA V (Proc.devRef .tc main_arg0) = V (Proc.devRef .tc main_arg0) := by
  after_results_simp
theorem A_arg1 : after opsA V (Proc.devRef .tc main_arg1) = V (Proc.devRef .tc main_arg1) := by
  after_results_simp
theorem A_arg2 : after opsA V (Proc.devRef .tc main_arg2) = V (Proc.devRef .tc main_arg2) := by
  after_results_simp
end A

/-! ## Stretch B -/
section B
variable (V : Valuation τ sig (Elt F))
theorem B_v3 (X : (⟨S8x21x512x512, .f32⟩ : BufTy).Contents (Elt F)) (h0 : V (Proc.devRef .tc main_v0) = val_main_v0 X) :
    after opsB V (Proc.devRef .tc main_v3) = val_main_v3 X (V (Proc.devRef .tc main_arg2)) := by
  after_results_simp
  simp only [ofBuf_toBuf, h0, ofBuf_v0, ofBuf_v1, ofBuf_c1v5, toBuf_c1v4, toBuf_v2]
  rfl
theorem B_v0 : after opsB V (Proc.devRef .tc main_v0) = V (Proc.devRef .tc main_v0) := by
  after_results_simp
theorem B_arg0 : after opsB V (Proc.devRef .tc main_arg0) = V (Proc.devRef .tc main_arg0) := by
  after_results_simp
theorem B_arg1 : after opsB V (Proc.devRef .tc main_arg1) = V (Proc.devRef .tc main_arg1) := by
  after_results_simp
theorem B_arg2 : after opsB V (Proc.devRef .tc main_arg2) = V (Proc.devRef .tc main_arg2) := by
  after_results_simp
end B

/-! ## Stretch C -/
section C
variable (V : Valuation τ sig (Elt F))
  (X : (⟨S8x21x512x512, .f32⟩ : BufTy).Contents (Elt F)) (CW : (⟨S21, .f32⟩ : BufTy).Contents (Elt F)) (TG : (⟨S8x512x512, .i32⟩ : BufTy).Contents (Elt F))
theorem C_v21 (h1 : V (Proc.devRef .tc main_arg1) = CW) (h2 : V (Proc.devRef .tc main_arg2) = TG) (h3 : V (Proc.devRef .tc main_v3) = val_main_v3 X TG) :
    after opsC V (Proc.devRef .tc main_v21) = val_main_v21 X CW TG := by
  after_results_simp
  simp only [h1, h2, h3]
  rfl
theorem C_v23 (h1 : V (Proc.devRef .tc main_arg1) = CW) (h2 : V (Proc.devRef .tc main_arg2) = TG) (h3 : V (Proc.devRef .tc main_v3) = val_main_v3 X TG) :
    after opsC V (Proc.devRef .tc main_v23) = val_main_v23 X CW TG := by
  after_results_simp
  simp only [h1, h2, h3]
  rfl
theorem C_v0 : after opsC V (Proc.devRef .tc main_v0) = V (Proc.devRef .tc main_v0) := by
  after_results_simp
theorem C_arg0 : after opsC V (Proc.devRef .tc main_arg0) = V (Proc.devRef .tc main_arg0) := by
  after_results_simp
theorem C_arg1 : after opsC V (Proc.devRef .tc main_arg1) = V (Proc.devRef .tc main_arg1) := by
  after_results_simp
theorem C_arg2 : after opsC V (Proc.devRef .tc main_arg2) = V (Proc.devRef .tc main_arg2) := by
  after_results_simp
end C

/-! ## Stretch D -/
section D
variable (V : Valuation τ sig (Elt F))
  (X : (⟨S8x21x512x512, .f32⟩ : BufTy).Contents (Elt F)) (TG : (⟨S8x512x512, .i32⟩ : BufTy).Contents (Elt F))
theorem D_v24 (h0 : V (Proc.devRef .tc main_v0) = val_main_v0 X) : after opsD V (Proc.devRef .tc main_v24) = val_main_v24 X := by
  after_results_simp
  simp only [h0]
  rfl
theorem D_v27 (h0 : V (Proc.devRef .tc main_v0) = val_main_v0 X) (h2 : V (Proc.devRef .tc main_arg2) = TG) : after opsD V (Proc.devRef .tc main_v27) = val_main_v27 X TG := by
  after_results_simp
  simp only [ofBuf_toBuf, h0, h2, ofBuf_v24, ofBuf_v25, ofBuf_c2v5, toBuf_c2v4, toBuf_v26]
  rfl
theorem D_v21 : after opsD V (Proc.devRef .tc main_v21) = V (Proc.devRef .tc main_v21) := by
  after_results_simp
theorem D_v23 : after opsD V (Proc.devRef .tc main_v23) = V (Proc.devRef .tc main_v23) := by
  after_results_simp
theorem D_arg0 : after opsD V (Proc.devRef .tc main_arg0) = V (Proc.devRef .tc main_arg0) := by
  after_results_simp
theorem D_arg1 : after opsD V (Proc.devRef .tc main_arg1) = V (Proc.devRef .tc main_arg1) := by
  after_results_simp
theorem D_arg2 : after opsD V (Proc.devRef .tc main_arg2) = V (Proc.devRef .tc main_arg2) := by
  after_results_simp
end D

/-! ## Stretch E -/
section E
variable (V : Valuation τ sig (Elt F))
  (X : (⟨S8x21x512x512, .f32⟩ : BufTy).Contents (Elt F)) (CW : (⟨S21, .f32⟩ : BufTy).Contents (Elt F)) (TG : (⟨S8x512x512, .i32⟩ : BufTy).Contents (Elt F))
theorem E_v53 (h2 : V (Proc.devRef .tc main_arg2) = TG) (h21 : V (Proc.devRef .tc main_v21) = val_main_v21 X CW TG) (h24 : V (Proc.devRef .tc main_v24) = val_main_v24 X)
    (h27 : V (Proc.devRef .tc main_v27) = val_main_v27 X TG) : after opsE V (Proc.devRef .tc main_v53) = val_main_v53 X CW TG := by
  after_results_simp
  simp only [h2, h21, h24, h27]
  rfl
theorem E_v51 (h2 : V (Proc.devRef .tc main_arg2) = TG) (h24 : V (Proc.devRef .tc main_v24) = val_main_v24 X)
    (h27 : V (Proc.devRef .tc main_v27) = val_main_v27 X TG) : after opsE V (Proc.devRef .tc main_v51) = val_main_v51 X TG := by
  after_results_simp
  simp only [h2, h24, h27]
  rfl
theorem E_v23 : after opsE V (Proc.devRef .tc main_v23) = V (Proc.devRef .tc main_v23) := by
  after_results_simp
theorem E_arg0 : after opsE V (Proc.devRef .tc main_arg0) = V (Proc.devRef .tc main_arg0) := by
  after_results_simp
theorem E_arg1 : after opsE V (Proc.devRef .tc main_arg1) = V (Proc.devRef .tc main_arg1) := by
  after_results_simp
theorem E_arg2 : after opsE V (Proc.devRef .tc main_arg2) = V (Proc.devRef .tc main_arg2) := by
  after_results_simp
end E

/-! ## The whole list -/

section Whole
variable (V : Valuation τ sig (Elt F))

/-- After the whole list the three results hold their stage functions of the three arguments as `V` has them, and the arguments are kept. -/
theorem after_ops :
    after ops V (Proc.devRef .tc main_v53) = val_main_v53 (V (Proc.devRef .tc main_arg0)) (V (Proc.devRef .tc main_arg1)) (V (Proc.devRef .tc main_arg2))
    ∧ after ops V (Proc.devRef .tc main_v23) = val_main_v23 (V (Proc.devRef .tc main_arg0)) (V (Proc.devRef .tc main_arg1)) (V (Proc.devRef .tc main_arg2))
    ∧ after ops V (Proc.devRef .tc main_v51) = val_main_v51 (V (Proc.devRef .tc main_arg0)) (V (Proc.devRef .tc main_arg2))
    ∧ after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2) := by
  rw [ops_split, StableHlo.after_append, StableHlo.after_append, StableHlo.after_append, StableHlo.after_append]
  -- the contents after each stretch
  have a0 := A_v0 V
  have a2 := A_arg2 V
  have a1 := A_arg1 V
  have aX := A_arg0 V
  have b3 := B_v3 (after opsA V) _ a0
  have b0 := (B_v0 (after opsA V)).trans a0
  have b2 := (B_arg2 (after opsA V)).trans a2
  have b1 := (B_arg1 (after opsA V)).trans a1
  have bX := (B_arg0 (after opsA V)).trans aX
  rw [a2] at b3
  have c21 := C_v21 (after opsB (after opsA V)) _ _ _ b1 b2 b3
  have c23 := C_v23 (after opsB (after opsA V)) _ _ _ b1 b2 b3
  have c0 := (C_v0 (after opsB (after opsA V))).trans b0
  have c2 := (C_arg2 (after opsB (after opsA V))).trans b2
  have c1 := (C_arg1 (after opsB (after opsA V))).trans b1
  have cX := (C_arg0 (after opsB (after opsA V))).trans bX
  have d24 := D_v24 (after opsC (after opsB (after opsA V))) _ c0
  have d27 := D_v27 (after opsC (after opsB (after opsA V))) _ _ c0 c2
  have d21 := (D_v21 (after opsC (after opsB (after opsA V)))).trans c21
  have d23 := (D_v23 (after opsC (after opsB (after opsA V)))).trans c23
  have d2 := (D_arg2 (after opsC (after opsB (after opsA V)))).trans c2
  have d1 := (D_arg1 (after opsC (after opsB (after opsA V)))).trans c1
  have dX := (D_arg0 (after opsC (after opsB (after opsA V)))).trans cX
  exact ⟨E_v53 (after opsD (after opsC (after opsB (after opsA V)))) _ _ _ d2 d21 d24 d27,
    (E_v23 (after opsD (after opsC (after opsB (after opsA V))))).trans d23,
    E_v51 (after opsD (after opsC (after opsB (after opsA V)))) _ _ d2 d24 d27,
    (E_arg0 (after opsD (after opsC (after opsB (after opsA V))))).trans dX,
    (E_arg1 (after opsD (after opsC (after opsB (after opsA V))))).trans d1,
    (E_arg2 (after opsD (after opsC (after opsB (after opsA V))))).trans d2⟩

end Whole

/-- On every device, for any float values, from any memory with zero counters: every weakly fair execution of @main
    terminates with the three results at their stage functions of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = val_main_v53 (F := F) (m ((c.tc : Thread nD τ).loc main_arg0)) (m ((c.tc : Thread nD τ).loc main_arg1)) (m ((c.tc : Thread nD τ).loc main_arg2))
      ∧ r.2.mem ((c.tc : Thread nD τ).loc main_v23) = val_main_v23 (F := F) (m ((c.tc : Thread nD τ).loc main_arg0)) (m ((c.tc : Thread nD τ).loc main_arg1)) (m ((c.tc : Thread nD τ).loc main_arg2))
      ∧ r.2.mem ((c.tc : Thread nD τ).loc main_v51) = val_main_v51 (F := F) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have w := after_ops (F := F) (launchContents m c)
    ⟨(h c main_v53).trans w.1, (h c main_v23).trans w.2.1, (h c main_v51).trans w.2.2.1,
     (h c main_arg0).trans w.2.2.2.1, (h c main_arg1).trans w.2.2.2.2.1, (h c main_arg2).trans w.2.2.2.2.2⟩)
    (run_seq scopedRefs_eq scopedSems_eq defs main (fun _ => ops) main_eq (fun _ => ops_sub) m ρ)

end Cert.ReferenceIdeal.RunP

end
-- ==== Proof.RefPixel.lean ====
/-
  The reference's per-pixel stages read at an index.

  At pixel (n, h, w) with logits x = (X (n, c, h, w))_c and a label t below 21 of class k:
  log_softmax at channel c is x_c - M - log (sum_c e^{x_c - M}) with M the largest logit (the maximum folded from -∞,
  once more against -∞); the class-weight gather reads the table at k (a label in [0, 21) passes the negative-index
  select and the clamp unchanged); take_along_axis reads its operand at channel k (its range test 0 ≤ t ≤ 20 holds, so
  the fill value is never selected); the cross entropy is (-w_k) · log p_k, the focal term (1 - e^{-ce})^2 · ce with
  the literals 1 and 2 read as reals, and the softmax e^{log p_c}.
-/
import proofs.«419937_j16037407883832_3_alg».proof.Proof.RefRead
import proofs.«419937_j16037407883832_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.ReferenceIdeal.RefValue

open Cert.ReferenceIdeal Cert.ReferenceIdeal.ReadP Cert.ReferenceIdeal.Gen Cert.SegLoss Idealize.ShloMosaic Idealize.ShloMosaic.ValueIdx

/-! ## The float literals the reference spells -/

theorem ofBits_ninf : Ideal.ofBits .f32 0xFF800000#32 = ⊥ := by
  simp [Ideal.ofBits, Ideal.ieee]

theorem ofBits_two : Ideal.ofBits .f32 0x40000000#32 = ((2 : ℝ) : EReal) := by
  simp [Ideal.ofBits, Ideal.ieee, -EReal.coe_mul]; norm_num

/-! ## A label below 21: the negative-index select, the range test and the clamp all leave it alone -/

section Labels

variable {t : BitVec 32}

theorem label_norm (ht : t.toNat < 21) :
    Scalar.select (IntOp.cmpi .slt t 0#32) (IntOp.addi t 21#32) t = t := by
  have h : IntOp.cmpi .slt t 0#32 ≠ 1#1 := fun h => by
    have := (StableHlo.Predicate.slt_iff_toNat (a := t) (b := 0#32) (by omega) (by decide)).mp h
    simp at this
  rw [eq_zero_of_ne_one h, select_zero]

theorem label_ge (ht : t.toNat < 21) : IntOp.cmpi .sge t 0#32 = 1#1 :=
  (StableHlo.Predicate.sge_iff_toNat (a := t) (b := 0#32) (by omega) (by decide)).mpr (by simp)

theorem label_le (ht : t.toNat < 21) : IntOp.cmpi .sle t 20#32 = 1#1 :=
  (StableHlo.Predicate.sle_iff_toNat (a := t) (b := 20#32) (by omega) (by decide)).mpr (by
    have : (20#32 : BitVec 32).toNat = 20 := by decide
    omega)

theorem label_clamp (ht : t.toNat < 21) : min t.toInt.toNat 20 = (cls t).val := by
  rw [StableHlo.Predicate.toInt_eq_toNat_of_lt (a := t) (by omega), Int.toNat_natCast, cls_val_of_lt ht]
  omega

end Labels

/-! ## The two gathers read at an index -/

/-- The class-weight gather: the table at the start index of pixel (n, h, w), read signed and clamped into [0, 20]. -/
theorem gatherW_apply {α : Type} (x : S21.Idx → α) (idx : IVec S8x512x512x1 32) (n : Fin 8) (h w : Fin 512) :
    Host.gather gather_S21_S8x512x512x1_S8x512x512_n_0_n_n_0_3_1 x idx (ix3 n h w)
      = x (ix1 ⟨min (idx (ix4 n h w (0 : Fin 1))).toInt.toNat 20, by omega⟩) := by
  unfold Host.gather
  refine congrArg x ?_
  funext a
  obtain rfl : a = 0 := Subsingleton.elim _ _
  refine Fin.ext ?_
  show gather_S21_S8x512x512x1_S8x512x512_n_0_n_n_0_3_1.start (ix3 n h w) idx 0
      + gather_S21_S8x512x512x1_S8x512x512_n_0_n_n_0_3_1.batchCoord (ix3 n h w) 0
      + gather_S21_S8x512x512x1_S8x512x512_n_0_n_n_0_3_1.offCoord (ix3 n h w) 0 = _
  rw [GatherDims.batchCoord_eq_zero _ _ _ List.not_mem_nil,
    GatherDims.offCoord_eq_zero _ _ _ (fun hh => ((GatherDims.mem_sKept _ _).mp hh).1 (List.mem_singleton.mpr rfl))]
  simp only [Nat.add_zero]
  unfold GatherDims.start
  rw [dif_pos (show (0 : Fin 1) ∈ gather_S21_S8x512x512x1_S8x512x512_n_0_n_n_0_3_1.startIndexMap from
    List.mem_singleton.mpr rfl)]
  have hsi : gather_S21_S8x512x512x1_S8x512x512_n_0_n_n_0_3_1.siIdx (ix3 n h w)
      ⟨List.idxOf (0 : Fin 1) gather_S21_S8x512x512x1_S8x512x512_n_0_n_n_0_3_1.startIndexMap,
        List.idxOf_lt_length_iff.2 (List.mem_singleton.mpr rfl)⟩ = ix4 n h w (0 : Fin 1) := by
    funext b; refine Fin.ext ?_
    match b with
    | ⟨0, _⟩ => rfl
    | ⟨1, _⟩ => rfl
    | ⟨2, _⟩ => rfl
    | ⟨3, _⟩ => rfl
  rw [hsi]
  rfl

/-- The batched gather of take_along_axis: operand (n, ·, h, w) at the channel the start index of (n, 0, h, w) names,
    read signed and clamped into [0, 20]. -/
theorem gatherB_apply {α : Type} (A : S8x21x512x512.Idx → α) (idx : IVec S8x1x512x512x1 32) (n : Fin 8) (h w : Fin 512) :
    Host.gather gather_S8x21x512x512_S8x1x512x512x1_S8x1x512x512_n_1_023_023_1_4_1111 A idx (ix4 n (0 : Fin 1) h w)
      = A (ix4 n ⟨min (idx (ix5 n (0 : Fin 1) h w (0 : Fin 1))).toInt.toNat 20, by omega⟩ h w) := by
  unfold Host.gather
  refine congrArg A ?_
  funext a
  refine Fin.ext ?_
  show gather_S8x21x512x512_S8x1x512x512x1_S8x1x512x512_n_1_023_023_1_4_1111.start (ix4 n (0 : Fin 1) h w) idx a
      + gather_S8x21x512x512_S8x1x512x512x1_S8x1x512x512_n_1_023_023_1_4_1111.batchCoord (ix4 n (0 : Fin 1) h w) a
      + gather_S8x21x512x512_S8x1x512x512x1_S8x1x512x512_n_1_023_023_1_4_1111.offCoord (ix4 n (0 : Fin 1) h w) a = _
  match a with
  | ⟨0, _⟩ =>
    have h1 : gather_S8x21x512x512_S8x1x512x512x1_S8x1x512x512_n_1_023_023_1_4_1111.start (ix4 n (0 : Fin 1) h w) idx ⟨0, by decide⟩ = 0 := rfl
    have h2 : gather_S8x21x512x512_S8x1x512x512x1_S8x1x512x512_n_1_023_023_1_4_1111.batchCoord (ix4 n (0 : Fin 1) h w) ⟨0, by decide⟩ = n.val := rfl
    have h3 : gather_S8x21x512x512_S8x1x512x512x1_S8x1x512x512_n_1_023_023_1_4_1111.offCoord (ix4 n (0 : Fin 1) h w) ⟨0, by decide⟩ = 0 := rfl
    rw [h1, h2, h3, Nat.zero_add, Nat.add_zero]
  | ⟨1, _⟩ =>
    have h2 : gather_S8x21x512x512_S8x1x512x512x1_S8x1x512x512_n_1_023_023_1_4_1111.batchCoord (ix4 n (0 : Fin 1) h w) ⟨1, by decide⟩ = 0 := rfl
    have h3 : gather_S8x21x512x512_S8x1x512x512x1_S8x1x512x512_n_1_023_023_1_4_1111.offCoord (ix4 n (0 : Fin 1) h w) ⟨1, by decide⟩ = 0 := rfl
    rw [h2, h3]
    simp only [Nat.add_zero]
    unfold GatherDims.start
    rw [dif_pos (show (⟨1, by decide⟩ : Fin 4) ∈ gather_S8x21x512x512_S8x1x512x512x1_S8x1x512x512_n_1_023_023_1_4_1111.startIndexMap from
      List.mem_singleton.mpr rfl)]
    have hsi : gather_S8x21x512x512_S8x1x512x512x1_S8x1x512x512_n_1_023_023_1_4_1111.siIdx (ix4 n (0 : Fin 1) h w)
        ⟨List.idxOf (⟨1, by decide⟩ : Fin 4) gather_S8x21x512x512_S8x1x512x512x1_S8x1x512x512_n_1_023_023_1_4_1111.startIndexMap,
          List.idxOf_lt_length_iff.2 (List.mem_singleton.mpr rfl)⟩ = ix5 n (0 : Fin 1) h w (0 : Fin 1) := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    rfl
  | ⟨2, _⟩ =>
    have h1 : gather_S8x21x512x512_S8x1x512x512x1_S8x1x512x512_n_1_023_023_1_4_1111.start (ix4 n (0 : Fin 1) h w) idx ⟨2, by decide⟩ = 0 := rfl
    have h2 : gather_S8x21x512x512_S8x1x512x512x1_S8x1x512x512_n_1_023_023_1_4_1111.batchCoord (ix4 n (0 : Fin 1) h w) ⟨2, by decide⟩ = h.val := rfl
    have h3 : gather_S8x21x512x512_S8x1x512x512x1_S8x1x512x512_n_1_023_023_1_4_1111.offCoord (ix4 n (0 : Fin 1) h w) ⟨2, by decide⟩ = 0 := rfl
    rw [h1, h2, h3, Nat.zero_add, Nat.add_zero]
  | ⟨3, _⟩ =>
    have h1 : gather_S8x21x512x512_S8x1x512x512x1_S8x1x512x512_n_1_023_023_1_4_1111.start (ix4 n (0 : Fin 1) h w) idx ⟨3, by decide⟩ = 0 := rfl
    have h2 : gather_S8x21x512x512_S8x1x512x512x1_S8x1x512x512_n_1_023_023_1_4_1111.batchCoord (ix4 n (0 : Fin 1) h w) ⟨3, by decide⟩ = w.val := rfl
    have h3 : gather_S8x21x512x512_S8x1x512x512x1_S8x1x512x512_n_1_023_023_1_4_1111.offCoord (ix4 n (0 : Fin 1) h w) ⟨3, by decide⟩ = 0 := rfl
    rw [h1, h2, h3, Nat.zero_add, Nat.add_zero]

/-! ## The two reductions read at an index -/

/-- A fold over a one-element index set is one application. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- The conjunction over the unit axis is the one entry, and-ed onto the initial value. -/
theorem reduceAnd_unit_apply (p : S8x1x512x512x1.Idx → BitVec 1) (init : S_.Idx → BitVec 1)
    (h' : S8x1x512x512x1.ReducesTo [4] S8x1x512x512) (hu : 0 < S_.numel) (n : Fin 8) (h w : Fin 512) :
    Host.reduce IntOp.andi p init h' hu (ix4 n (0 : Fin 1) h w)
      = IntOp.andi (p (ix5 n (0 : Fin 1) h w (0 : Fin 1))) (init (Shape.Idx.first hu)) := by
  have hr : S8x1x512x512x1.Reduces [4] S8x1x512x512 := by decide
  refine (Host.reduce_eq_fold_single IntOp.andi p init h' hr hu _).trans ?_
  refine (fold_fin_one IntOp.andi (init (Shape.Idx.first hu)) (fun k => p (hr.lift (ix4 n (0 : Fin 1) h w) k))).trans ?_
  refine congrArg (fun q => IntOp.andi (p q) (init (Shape.Idx.first hu))) ?_
  funext b; refine Fin.ext ?_
  match b with
  | ⟨0, _⟩ => rfl
  | ⟨1, _⟩ => rfl
  | ⟨2, _⟩ => rfl
  | ⟨3, _⟩ => rfl
  | ⟨4, _⟩ => rfl

/-- The maximum over the channel axis from the initial value is the fold of max over the pixel's 21 logits. -/
theorem reduceMax_apply (X : S8x21x512x512.Idx → EReal) (init : S_.Idx → EReal)
    (h' : S8x21x512x512.ReducesTo [1] S8x512x512) (hu : 0 < S_.numel) (n : Fin 8) (h w : Fin 512) :
    Host.reduce (FloatOps.maximumf (F := Ideal) (φ := .f32)) X init h' hu (ix3 n h w)
      = (Finset.univ : Finset (Fin 21)).fold max (init (Shape.Idx.first hu)) (px X n h w) := by
  have hr : S8x21x512x512.Reduces [1] S8x512x512 := by decide
  rw [Host.reduce_eq_fold_single (FloatOps.maximumf (F := Ideal) (φ := .f32)) X init h' hr hu]
  show (Finset.univ : Finset (Fin 21)).fold max (init (Shape.Idx.first hu)) (X ∘ hr.lift (ix3 n h w)) = _
  refine congrArg (fun f => (Finset.univ : Finset (Fin 21)).fold max (init (Shape.Idx.first hu)) f) ?_
  funext c
  show X (hr.lift (ix3 n h w) c) = X (ix4 n c h w)
  refine congrArg X ?_
  funext b; refine Fin.ext ?_
  match b with
  | ⟨0, _⟩ => rfl
  | ⟨1, _⟩ => rfl
  | ⟨2, _⟩ => rfl
  | ⟨3, _⟩ => rfl

/-! ## Index bookkeeping: the layout operations' operand indices at a pixel -/

section Indices

variable (n : Fin 8) (k : Fin 21) (h w : Fin 512)

theorem idx_bcast34 : idx_main_call0_v3 (idx_main_call0_v4 (ix4 n k h w)) = ix3 n h w := by
  funext a
  match a with
  | ⟨0, _⟩ => rfl
  | ⟨1, _⟩ => rfl
  | ⟨2, _⟩ => rfl

theorem idx_bcast810 : idx_main_call0_v8 (idx_main_call0_v10 (ix4 n k h w)) = ix3 n h w := by
  funext a
  match a with
  | ⟨0, _⟩ => rfl
  | ⟨1, _⟩ => rfl
  | ⟨2, _⟩ => rfl

theorem idx_sum7 : idx_main_call0_v7 (ix3 n h w) k = ix4 n k h w := by
  funext a
  match a with
  | ⟨0, _⟩ => rfl
  | ⟨1, _⟩ => rfl
  | ⟨2, _⟩ => rfl
  | ⟨3, _⟩ => rfl

theorem idx_lab9 : idx_main_v9 (ix4 n h w (0 : Fin 1)) = ix3 n h w := by
  funext a
  match a with
  | ⟨0, _⟩ => rfl
  | ⟨1, _⟩ => rfl
  | ⟨2, _⟩ => rfl

theorem idx_lab1 : idx_main_v1 (ix4 n (0 : Fin 1) h w) = ix3 n h w := by
  funext a
  match a with
  | ⟨0, _⟩ => rfl
  | ⟨1, _⟩ => rfl
  | ⟨2, _⟩ => rfl

theorem idx_lab25 : idx_main_v25 (ix4 n (0 : Fin 1) h w) = ix3 n h w := by
  funext a
  match a with
  | ⟨0, _⟩ => rfl
  | ⟨1, _⟩ => rfl
  | ⟨2, _⟩ => rfl

theorem idx_cast1 : idx_main_call1_v5 (ix5 n (0 : Fin 1) h w (0 : Fin 1)) = ix4 n (0 : Fin 1) h w := by
  have := n.isLt; have := h.isLt; have := w.isLt
  funext a
  match a with
  | ⟨0, _⟩ => exact Fin.ext (by
      show ((((n.val * 1 + 0) * 512 + h.val) * 512 + w.val) * 1 + 0) / 262144 = n.val; omega)
  | ⟨1, _⟩ => rfl
  | ⟨2, _⟩ => exact Fin.ext (by
      show ((((n.val * 1 + 0) * 512 + h.val) * 512 + w.val) * 1 + 0) / 512 % 512 = h.val; omega)
  | ⟨3, _⟩ => exact Fin.ext (by
      show ((((n.val * 1 + 0) * 512 + h.val) * 512 + w.val) * 1 + 0) % 512 = w.val; omega)

theorem idx_cast2 : idx_main_call2_v5 (ix5 n (0 : Fin 1) h w (0 : Fin 1)) = ix4 n (0 : Fin 1) h w := by
  have := n.isLt; have := h.isLt; have := w.isLt
  funext a
  match a with
  | ⟨0, _⟩ => exact Fin.ext (by
      show ((((n.val * 1 + 0) * 512 + h.val) * 512 + w.val) * 1 + 0) / 262144 = n.val; omega)
  | ⟨1, _⟩ => rfl
  | ⟨2, _⟩ => exact Fin.ext (by
      show ((((n.val * 1 + 0) * 512 + h.val) * 512 + w.val) * 1 + 0) / 512 % 512 = h.val; omega)
  | ⟨3, _⟩ => exact Fin.ext (by
      show ((((n.val * 1 + 0) * 512 + h.val) * 512 + w.val) * 1 + 0) % 512 = w.val; omega)

theorem idx_cast3 : idx_main_v3 (ix3 n h w) = ix4 n (0 : Fin 1) h w := by
  have := n.isLt; have := h.isLt; have := w.isLt
  funext a
  match a with
  | ⟨0, _⟩ => exact Fin.ext (by show ((n.val * 512 + h.val) * 512 + w.val) / 262144 = n.val; omega)
  | ⟨1, _⟩ => rfl
  | ⟨2, _⟩ => exact Fin.ext (by show ((n.val * 512 + h.val) * 512 + w.val) / 512 % 512 = h.val; omega)
  | ⟨3, _⟩ => exact Fin.ext (by show ((n.val * 512 + h.val) * 512 + w.val) % 512 = w.val; omega)

theorem idx_cast27 : idx_main_v27 (ix3 n h w) = ix4 n (0 : Fin 1) h w := by
  have := n.isLt; have := h.isLt; have := w.isLt
  funext a
  match a with
  | ⟨0, _⟩ => exact Fin.ext (by show ((n.val * 512 + h.val) * 512 + w.val) / 262144 = n.val; omega)
  | ⟨1, _⟩ => rfl
  | ⟨2, _⟩ => exact Fin.ext (by show ((n.val * 512 + h.val) * 512 + w.val) / 512 % 512 = h.val; omega)
  | ⟨3, _⟩ => exact Fin.ext (by show ((n.val * 512 + h.val) * 512 + w.val) % 512 = w.val; omega)

end Indices

/-! ## log_softmax at a pixel -/

/-- The running maximum: max(-∞, the maximum over the channels from -∞) is the pixel's largest logit. -/
theorem max_apply (X : SX.Idx → EReal) (n : Fin 8) (h w : Fin 512) :
    val_main_call0_v2 (F := Ideal) X (ix3 n h w) = chMax (px X n h w) := by
  rw [val_main_call0_v2_apply, val_main_call0_v1_apply, val_main_call0_cst_0_apply]
  unfold val_main_call0_v0
  refine (congrArg (FloatOps.maximumf (F := Ideal) (φ := .f32) (FloatOps.ofBits .f32 0xFF800000#32))
    (reduceMax_apply X (val_main_call0_cst (F := Ideal)) _ _ n h w)).trans ?_
  rw [val_main_call0_cst_apply]
  show max (Ideal.ofBits .f32 0xFF800000#32) ((Finset.univ : Finset (Fin 21)).fold max (Ideal.ofBits .f32 0xFF800000#32) (px X n h w))
    = chMax (px X n h w)
  rw [ofBits_ninf]
  exact max_eq_right bot_le

/-- The shifted logit. -/
theorem shift_apply (X : SX.Idx → EReal) (n : Fin 8) (k : Fin 21) (h w : Fin 512) :
    val_main_call0_v5 (F := Ideal) X (ix4 n k h w) = sh (px X n h w) k := by
  rw [val_main_call0_v5_apply, val_main_call0_v4_apply, val_main_call0_v3_apply, idx_bcast34, max_apply]
  rfl

/-- The sum of the exponentials, from the zero literal. -/
theorem sumexp_apply (X : SX.Idx → EReal) (n : Fin 8) (h w : Fin 512) :
    val_main_call0_v7 (F := Ideal) X (ix3 n h w) = se (px X n h w) := by
  rw [val_main_call0_v7_apply, val_main_call0_cst_1_apply]
  simp only [idx_sum7, val_main_call0_v6_apply, shift_apply]
  show Ideal.ofBits .f32 0x00000000#32 + ∑ k : Fin 21, Ideal.exp (sh (px X n h w) k) = se (px X n h w)
  rw [Cert.ERealBN.ofBits_zero, zero_add]
  rfl

theorem logsoftmax_apply (X : SX.Idx → EReal) (n : Fin 8) (k : Fin 21) (h w : Fin 512) :
    val_main_v0 (F := Ideal) X (ix4 n k h w) = logp (px X n h w) k := by
  rw [val_main_v0_apply, val_main_call0_v10_apply, val_main_call0_v9_apply, val_main_call0_v8_apply, idx_bcast810,
    sumexp_apply, shift_apply]
  rfl

/-! ## The class weight of a pixel's label -/

theorem weight_apply (CW : SC.Idx → EReal) (TG : ST.Idx → BitVec 32) (hT : ∀ i, (TG i).toNat < 21)
    (n : Fin 8) (h w : Fin 512) :
    val_main_v10 (F := Ideal) CW TG (ix3 n h w) = CW (ix1 (cls (TG (ix3 n h w)))) := by
  have hv : val_main_v9 (F := Ideal) TG (ix4 n h w (0 : Fin 1)) = TG (ix3 n h w) := by
    rw [val_main_v9_apply, idx_lab9, val_main_v8_apply, val_main_v5_apply, val_main_v7_apply, val_main_v4_apply,
      val_main_c_apply, val_main_v6_apply, val_main_c_0_apply]
    exact label_norm (hT _)
  unfold val_main_v10
  refine (gatherW_apply CW (val_main_v9 (F := Ideal) TG) n h w).trans ?_
  refine congrArg (fun c => CW (ix1 c)) (Fin.ext ?_)
  show min (val_main_v9 (F := Ideal) TG (ix4 n h w (0 : Fin 1))).toInt.toNat 20 = (cls (TG (ix3 n h w))).val
  rw [hv]
  exact label_clamp (hT _)

/-! ## take_along_axis at a pixel -/

/-- With the range test true and the start index a label below 21, the select picks the operand at the label's channel. -/
theorem take_select {α : Type} (A : S8x21x512x512.Idx → α) (idx : IVec S8x1x512x512x1 32) (valid : IVec S8x1x512x512 1)
    (fill : α) (n : Fin 8) (h w : Fin 512) (t : BitVec 32) (ht : t.toNat < 21)
    (hidx : idx (ix5 n (0 : Fin 1) h w (0 : Fin 1)) = t) (hvalid : valid (ix4 n (0 : Fin 1) h w) = 1#1) :
    Scalar.select (valid (ix4 n (0 : Fin 1) h w))
        (Host.gather gather_S8x21x512x512_S8x1x512x512x1_S8x1x512x512_n_1_023_023_1_4_1111 A idx (ix4 n (0 : Fin 1) h w)) fill
      = A (ix4 n (cls t) h w) := by
  rw [hvalid, select_one, gatherB_apply]
  refine congrArg (fun c => A (ix4 n c h w)) (Fin.ext ?_)
  show min (idx (ix5 n (0 : Fin 1) h w (0 : Fin 1))).toInt.toNat 20 = (cls t).val
  rw [hidx]
  exact label_clamp ht

section Take

variable (TG : ST.Idx → BitVec 32) (hT : ∀ i, (TG i).toNat < 21) (n : Fin 8) (h w : Fin 512)

include hT

/-- The first call's start index is the label. -/
theorem start1_apply : val_main_call1_v5 (F := Ideal) TG (ix5 n (0 : Fin 1) h w (0 : Fin 1)) = TG (ix3 n h w) := by
  rw [val_main_call1_v5_apply, idx_cast1, val_main_call1_v4_apply, val_main_call1_v1_apply, val_main_call1_v3_apply,
    val_main_call1_v0_apply, val_main_call1_c_apply, val_main_call1_v2_apply, val_main_call1_c_0_apply, val_main_v1_apply,
    idx_lab1]
  exact label_norm (hT _)

/-- The first call's range test holds. -/
theorem valid1_apply : val_main_call1_v12 (F := Ideal) TG (ix4 n (0 : Fin 1) h w) = 1#1 := by
  unfold val_main_call1_v12
  refine (reduceAnd_unit_apply _ _ _ _ n h w).trans ?_
  rw [val_main_call1_c_3_apply, val_main_call1_v11_apply, val_main_call1_v7_apply, val_main_call1_v10_apply,
    start1_apply TG hT, val_main_call1_v6_apply, val_main_call1_c_2_apply, val_main_call1_v9_apply, val_main_call1_v8_apply,
    val_main_call1_c_1_apply, label_ge (hT _), label_le (hT _)]
  decide

/-- The second call's start index is the label. -/
theorem start2_apply : val_main_call2_v5 (F := Ideal) TG (ix5 n (0 : Fin 1) h w (0 : Fin 1)) = TG (ix3 n h w) := by
  rw [val_main_call2_v5_apply, idx_cast2, val_main_call2_v4_apply, val_main_call2_v1_apply, val_main_call2_v3_apply,
    val_main_call2_v0_apply, val_main_call2_c_apply, val_main_call2_v2_apply, val_main_call2_c_0_apply, val_main_v25_apply,
    idx_lab25]
  exact label_norm (hT _)

/-- The second call's range test holds. -/
theorem valid2_apply : val_main_call2_v12 (F := Ideal) TG (ix4 n (0 : Fin 1) h w) = 1#1 := by
  unfold val_main_call2_v12
  refine (reduceAnd_unit_apply _ _ _ _ n h w).trans ?_
  rw [val_main_call2_c_3_apply, val_main_call2_v11_apply, val_main_call2_v7_apply, val_main_call2_v10_apply,
    start2_apply TG hT, val_main_call2_v6_apply, val_main_call2_c_2_apply, val_main_call2_v9_apply, val_main_call2_v8_apply,
    val_main_call2_c_1_apply, label_ge (hT _), label_le (hT _)]
  decide

end Take

theorem lp_apply (X : SX.Idx → EReal) (TG : ST.Idx → BitVec 32) (hT : ∀ i, (TG i).toNat < 21)
    (n : Fin 8) (h w : Fin 512) :
    val_main_v3 (F := Ideal) X TG (ix3 n h w) = logp (px X n h w) (cls (TG (ix3 n h w))) := by
  rw [val_main_v3_apply, idx_cast3, val_main_v2_apply]
  unfold val_main_call1_v13
  refine (take_select (val_main_v0 (F := Ideal) X) (val_main_call1_v5 (F := Ideal) TG) (val_main_call1_v12 (F := Ideal) TG) _
    n h w (TG (ix3 n h w)) (hT _) (start1_apply TG hT n h w) (valid1_apply TG hT n h w)).trans ?_
  exact logsoftmax_apply X n _ h w

/-! ## Cross entropy, focal term, softmax -/

theorem ce_apply (X : SX.Idx → EReal) (CW : SC.Idx → EReal) (TG : ST.Idx → BitVec 32) (hT : ∀ i, (TG i).toNat < 21)
    (n : Fin 8) (h w : Fin 512) :
    val_main_v12 (F := Ideal) X CW TG (ix3 n h w)
      = ceR (px X n h w) (cls (TG (ix3 n h w))) (CW (ix1 (cls (TG (ix3 n h w))))) := by
  rw [val_main_v12_apply, val_main_v11_apply, weight_apply CW TG hT, lp_apply X TG hT]
  rfl

theorem foc_apply (X : SX.Idx → EReal) (CW : SC.Idx → EReal) (TG : ST.Idx → BitVec 32) (hT : ∀ i, (TG i).toNat < 21)
    (n : Fin 8) (h w : Fin 512) :
    val_main_v19 (F := Ideal) X CW TG (ix3 n h w)
      = focR (px X n h w) (cls (TG (ix3 n h w))) (CW (ix1 (cls (TG (ix3 n h w))))) := by
  rw [val_main_v19_apply, val_main_v18_apply, val_main_v16_apply, val_main_v15_apply, val_main_cst_apply, val_main_v14_apply,
    val_main_v13_apply, val_main_v17_apply, val_main_cst_1_apply, ce_apply X CW TG hT]
  show Ideal.pow (Ideal.ofBits .f32 0x3F800000#32
        - Ideal.exp (-(ceR (px X n h w) (cls (TG (ix3 n h w))) (CW (ix1 (cls (TG (ix3 n h w))))))))
      (Ideal.ofBits .f32 0x40000000#32) * ceR (px X n h w) (cls (TG (ix3 n h w))) (CW (ix1 (cls (TG (ix3 n h w)))))
    = focR (px X n h w) (cls (TG (ix3 n h w))) (CW (ix1 (cls (TG (ix3 n h w)))))
  rw [Cert.ERealBN.ofBits_one, ofBits_two, EReal.coe_one]
  rfl

theorem prob_apply (X : SX.Idx → EReal) (n : Fin 8) (k : Fin 21) (h w : Fin 512) :
    val_main_v24 (F := Ideal) X (ix4 n k h w) = prR (px X n h w) k := by
  rw [val_main_v24_apply, logsoftmax_apply]
  rfl

theorem pt_apply (X : SX.Idx → EReal) (TG : ST.Idx → BitVec 32) (hT : ∀ i, (TG i).toNat < 21)
    (n : Fin 8) (h w : Fin 512) :
    val_main_v27 (F := Ideal) X TG (ix3 n h w) = prR (px X n h w) (cls (TG (ix3 n h w))) := by
  rw [val_main_v27_apply, idx_cast27, val_main_v26_apply]
  unfold val_main_call2_v13
  refine (take_select (val_main_v24 (F := Ideal) X) (val_main_call2_v5 (F := Ideal) TG) (val_main_call2_v12 (F := Ideal) TG) _
    n h w (TG (ix3 n h w)) (hT _) (start2_apply TG hT n h w) (valid2_apply TG hT n h w)).trans ?_
  exact prob_apply X n _ h w

end Cert.ReferenceIdeal.RefValue

end
-- ==== Proof.RefSums.lean ====
/-
  From the reference's per-pixel stages to its three results.

  The reference computes, at every pixel, the weighted cross entropy, the focal term, the softmax of every class
  and the probability of the labelled class.  From these it takes five sums: the two totals over all `2^21` pixels;
  for each class `k` the intersection `∑ [label = k] p_k`, taken by adding each pixel's probability of its label
  into the entry its label names; the label count `∑ [label = k] 1`, taken in the same way from an array of ones;
  and the probability mass `∑ p_k`, the sum of the softmax over the batch and the two image axes.

  A pixel's contribution lands on the entry of its label because the label, read as a signed word, is its class
  when it is below 21; the flat order in which the pixels are listed is a bijection with the pixels, so the sum over
  the flat positions whose label is `k` is the sum over the pixels whose label is `k`.  The indices of the logits on
  channel `k` are the pixels, so the sum over them is the sum over the pixels.  The three results are then the same
  arithmetic on the five sums as `results` states.
-/
import proofs.«419937_j16037407883832_3_alg».proof.Proof.RefRead
import proofs.«419937_j16037407883832_3_alg».proof.Proof.RefPixel
import proofs.«419937_j16037407883832_3_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefSums

open Cert.ReferenceIdeal Cert.ReferenceIdeal.ReadP Cert.SegLoss Idealize.ShloMosaic Idealize.ShloMosaic.ValueIdx

attribute [local irreducible] val_main_v0 val_main_v3 val_main_v10 val_main_v11 val_main_v12 val_main_v18 val_main_v19
  val_main_v24 val_main_v26 val_main_v27

/-! ## The host's scatter-add and sum at the ideal values -/

theorem scatterAdd_ideal {s si su : Shape} (d : ScatterDims s si su) {w : Nat} (x : s.Idx → EReal) (idx : IVec si w)
    (upd : su.Idx → EReal) (i : s.Idx) :
    Host.scatterAdd (F := Ideal) (φ := .f32) d x idx upd i = Ideal.hostScatterAdd d x idx upd i := rfl

theorem reduceAdd_ideal {s t u : Shape} {axes : List (Fin s.rank)} (x : s.Idx → EReal) (init : u.Idx → EReal)
    (h : s.ReducesTo axes t) (hu : 0 < u.numel) (j : t.Idx) :
    Host.reduceAdd (F := Ideal) (φ := .f32) x init h hu j
      = Ideal.hostReduceAdd h x (init (Shape.Idx.first hu)) j := rfl

/-! ## Indices -/

/-- A rank-1 index set is its coordinate range. -/
def idxEquiv1 {n : Nat} : (⟨1, ![n]⟩ : Shape).Idx ≃ Fin n where
  toFun i := i 0
  invFun := ix1
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem ix1_injective {n : Nat} {a b : Fin n} (h : ix1 a = ix1 b) : a = b := congrFun h 0

/-- Every pixel index is `ix3` of three coordinates. -/
theorem exists_ix3 (i : ST.Idx) : ∃ (n : Fin 8) (h w : Fin 512), i = ix3 n h w := ⟨i 0, i 1, i 2, eq_ix3 i⟩

/-- The pixel of an index of the logits. -/
def pixOf (i : SX.Idx) : ST.Idx := ix3 (i 0) (i 2) (i 3)

/-- Channel `k` of a pixel. -/
def chanAt (k : Fin 21) (i : ST.Idx) : SX.Idx := ix4 (i 0) k (i 1) (i 2)

/-- The position of a flat index in the one-column array of labels. -/
def colOf (j : S2097152.Idx) : S2097152x1.Idx := ix2 (j 0) (0 : Fin 1)

/-! ## The sum over the batch and the image axes, at a channel -/

/-- An index of the logits drops to channel `k` exactly when it is channel `k` of its pixel. -/
theorem drop_chan (hr : S8x21x512x512.ReducesTo [0, 2, 3] S21) (i : SX.Idx) (k : Fin 21) :
    (hr.drop i = ix1 k) ↔ i = chanAt k (pixOf i) := by
  constructor
  · intro h
    have h1 : i 1 = k := congrFun h 0
    funext a
    match a with
    | ⟨0, _⟩ => rfl
    | ⟨1, _⟩ => exact h1
    | ⟨2, _⟩ => rfl
    | ⟨3, _⟩ => rfl
  · intro h
    have h1 : i 1 = k := congrFun h 1
    funext b
    match b with
    | ⟨0, _⟩ => exact h1

/-- The sum over axes 0, 2, 3 at channel `k` is the initial value plus the sum over the pixels. -/
theorem hostReduceAdd_chan (hr : S8x21x512x512.ReducesTo [0, 2, 3] S21) (y : SX.Idx → EReal) (init : EReal) (k : Fin 21) :
    Ideal.hostReduceAdd hr y init (ix1 k) = init + ∑ i : ST.Idx, y (chanAt k i) := by
  unfold Ideal.hostReduceAdd
  refine congrArg (init + ·) ?_
  refine Finset.sum_nbij' pixOf (chanAt k) ?_ ?_ ?_ ?_ ?_
  · intro a _; exact Finset.mem_univ _
  · intro a _
    refine Finset.mem_filter.2 ⟨Finset.mem_univ _, ?_⟩
    exact (drop_chan hr _ k).2 (by
      funext a; match a with | ⟨0, _⟩ => rfl | ⟨1, _⟩ => rfl | ⟨2, _⟩ => rfl | ⟨3, _⟩ => rfl)
  · intro a ha
    exact ((drop_chan hr a k).1 (Finset.mem_filter.1 ha).2).symm
  · intro a _; exact (eq_ix3 a).symm
  · intro a ha
    exact congrArg y ((drop_chan hr a k).1 (Finset.mem_filter.1 ha).2)

/-! ## Adding each pixel's update into the entry its label names -/

section Scatter

variable [Facts₀]

/-- Where a flat position's update lands: the class of its label, when the label is below 21. -/
theorem resultIdx_label (idx : IVec S2097152x1 32) (j : S2097152.Idx)
    (h : (idx (colOf j)).toNat < 21) :
    scatter_S21_S2097152x1_S2097152_n_0_0_1.resultIdx? j idx = some (ix1 (cls (idx (colOf j)))) := by
  have hsi : ∀ c, scatter_S21_S2097152x1_S2097152_n_0_0_1.siIdx j c = colOf j := by
    intro c
    funext b
    match b with
    | ⟨0, _⟩ => exact Fin.ext rfl
    | ⟨1, _⟩ => exact Fin.ext (by have : c.val < 1 := c.isLt; show c.val = 0; omega)
  have hstart : ∀ a, scatter_S21_S2097152x1_S2097152_n_0_0_1.start j idx a = ((idx (colOf j)).toNat : Int) := by
    intro a
    match a with
    | ⟨0, h0⟩ =>
      have hm : (⟨0, h0⟩ : Fin S21.rank) ∈ scatter_S21_S2097152x1_S2097152_n_0_0_1.scatterDimsToOperandDims :=
        List.mem_singleton.2 rfl
      unfold ScatterDims.start
      rw [dif_pos hm, hsi, BitVec.toInt_eq_toNat_cond, if_pos (by omega)]
  have hwin : ∀ a, scatter_S21_S2097152x1_S2097152_n_0_0_1.window j a = 0 := by
    intro a
    match a with
    | ⟨0, h0⟩ =>
      have hn : (⟨0, h0⟩ : Fin S21.rank) ∉ scatter_S21_S2097152x1_S2097152_n_0_0_1.sKept := by
        show (⟨0, h0⟩ : Fin S21.rank) ∉ S21.kept [0]
        revert h0; decide
      unfold ScatterDims.window
      rw [dif_neg hn]
  unfold ScatterDims.resultIdx?
  have hcond : ∀ a, 0 ≤ scatter_S21_S2097152x1_S2097152_n_0_0_1.start j idx a + scatter_S21_S2097152x1_S2097152_n_0_0_1.window j a
      ∧ scatter_S21_S2097152x1_S2097152_n_0_0_1.start j idx a + scatter_S21_S2097152x1_S2097152_n_0_0_1.window j a < S21.size a := by
    intro a
    rw [hstart, hwin]
    match a with
    | ⟨0, _⟩ => exact ⟨by omega, by show ((idx (colOf j)).toNat : Int) + ((0 : Nat) : Int) < 21; omega⟩
  rw [dif_pos hcond]
  refine congrArg some (funext fun a => ?_)
  match a with
  | ⟨0, _⟩ =>
    refine Fin.ext ?_
    show (scatter_S21_S2097152x1_S2097152_n_0_0_1.start j idx ⟨0, _⟩ + scatter_S21_S2097152x1_S2097152_n_0_0_1.window j ⟨0, _⟩).toNat = (idx (colOf j)).toNat % 21
    rw [hstart, hwin]
    omega

/-- The accumulating scatter of per-pixel updates `u`, listed in flat order, by the labels listed in flat order:
    entry `k` is its initial value plus the sum of `u` over the pixels labelled `k`. -/
theorem scatterAdd_labels (x : S21.Idx → EReal) (TG : ST.Idx → BitVec 32) (hT : ∀ i, (TG i).toNat < 21)
    (idx : IVec S2097152x1 32) (upd : S2097152.Idx → EReal) (u : ST.Idx → EReal)
    (hs : S8x512x512.ShapeCasts S2097152)
    (hidx : ∀ j, idx (colOf j) = TG (Shape.reshapeEquiv hs j))
    (hupd : ∀ j, upd j = u (Shape.reshapeEquiv hs j)) (k : Fin 21) :
    Ideal.hostScatterAdd scatter_S21_S2097152x1_S2097152_n_0_0_1 x idx upd (ix1 k)
      = x (ix1 k) + ∑ i : ST.Idx, if cls (TG i) = k then u i else 0 := by
  unfold Ideal.hostScatterAdd
  refine congrArg (x (ix1 k) + ·) ?_
  rw [Finset.sum_filter, ← Equiv.sum_comp (Shape.reshapeEquiv hs) (fun i => if cls (TG i) = k then u i else 0)]
  refine Finset.sum_congr rfl fun j _ => ?_
  rw [resultIdx_label idx j (by rw [hidx]; exact hT _), hidx, hupd]
  by_cases hc : cls (TG (Shape.reshapeEquiv hs j)) = k
  · rw [if_pos hc, if_pos (by rw [hc])]
  · rw [if_neg hc, if_neg (fun h => hc (ix1_injective (Option.some.inj h)))]

end Scatter

/-! ## The five sums -/

section Sums

variable (X : SX.Idx → EReal) (CW : SC.Idx → EReal) (TG : ST.Idx → BitVec 32)

theorem ce_at (hT : ∀ i, (TG i).toNat < 21) (i : ST.Idx) :
    val_main_v12 (F := Ideal) X CW TG i = ceR (pxAt X i) (cls (TG i)) (CW (ix1 (cls (TG i)))) := by
  obtain ⟨n, h, w, rfl⟩ := exists_ix3 i
  exact Cert.ReferenceIdeal.RefValue.ce_apply X CW TG hT n h w

theorem foc_at (hT : ∀ i, (TG i).toNat < 21) (i : ST.Idx) :
    val_main_v19 (F := Ideal) X CW TG i = focR (pxAt X i) (cls (TG i)) (CW (ix1 (cls (TG i)))) := by
  obtain ⟨n, h, w, rfl⟩ := exists_ix3 i
  exact Cert.ReferenceIdeal.RefValue.foc_apply X CW TG hT n h w

theorem pt_at (hT : ∀ i, (TG i).toNat < 21) (i : ST.Idx) :
    val_main_v27 (F := Ideal) X TG i = prR (pxAt X i) (cls (TG i)) := by
  obtain ⟨n, h, w, rfl⟩ := exists_ix3 i
  exact Cert.ReferenceIdeal.RefValue.pt_apply X TG hT n h w

theorem prob_at (k : Fin 21) (i : ST.Idx) :
    val_main_v24 (F := Ideal) X (chanAt k i) = prR (pxAt X i) k := by
  obtain ⟨n, h, w, rfl⟩ := exists_ix3 i
  exact Cert.ReferenceIdeal.RefValue.prob_apply X n k h w

/-- The total of the cross entropy over the pixels. -/
theorem ce_sum (hT : ∀ i, (TG i).toNat < 21) :
    ∑ j : ST.Idx, val_main_v12 (F := Ideal) X CW TG j
      = ∑ i : ST.Idx, ceR (pxAt X i) (cls (TG i)) (CW (ix1 (cls (TG i)))) :=
  Finset.sum_congr rfl fun i _ => ce_at X CW TG hT i

/-- The total of the focal term over the pixels. -/
theorem foc_sum (hT : ∀ i, (TG i).toNat < 21) :
    ∑ j : ST.Idx, val_main_v19 (F := Ideal) X CW TG j
      = ∑ i : ST.Idx, focR (pxAt X i) (cls (TG i)) (CW (ix1 (cls (TG i)))) :=
  Finset.sum_congr rfl fun i _ => foc_at X CW TG hT i

/-- The labels in flat order, read in the one-column array. -/
theorem labels_col31 (j : S2097152.Idx) :
    val_main_v31 (F := Ideal) TG (colOf j) = TG (Shape.reshapeEquiv Gen.shapeCasts_S8x512x512_S2097152 j) := by
  have e : idx_main_v31 (colOf j) = j := by
    funext a; match a with | ⟨0, _⟩ => exact Fin.ext rfl
  exact (val_main_v31_apply (F := Ideal) TG (colOf j)).trans ((congrArg (val_main_v29 (F := Ideal) TG) e).trans rfl)

theorem labels_col37 (j : S2097152.Idx) :
    val_main_v37 (F := Ideal) TG (colOf j) = TG (Shape.reshapeEquiv Gen.shapeCasts_S8x512x512_S2097152 j) := by
  have e : idx_main_v37 (colOf j) = j := by
    funext a; match a with | ⟨0, _⟩ => exact Fin.ext rfl
  exact (val_main_v37_apply (F := Ideal) TG (colOf j)).trans ((congrArg (val_main_v35 (F := Ideal) TG) e).trans rfl)

/-- The probabilities of the labels in flat order. -/
theorem pt_flat (j : S2097152.Idx) :
    val_main_v28 (F := Ideal) X TG j
      = val_main_v27 (F := Ideal) X TG (Shape.reshapeEquiv Gen.shapeCasts_S8x512x512_S2097152 j) := by
  unfold val_main_v28
  generalize val_main_v27 (F := Ideal) X TG = y
  rfl

attribute [local irreducible] val_main_v28

/-- The intersection of class `k`. -/
theorem inter_apply (hT : ∀ i, (TG i).toNat < 21) (k : Fin 21) :
    val_main_v32 (F := Ideal) X TG (ix1 k)
      = lit 0x00000000#32 + ∑ i : ST.Idx, if cls (TG i) = k then prR (pxAt X i) k else 0 := by
  have h0 : val_main_v30 (F := Ideal) (ix1 k) = lit 0x00000000#32 := by
    rw [val_main_v30_apply, val_main_cst_6_apply]; rfl
  have hl := scatterAdd_labels (val_main_v30 (F := Ideal)) TG hT (val_main_v31 (F := Ideal) TG)
    (val_main_v28 (F := Ideal) X TG) (val_main_v27 (F := Ideal) X TG) Gen.shapeCasts_S8x512x512_S2097152
    (labels_col31 TG) (pt_flat X TG) k
  rw [h0] at hl
  have hsum : (∑ i : ST.Idx, if cls (TG i) = k then val_main_v27 (F := Ideal) X TG i else 0)
      = ∑ i : ST.Idx, if cls (TG i) = k then prR (pxAt X i) k else 0 := by
    refine Finset.sum_congr rfl fun i _ => ?_
    by_cases hc : cls (TG i) = k
    · rw [if_pos hc, if_pos hc, pt_at X TG hT i, hc]
    · rw [if_neg hc, if_neg hc]
  rw [hsum] at hl
  unfold val_main_v32
  exact (scatterAdd_ideal _ _ _ _ _).trans hl

/-- The array of ones in flat order. -/
theorem ones_flat (j : S2097152.Idx) :
    val_main_v34 (F := Ideal) j
      = (fun _ : ST.Idx => lit 0x3F800000#32) (Shape.reshapeEquiv Gen.shapeCasts_S8x512x512_S2097152 j) := by
  rw [val_main_v34_apply, val_main_v33_apply, val_main_cst_7_apply]; rfl

/-- The number of pixels of class `k`. -/
theorem count_apply (hT : ∀ i, (TG i).toNat < 21) (k : Fin 21) :
    val_main_v38 (F := Ideal) TG (ix1 k)
      = lit 0x00000000#32 + ∑ i : ST.Idx, if cls (TG i) = k then lit 0x3F800000#32 else 0 := by
  have h0 : val_main_v36 (F := Ideal) (ix1 k) = lit 0x00000000#32 := by
    rw [val_main_v36_apply, val_main_cst_8_apply]; rfl
  have hl := scatterAdd_labels (val_main_v36 (F := Ideal)) TG hT (val_main_v37 (F := Ideal) TG)
    (val_main_v34 (F := Ideal)) (fun _ => lit 0x3F800000#32) Gen.shapeCasts_S8x512x512_S2097152
    (labels_col37 TG) ones_flat k
  rw [h0] at hl
  unfold val_main_v38
  exact (scatterAdd_ideal _ _ _ _ _).trans hl

/-- The probability mass of class `k`. -/
theorem mass_apply (k : Fin 21) :
    val_main_v39 (F := Ideal) X (ix1 k) = lit 0x00000000#32 + ∑ i : ST.Idx, prR (pxAt X i) k := by
  have h0 : val_main_cst_9 (F := Ideal) (Shape.Idx.first Gen.h_S_) = lit 0x00000000#32 := by
    rw [val_main_cst_9_apply]; rfl
  have hl := hostReduceAdd_chan Gen.reducesTo_S8x21x512x512_S21_d0_2_3 (val_main_v24 (F := Ideal) X)
    (val_main_cst_9 (F := Ideal) (Shape.Idx.first Gen.h_S_)) k
  have hsum : (∑ i : ST.Idx, val_main_v24 (F := Ideal) X (chanAt k i)) = ∑ i : ST.Idx, prR (pxAt X i) k :=
    Finset.sum_congr rfl fun i _ => prob_at X k i
  rw [h0, hsum] at hl
  unfold val_main_v39
  exact (reduceAdd_ideal _ _ _ _ _).trans hl

attribute [local irreducible] val_main_v32 val_main_v38 val_main_v39

end Sums

/-! ## The three results -/

section Results

variable (X : SX.Idx → EReal) (CW : SC.Idx → EReal) (TG : ST.Idx → BitVec 32)
variable (ceS focS : EReal) (I P N : Fin 21 → EReal)

/-- The dice term of class `c`, from the three sums of that class. -/
theorem dice_at (hI : ∀ c, val_main_v32 (F := Ideal) X TG (ix1 c) = I c)
    (hP : ∀ c, val_main_v39 (F := Ideal) X (ix1 c) = P c)
    (hN : ∀ c, val_main_v38 (F := Ideal) TG (ix1 c) = N c) (c : Fin 21) :
    val_main_v49 (F := Ideal) X TG (ix1 c) = dice I P N c := by
  rw [val_main_v49_apply, val_main_v48_apply, val_main_cst_13_apply, val_main_v47_apply, val_main_v44_apply,
    val_main_v42_apply, val_main_v41_apply, val_main_cst_10_apply, val_main_v43_apply, val_main_cst_11_apply,
    val_main_v46_apply, val_main_v40_apply, val_main_v45_apply, val_main_cst_12_apply, hI, hP, hN] <;> rfl

/-- The dice loss, from the sums by class. -/
theorem diceLoss_at (hI : ∀ c, val_main_v32 (F := Ideal) X TG (ix1 c) = I c)
    (hP : ∀ c, val_main_v39 (F := Ideal) X (ix1 c) = P c)
    (hN : ∀ c, val_main_v38 (F := Ideal) TG (ix1 c) = N c) :
    val_main_v51 (F := Ideal) X TG ix0 = diceLoss I P N := by
  have hs : ∑ j : S21.Idx, val_main_v49 (F := Ideal) X TG j = ∑ c : Fin 21, dice I P N c :=
    (sum_idx1 _).trans (Finset.sum_congr rfl fun c _ => dice_at X TG I P N hI hP hN c)
  rw [val_main_v51_apply, val_main_v50_apply, hs, val_main_cst_15_apply, val_main_cst_14_apply] <;> rfl

/-- The mean cross entropy, from the total. -/
theorem meanCE_at (hce : ∑ j : ST.Idx, val_main_v12 (F := Ideal) X CW TG j = ceS) :
    val_main_v23 (F := Ideal) X CW TG ix0 = meanPix ceS := by
  rw [val_main_v23_apply, val_main_v22_apply, hce, val_main_cst_5_apply, val_main_cst_4_apply] <;> rfl

/-- The total loss, from the focal total and the dice loss. -/
theorem total_at (hfoc : ∑ j : ST.Idx, val_main_v19 (F := Ideal) X CW TG j = focS)
    (hI : ∀ c, val_main_v32 (F := Ideal) X TG (ix1 c) = I c)
    (hP : ∀ c, val_main_v39 (F := Ideal) X (ix1 c) = P c)
    (hN : ∀ c, val_main_v38 (F := Ideal) TG (ix1 c) = N c) :
    val_main_v53 (F := Ideal) X CW TG ix0 = meanPix focS + lit 0x3F000000#32 * diceLoss I P N := by
  rw [val_main_v53_apply, val_main_v21_apply, val_main_v20_apply, hfoc, val_main_v52_apply,
    diceLoss_at X TG I P N hI hP hN, val_main_cst_3_apply, val_main_cst_2_apply, val_main_cst_16_apply] <;> rfl

/-- The three results, from any five sums the stages are shown to take. -/
theorem results_of (hce : ∑ j : ST.Idx, val_main_v12 (F := Ideal) X CW TG j = ceS)
    (hfoc : ∑ j : ST.Idx, val_main_v19 (F := Ideal) X CW TG j = focS)
    (hI : ∀ c, val_main_v32 (F := Ideal) X TG (ix1 c) = I c)
    (hP : ∀ c, val_main_v39 (F := Ideal) X (ix1 c) = P c)
    (hN : ∀ c, val_main_v38 (F := Ideal) TG (ix1 c) = N c) :
    (val_main_v53 (F := Ideal) X CW TG ix0, val_main_v23 (F := Ideal) X CW TG ix0, val_main_v51 (F := Ideal) X TG ix0)
      = results ceS focS I P N := by
  unfold results
  rw [total_at X CW TG focS I P N hfoc hI hP hN, meanCE_at X CW TG ceS hce, diceLoss_at X TG I P N hI hP hN]

/-- The reference's three results are `results` of its five sums. -/
theorem results_eq (hT : ∀ i, (TG i).toNat < 21) :
    (val_main_v53 (F := Ideal) X CW TG ix0, val_main_v23 (F := Ideal) X CW TG ix0, val_main_v51 (F := Ideal) X TG ix0)
      = results (∑ i : ST.Idx, ceR (pxAt X i) (cls (TG i)) (CW (ix1 (cls (TG i)))))
          (∑ i : ST.Idx, focR (pxAt X i) (cls (TG i)) (CW (ix1 (cls (TG i)))))
          (fun k => lit 0x00000000#32 + ∑ i : ST.Idx, if cls (TG i) = k then prR (pxAt X i) k else 0)
          (fun k => lit 0x00000000#32 + ∑ i : ST.Idx, prR (pxAt X i) k)
          (fun k => lit 0x00000000#32 + ∑ i : ST.Idx, if cls (TG i) = k then lit 0x3F800000#32 else 0) :=
  results_of X CW TG _ _ _ _ _ (ce_sum X CW TG hT) (foc_sum X CW TG hT) (inter_apply X TG hT) (mass_apply X)
    (count_apply TG hT)

end Results

end Cert.ReferenceIdeal.RefSums

end
-- ==== Proof.PixelMath.lean ====
/-
  The algebra of one pixel over the extended reals.

  For 21 finite logits the largest logit is finite, so every shifted logit is a real number, the sum of their
  exponentials is a positive real, and its logarithm is a real.  On such a pixel the kernel's one-hot forms and
  the reference's gathered forms of the cross entropy, the focal term, the probability of the label and the
  softmax are the same extended reals.
-/
import proofs.«419937_j16037407883832_3_alg».proof.Proof.Spec
import Mathlib.Analysis.SpecialFunctions.Log.Basic
import Mathlib.Analysis.SpecialFunctions.Pow.Real
import Mathlib.Analysis.SpecialFunctions.Exp

noncomputable section

open scoped BigOperators

namespace Cert.SegLoss

open Cert.ERealBN Idealize.ShloMosaic

variable {x : Fin 21 → EReal} {w : EReal}

/-! ## Finiteness -/

/-- The fold of `max` from `-∞` over a nonempty finite set of reals is a real. -/
theorem fold_max_isReal (hx : ∀ c, IsReal (x c)) (s : Finset (Fin 21)) (hs : s.Nonempty) :
    IsReal (s.fold max ⊥ x) := by
  classical
  induction s using Finset.induction_on with
  | empty => exact absurd hs (by simp)
  | insert a s ha ih =>
    rw [Finset.fold_insert ha]
    by_cases h : s.Nonempty
    · exact IsReal.max (hx a) (ih h)
    · rw [Finset.not_nonempty_iff_eq_empty.mp h, Finset.fold_empty, max_bot_right]
      exact hx a

theorem chMax_isReal (hx : ∀ c, IsReal (x c)) : IsReal (chMax x) :=
  fold_max_isReal hx Finset.univ Finset.univ_nonempty

theorem sh_isReal (hx : ∀ c, IsReal (x c)) (c : Fin 21) : IsReal (sh x c) :=
  IsReal.sub (hx c) (chMax_isReal hx)

/-- The sum of the exponentials of real shifted logits is a positive real. -/
theorem se_pos (hx : ∀ c, IsReal (x c)) : ∃ r : ℝ, 0 < r ∧ se x = (r : EReal) := by
  choose f hf using fun c => sh_isReal hx c
  refine ⟨∑ c : Fin 21, Real.exp (f c), Finset.sum_pos (fun c _ => Real.exp_pos _) Finset.univ_nonempty, ?_⟩
  rw [se, ← coe_sum]
  exact Finset.sum_congr rfl fun c _ => by rw [hf c, Ideal.exp_coe]

/-- The log-sum-exp of a finite pixel is a real. -/
theorem lse_isReal (hx : ∀ c, IsReal (x c)) : IsReal (lse x) := by
  obtain ⟨r, hr, h⟩ := se_pos hx
  rw [lse, h, Ideal.log_coe, if_neg (not_le.mpr hr)]
  exact IsReal.coe _

theorem logp_isReal (hx : ∀ c, IsReal (x c)) (c : Fin 21) : IsReal (logp x c) :=
  IsReal.sub (sh_isReal hx c) (lse_isReal hx)

/-! ## The one-hot mask picks the labelled class -/

/-- Two classes have the same word exactly when they are the same class. -/
theorem ofNat_class_inj (c k : Fin 21) : BitVec.ofNat 32 c.val = BitVec.ofNat 32 k.val ↔ c = k := by
  constructor
  · intro h
    have h2 := congrArg BitVec.toNat h
    simp only [BitVec.toNat_ofNat] at h2
    apply Fin.ext
    have := c.isLt
    have := k.isLt
    omega
  · rintro rfl
    rfl

theorem lpK_eq (x : Fin 21 → EReal) (k : Fin 21) : lpK x (BitVec.ofNat 32 k.val) = logp x k := by
  rw [lpK, logp]
  simp only [ofNat_class_inj]
  rw [Finset.sum_ite_eq' Finset.univ k (fun c => sh x c), if_pos (Finset.mem_univ k)]

/-! ## The cross entropy, the focal term, the probabilities -/

theorem ceK_eq (hx : ∀ c, IsReal (x c)) (hw : IsReal w) (k : Fin 21) :
    ceK x (BitVec.ofNat 32 k.val) w = ceR x k w := by
  rw [ceK, ceR, lpK_eq, zero_sub]

/-- The reference's cross entropy of a finite pixel with a finite weight is a real. -/
theorem ceR_isReal (hx : ∀ c, IsReal (x c)) (hw : IsReal w) (k : Fin 21) : IsReal (ceR x k w) := by
  obtain ⟨r, rfl⟩ := hw
  rw [ceR, ← EReal.coe_neg]
  exact IsReal.mul (IsReal.coe _) (logp_isReal hx k)

theorem focK_eq (hx : ∀ c, IsReal (x c)) (hw : IsReal w) (k : Fin 21) :
    focK x (BitVec.ofNat 32 k.val) w = focR x k w := by
  rw [focK, focR, ceK_eq hx hw, zero_sub]
  obtain ⟨a, ha⟩ := ceR_isReal hx hw k
  rw [ha, ← EReal.coe_neg, Ideal.exp_coe, ← EReal.coe_one, ← EReal.coe_sub, Ideal.pow_coe_coe, ← EReal.coe_mul]
  congr 2
  show _ = (1 - Real.exp (-a)) ^ (2 : ℝ)
  rw [Real.rpow_two, sq]

theorem ptK_eq (x : Fin 21 → EReal) (k c : Fin 21) :
    ptK x (BitVec.ofNat 32 k.val) c = if c = k then prR x k else 0 := by
  rw [ptK, prR, lpK_eq]
  simp only [ofNat_class_inj]

theorem prK_eq (hx : ∀ c, IsReal (x c)) (c : Fin 21) : prK x c = prR x c := by
  obtain ⟨s, hs⟩ := sh_isReal hx c
  obtain ⟨r, hr, h⟩ := se_pos hx
  rw [prK, prR, logp, lse, h, hs, Ideal.div_coe hr.ne', Ideal.log_coe, if_neg (not_le.mpr hr), Ideal.exp_coe,
    ← EReal.coe_sub, Ideal.exp_coe, one_mul, ← EReal.coe_mul, Real.exp_sub, Real.exp_log hr, one_div,
    div_eq_mul_inv]

/-! ## The literals -/

theorem lit_zero : lit 0x00000000#32 = 0 := ofBits_zero

theorem lit_one : lit 0x3F800000#32 = 1 := by
  rw [lit, ofBits_one, EReal.coe_one]

theorem lit_two : lit 0x40000000#32 = ((2 : ℝ) : EReal) := by
  simp [Ideal.ofBits, Ideal.ieee, -EReal.coe_mul]; norm_num

end Cert.SegLoss

end
-- ==== Proof.Bridge.lean ====
/-
  The kernel's five sums are the reference's.

  The kernel takes each sum image by image and tile by tile; over the extended reals that is the sum over all
  pixels.  On a pixel whose logits and class weight are real numbers and whose label `t` is below 21, the label
  is the word of its class `cls t`, so the kernel's one-hot cross entropy, focal term and probability of the label
  are the reference's gathered ones at the class `cls t`, and the kernel's softmax is the reference's.  The number
  of pixels of class `k` is the sum over all pixels of the indicator of the class.
-/
import proofs.«419937_j16037407883832_3_alg».proof.Proof.PixelMath
import proofs.«419937_j16037407883832_3_alg».proof.Proof.Sums
import Mathlib.Algebra.BigOperators.Ring.Finset
import Mathlib.Data.EReal.Basic

noncomputable section

open scoped BigOperators

namespace Cert.SegLoss

open Cert.ERealBN Idealize.ShloMosaic Idealize.ShloMosaic.ValueIdx

/-! ## One pixel with a label below 21 -/

section Pixel
variable {x : Fin 21 → EReal} {w : EReal} {t : BitVec 32}

/-- The kernel's cross entropy at a label below 21 is the reference's at the label's class. -/
theorem ceK_cls (hx : ∀ c, IsReal (x c)) (hw : IsReal w) (ht : t.toNat < 21) : ceK x t w = ceR x (cls t) w := by
  have h := ceK_eq hx hw (cls t)
  rwa [ofNat_cls_of_lt ht] at h

/-- The kernel's focal term at a label below 21 is the reference's at the label's class. -/
theorem focK_cls (hx : ∀ c, IsReal (x c)) (hw : IsReal w) (ht : t.toNat < 21) : focK x t w = focR x (cls t) w := by
  have h := focK_eq hx hw (cls t)
  rwa [ofNat_cls_of_lt ht] at h

/-- The kernel's masked probability of the label, at a label below 21: the softmax of class `k` where the label's
    class is `k`, zero elsewhere. -/
theorem ptK_cls (x : Fin 21 → EReal) (ht : t.toNat < 21) (k : Fin 21) :
    ptK x t k = if cls t = k then prR x k else 0 := by
  have h := ptK_eq x (cls t) k
  rw [ofNat_cls_of_lt ht] at h
  rw [h]
  by_cases hk : cls t = k
  · rw [if_pos hk.symm, if_pos hk, hk]
  · rw [if_neg (fun e => hk e.symm), if_neg hk]

end Pixel

/-! ## The five sums -/

/-- The logits of a pixel of real inputs are real. -/
theorem pxAt_isReal {X : SX.Idx → EReal} (hX : ∀ i, IsReal (X i)) (i : ST.Idx) (c : Fin 21) : IsReal (pxAt X i c) :=
  hX (ix4 (i 0) c (i 1) (i 2))

theorem bridge (X : SX.Idx → EReal) (CW : SC.Idx → EReal) (TG : ST.Idx → BitVec 32) (hX : ∀ i, IsReal (X i))
    (hW : ∀ i, IsReal (CW i)) (hT : ∀ i, (TG i).toNat < 21) :
    results (pixSumK (fun i => ceK (pxAt X i) (TG i) (CW (ix1 (cls (TG i))))))
            (pixSumK (fun i => focK (pxAt X i) (TG i) (CW (ix1 (cls (TG i))))))
            (fun k => lit 0x00000000#32 + pixSumK (fun i => ptK (pxAt X i) (TG i) k))
            (fun k => lit 0x00000000#32 + pixSumK (fun i => prK (pxAt X i) k))
            (fun k => (((Finset.univ.filter (fun i : ST.Idx => cls (TG i) = k)).card : ℝ) : EReal))
    = results (∑ i : ST.Idx, ceR (pxAt X i) (cls (TG i)) (CW (ix1 (cls (TG i)))))
              (∑ i : ST.Idx, focR (pxAt X i) (cls (TG i)) (CW (ix1 (cls (TG i)))))
              (fun k => lit 0x00000000#32 + ∑ i : ST.Idx, if cls (TG i) = k then prR (pxAt X i) k else 0)
              (fun k => lit 0x00000000#32 + ∑ i : ST.Idx, prR (pxAt X i) k)
              (fun k => lit 0x00000000#32 + ∑ i : ST.Idx, if cls (TG i) = k then lit 0x3F800000#32 else 0) := by
  have e1 : pixSumK (fun i => ceK (pxAt X i) (TG i) (CW (ix1 (cls (TG i)))))
      = ∑ i : ST.Idx, ceR (pxAt X i) (cls (TG i)) (CW (ix1 (cls (TG i)))) := by
    rw [pixSumK_eq]
    exact Finset.sum_congr rfl fun i _ => ceK_cls (pxAt_isReal hX i) (hW _) (hT i)
  have e2 : pixSumK (fun i => focK (pxAt X i) (TG i) (CW (ix1 (cls (TG i)))))
      = ∑ i : ST.Idx, focR (pxAt X i) (cls (TG i)) (CW (ix1 (cls (TG i)))) := by
    rw [pixSumK_eq]
    exact Finset.sum_congr rfl fun i _ => focK_cls (pxAt_isReal hX i) (hW _) (hT i)
  have e3 : (fun k => lit 0x00000000#32 + pixSumK (fun i => ptK (pxAt X i) (TG i) k))
      = (fun k => lit 0x00000000#32 + ∑ i : ST.Idx, if cls (TG i) = k then prR (pxAt X i) k else 0) := by
    funext k
    rw [pixSumK_eq]
    exact congrArg (lit 0x00000000#32 + ·) (Finset.sum_congr rfl fun i _ => ptK_cls (pxAt X i) (hT i) k)
  have e4 : (fun k => lit 0x00000000#32 + pixSumK (fun i => prK (pxAt X i) k))
      = (fun k => lit 0x00000000#32 + ∑ i : ST.Idx, prR (pxAt X i) k) := by
    funext k
    rw [pixSumK_eq]
    exact congrArg (lit 0x00000000#32 + ·) (Finset.sum_congr rfl fun i _ => prK_eq (pxAt_isReal hX i) k)
  have e5 : (fun k => (((Finset.univ.filter (fun i : ST.Idx => cls (TG i) = k)).card : ℝ) : EReal))
      = (fun k => lit 0x00000000#32 + ∑ i : ST.Idx, if cls (TG i) = k then lit 0x3F800000#32 else 0) := by
    funext k
    rw [lit_zero, lit_one, zero_add, EReal.coe_natCast]
    exact Finset.natCast_card_filter _ _
  rw [e1, e2, e3, e4, e5]

end Cert.SegLoss

end
-- ==== Proof.PreFacts.lean ====
/-
  What the precondition says of the three inputs.

  The precondition is a conjunction of four statements, each "for every entry": the absolute value of every logit
  is below `+∞`, the absolute value of every class weight is below `+∞`, every label is at least 0 and every
  label is below 21 (both read as signed words).  An extended real `x` with `max x (-x) < +∞` is neither
  infinity, so it is a real number; a 32-bit word whose signed value lies in `[0, 21)` has that same unsigned value.
-/
import proofs.«419937_j16037407883832_3_alg».proof.Pre_finite_inputs
import proofs.«419937_j16037407883832_3_alg».proof.Proof.Gen.Pre_finite_inputs
import proofs.«419937_j16037407883832_3_alg».proof.Proof.Spec
import Idealize.ShloMosaic.Lib.ReduceAll
import Idealize.ShloMosaic.Lib.ValueIdx
import Idealize.ShloMosaic.Lib.StableHlo.Predicate

noncomputable section

namespace Cert.SegLoss.Pre

open Cert.ERealBN Cert.SegLoss Idealize.ShloMosaic Idealize.ShloMosaic.ValueIdx

/-- The scalar shape has one index. -/
instance : Subsingleton Cert.Pre_finite_inputs.S_.Idx := ⟨fun _ _ => funext fun d => d.elim0⟩

/-- The f32 pattern of `+∞`. -/
theorem ofBits_inf : Ideal.ofBits .f32 0x7F800000#32 = ⊤ := by
  simp [Ideal.ofBits, Ideal.ieee]

/-- An extended real whose absolute value is below `+∞` is a real number. -/
theorem isReal_of_abs_lt (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

/-- A word at least 0 and below 21 as a signed number is below 21 as an unsigned one. -/
theorem toNat_lt_of_signed (t : BitVec 32) (h0 : IntOp.cmpi .sge t 0#32 = 1#1)
    (h1 : IntOp.cmpi .slt t 21#32 = 1#1) : t.toNat < 21 := by
  rw [IntOp.cmpi_sge] at h0
  rw [IntOp.cmpi_slt] at h1
  have e0 : (0#32 : BitVec 32).toInt = 0 := by decide
  have e21 : (21#32 : BitVec 32).toInt = 21 := by decide
  rw [e0] at h0
  rw [e21] at h1
  rw [BitVec.toInt_eq_toNat_cond] at h0 h1
  have := t.isLt
  split at h0 <;> omega

/-- The precondition: every logit and every class weight is a real number, and every label is below 21. -/
theorem decode (X : SX.Idx → EReal) (CW : SC.Idx → EReal) (TG : ST.Idx → BitVec 32)
    (h : Cert.Pre_finite_inputs.fn (F := Ideal) X CW TG = fun _ => 1#1) :
    (∀ i, IsReal (X i)) ∧ (∀ i, IsReal (CW i)) ∧ (∀ i, (TG i).toNat < 21) := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_⟩
  · exact isReal_of_abs_lt (X i) (Host.reduce_andi_all _ _ _ _ _ h1 i)
  · exact isReal_of_abs_lt (CW i) (Host.reduce_andi_all _ _ _ _ _ h2 i)
  · exact toNat_lt_of_signed (TG i) (Host.reduce_andi_all _ _ _ _ _ h3 i) (Host.reduce_andi_all _ _ _ _ _ h4 i)

end Cert.SegLoss.Pre

end
-- ==== Proof.lean ====
/-
  The certificate: a weighted focal cross entropy plus a softmax dice loss over f32[8,21,512,512] logits, a table of
  21 class weights and i32[8,512,512] labels, computed by a tiled kernel against the plain reference.

  Precondition: the logits and the class weights are finite, and every label is a class index, `0 ≤ t < 21`.
  (Outside that range the reference's gathers wrap negative labels around and fill the rest with a NaN, while the
  kernel's one-hot mask selects nothing: the two programs differ there.)

  The kernel program gathers every pixel's class weight and counts the labels per class on the host, then runs one
  pallas_call over a grid of 8 images × 4 tiles of 128 rows.  Per tile it shifts the logits by their channel
  maximum, exponentiates and sums, and from the label's one-hot mask forms the per-pixel cross entropy, its focal
  term, the labelled class's probability and the softmax; it sums the four quantities over the tile and adds them
  into four accumulators, which the image's last tile writes out.  The host sums the outputs over the images and
  finishes with the means and the dice loss.  The reference computes the same per-pixel quantities with gathers,
  sums them over all pixels at once (the per-class sums by scatter-adds) and finishes with the same arithmetic.

  At the ideal instance (extended reals, exact operations):
  * pixel by pixel the two forms agree for finite logits and weight and a label below 21 (Proof/PixelMath.lean):
    the one-hot sum picks the labelled class; `0 - w = -w`; a real squared is its power 2;
    `e^{s - log S} = e^s · (1/S)` for a real `s` and a real `S > 0`;
  * the kernel's order of summation — lanes, rows, the four tiles into an accumulator from zero, the images — and the
    reference's single sum over all pixels agree, addition of extended reals being commutative and associative
    (Proof/Sums.lean, Proof/Bridge.lean);
  * the kernel's integer count of a class's labels, converted, is the reference's float sum of ones.
  So both programs' three results are the specification's `results` of the same five sums.

  The three frames: the kernel's two are the generated frame certificates; the reference's is its run with the
  results dropped.  The idealization rewrote nothing, so `preserves` is trivial.
-/
import proofs.«419937_j16037407883832_3_alg».proof.Defs
import proofs.«419937_j16037407883832_3_alg».proof.Proof.Gen.Kernel
import proofs.«419937_j16037407883832_3_alg».proof.Proof.Gen.Kernel.Frame
import proofs.«419937_j16037407883832_3_alg».proof.Proof.Gen.KernelIdeal
import proofs.«419937_j16037407883832_3_alg».proof.Proof.Gen.KernelIdeal.Frame
import proofs.«419937_j16037407883832_3_alg».proof.Proof.Gen.ReferenceIdeal
import proofs.«419937_j16037407883832_3_alg».proof.Proof.Gen.Pre_finite_inputs
import proofs.«419937_j16037407883832_3_alg».proof.Proof.KernelRun
import proofs.«419937_j16037407883832_3_alg».proof.Proof.RefRunStaged
import proofs.«419937_j16037407883832_3_alg».proof.Proof.RefSums
import proofs.«419937_j16037407883832_3_alg».proof.Proof.Bridge
import proofs.«419937_j16037407883832_3_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.SegLoss Cert.ERealBN

theorem frame_k : Cert.frame_Kernel := fun m ρ _ => Cert.Kernel.Gen.frame m ρ

theorem frame_ki : Cert.frame_KernelIdeal := fun m ρ _ => Cert.KernelIdeal.Gen.frame m ρ

/-- The reference's frame: its run with the three results dropped. -/
theorem frame_ri : Cert.frame_ReferenceIdeal := fun m ρ _ =>
  (θ_run Cert.ReferenceIdeal.defs _ _).mono (fun _ h c => (h c).2.2.2) (Cert.ReferenceIdeal.RunP.run (F := Ideal) m ρ)

theorem preserves : Cert.preserves_Kernel_KernelIdeal := trivial

/-- The reference's three results on inputs `X`, `CW`, `TG` that satisfy the precondition are the specification's
    results of the kernel's five sums: the reference's own sums (Proof/RefSums.lean) are the kernel's (Proof/Bridge.lean). -/
theorem ref_results (X : SX.Idx → EReal) (CW : SC.Idx → EReal) (TG : ST.Idx → BitVec 32)
    (hX : ∀ i, IsReal (X i)) (hW : ∀ i, IsReal (CW i)) (hT : ∀ i, (TG i).toNat < 21) :
    (Cert.ReferenceIdeal.ReadP.val_main_v53 (F := Ideal) X CW TG ix0, Cert.ReferenceIdeal.ReadP.val_main_v23 (F := Ideal) X CW TG ix0,
      Cert.ReferenceIdeal.ReadP.val_main_v51 (F := Ideal) X TG ix0)
    = results (pixSumK (fun i => ceK (pxAt X i) (TG i) (CW (ix1 (cls (TG i))))))
        (pixSumK (fun i => focK (pxAt X i) (TG i) (CW (ix1 (cls (TG i))))))
        (fun k => lit 0x00000000#32 + pixSumK (fun i => ptK (pxAt X i) (TG i) k))
        (fun k => lit 0x00000000#32 + pixSumK (fun i => prK (pxAt X i) k))
        (fun k => (((Finset.univ.filter (fun i : ST.Idx => cls (TG i) = k)).card : ℝ) : EReal)) :=
  (Cert.ReferenceIdeal.RefSums.results_eq X CW TG hT).trans (Cert.SegLoss.bridge X CW TG hX hW hT).symm

theorem algebraic : Cert.algebraic_KernelIdeal_ReferenceIdeal := by
  intro m ρ m' ρ' hpre hagree
  have hdec := fun c : Dev Cert.KernelIdeal.nD => Cert.SegLoss.Pre.decode _ _ _ (hpre c)
  have hT : ∀ (c : Dev Cert.KernelIdeal.nD) i, (Cert.KernelIdeal.HostValue.TGin m c i).toNat < 21 := fun c => (hdec c).2.2
  refine ⟨fun c _ => (Cert.KernelIdeal.KRun.kres m c).1, fun c _ => (Cert.KernelIdeal.KRun.kres m c).2.1,
    fun c _ => (Cert.KernelIdeal.KRun.kres m c).2.2, Cert.KernelIdeal.KRun.run_value m ρ hT, ?_⟩
  refine (θ_run Cert.ReferenceIdeal.defs _ _).mono (fun _ h c => ?_) (Cert.ReferenceIdeal.RunP.run (F := Ideal) m' ρ')
  have hr := ref_results _ _ _ (hdec c).1 (hdec c).2.1 (hdec c).2.2
  have h53 : Cert.ReferenceIdeal.ReadP.val_main_v53 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      = fun _ => (Cert.KernelIdeal.KRun.kres m c).1 := by
    rw [(hagree c).1, (hagree c).2.1, (hagree c).2.2]
    funext j; rw [eq_ix0 j]; exact congrArg Prod.fst hr
  have h23 : Cert.ReferenceIdeal.ReadP.val_main_v23 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      = fun _ => (Cert.KernelIdeal.KRun.kres m c).2.1 := by
    rw [(hagree c).1, (hagree c).2.1, (hagree c).2.2]
    funext j; rw [eq_ix0 j]; exact congrArg (fun p => p.2.1) hr
  have h51 : Cert.ReferenceIdeal.ReadP.val_main_v51 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg2))
      = fun _ => (Cert.KernelIdeal.KRun.kres m c).2.2 := by
    rw [(hagree c).1, (hagree c).2.2]
    funext j; rw [eq_ix0 j]; exact congrArg (fun p => p.2.2) hr
  exact ⟨(h c).1.trans h53, (h c).2.1.trans h23, (h c).2.2.1.trans h51, (h c).2.2.2⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
